-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x32 : Shape := ⟨2, ![512, 32]⟩
abbrev S1x32 : Shape := ⟨2, ![1, 32]⟩
abbrev S32x128 : Shape := ⟨2, ![32, 128]⟩
abbrev S1x128 : Shape := ⟨2, ![1, 128]⟩
abbrev S128x16 : Shape := ⟨2, ![128, 16]⟩
abbrev S1x16 : Shape := ⟨2, ![1, 16]⟩
abbrev S16x1 : Shape := ⟨2, ![16, 1]⟩
abbrev S1x1 : Shape := ⟨2, ![1, 1]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S1x32 : S_.BroadcastsInDim S1x32 (![] : Fin 0 → Fin S1x32.rank)
  reducesTo_S1x32_S_d0_1 : S1x32.ReducesTo [0, 1] S_
  bcast_S_S32x128 : S_.BroadcastsInDim S32x128 (![] : Fin 0 → Fin S32x128.rank)
  reducesTo_S32x128_S_d0_1 : S32x128.ReducesTo [0, 1] S_
  bcast_S_S1x128 : S_.BroadcastsInDim S1x128 (![] : Fin 0 → Fin S1x128.rank)
  reducesTo_S1x128_S_d0_1 : S1x128.ReducesTo [0, 1] S_
  bcast_S_S128x16 : S_.BroadcastsInDim S128x16 (![] : Fin 0 → Fin S128x16.rank)
  reducesTo_S128x16_S_d0_1 : S128x16.ReducesTo [0, 1] S_
  bcast_S_S1x16 : S_.BroadcastsInDim S1x16 (![] : Fin 0 → Fin S1x16.rank)
  reducesTo_S1x16_S_d0_1 : S1x16.ReducesTo [0, 1] S_
  bcast_S_S16x1 : S_.BroadcastsInDim S16x1 (![] : Fin 0 → Fin S16x1.rank)
  reducesTo_S16x1_S_d0_1 : S16x1.ReducesTo [0, 1] S_
  bcast_S_S1x1 : S_.BroadcastsInDim S1x1 (![] : Fin 0 → Fin S1x1.rank)
  reducesTo_S1x1_S_d0_1 : S1x1.ReducesTo [0, 1] S_

variable [Facts]

def fn_part2 {F : FTy → Type} [FloatOps F] (main_arg7 : FVec F S16x1 .f32) (main_arg8 : FVec F S1x1 .f32) (main_v33 : IVec S_ 1) : IVec S_ 1 :=
  let main_v34 : FVec F S16x1 .f32 := Host.absf main_arg7
  let main_cst_12 : FVec F S_ .f32 := constant S_ .f32 0x7F800000#32
  let main_v35 : FVec F S16x1 .f32 := broadcastInDim S16x1 ![] bcast_S_S16x1 main_cst_12
  let main_v36 : IVec S16x1 1 := cmpf .olt main_v34 main_v35
  let main_c_13 : IVec S_ 1 := constantI S_ 1 1#1
  let main_v37 : IVec S_ 1 := (fun x v => Host.reduce IntOp.andi x v reducesTo_S16x1_S_d0_1 h_S_) main_v36 main_c_13
  let main_v38 : IVec S_ 1 := andi main_v33 main_v37
  let main_v39 : FVec F S1x1 .f32 := Host.absf main_arg8
  let main_cst_14 : FVec F S_ .f32 := constant S_ .f32 0x7F800000#32
  let main_v40 : FVec F S1x1 .f32 := broadcastInDim S1x1 ![] bcast_S_S1x1 main_cst_14
  let main_v41 : IVec S1x1 1 := cmpf .olt main_v39 main_v40
  let main_c_15 : IVec S_ 1 := constantI S_ 1 1#1
  let main_v42 : IVec S_ 1 := (fun x v => Host.reduce IntOp.andi x v reducesTo_S1x1_S_d0_1 h_S_) main_v41 main_c_15
  let main_v43 : IVec S_ 1 := andi main_v38 main_v42
  main_v43

def fn_part1 {F : FTy → Type} [FloatOps F] (main_arg4 : FVec F S1x128 .f32) (main_arg5 : FVec F S128x16 .f32) (main_arg6 : FVec F S1x16 .f32) (main_arg7 : FVec F S16x1 .f32) (main_arg8 : FVec F S1x1 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S128x16 .f32 := Host.absf main_arg5
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S1x16 .f32 := Host.absf main_arg6
  let main_cst_10 : FVec F S_ .f32 := constant S_ .f32 0x7F800000#32
  let main_v30 : FVec F S1x16 .f32 := broadcastInDim S1x16 ![] bcast_S_S1x16 main_cst_10
  let main_v31 : IVec S1x16 1 := cmpf .olt main_v29 main_v30
  let main_c_11 : IVec S_ 1 := constantI S_ 1 1#1
  let main_v32 : IVec S_ 1 := (fun x v => Host.reduce IntOp.andi x v reducesTo_S1x16_S_d0_1 h_S_) main_v31 main_c_11
  let main_v33 : IVec S_ 1 := andi main_v28 main_v32
  fn_part2 (F := F) main_arg7 main_arg8 main_v33

def fn {F : FTy → Type} [FloatOps F] (main_arg0 : FVec F S32768x512 .f32) (main_arg1 : FVec F S512x32 .f32) (main_arg2 : FVec F S1x32 .f32) (main_arg3 : FVec F S32x128 .f32) (main_arg4 : FVec F S1x128 .f32) (main_arg5 : FVec F S128x16 .f32) (main_arg6 : FVec F S1x16 .f32) (main_arg7 : FVec F S16x1 .f32) (main_arg8 : FVec F S1x1 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  let main_v14 : FVec F S32x128 .f32 := Host.absf main_arg3
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg4 main_arg5 main_arg6 main_arg7 main_arg8 main_v13 main_v16
-- ==== Kernel.lean ====
abbrev S32768x512 : Shape := ⟨2, ![32768, 512]⟩
abbrev S512x32 : Shape := ⟨2, ![512, 32]⟩
abbrev S1x32 : Shape := ⟨2, ![1, 32]⟩
abbrev S32x128 : Shape := ⟨2, ![32, 128]⟩
abbrev S1x128 : Shape := ⟨2, ![1, 128]⟩
abbrev S128x16 : Shape := ⟨2, ![128, 16]⟩
abbrev S1x16 : Shape := ⟨2, ![1, 16]⟩
abbrev S16x1 : Shape := ⟨2, ![16, 1]⟩
abbrev S1x1 : Shape := ⟨2, ![1, 1]⟩
abbrev S256x32 : Shape := ⟨2, ![256, 32]⟩
abbrev S1x32768 : Shape := ⟨2, ![1, 32768]⟩
abbrev S32768 : Shape := ⟨1, ![32768]⟩
abbrev S32768x1 : Shape := ⟨2, ![32768, 1]⟩
abbrev S8192x256 : Shape := ⟨2, ![8192, 256]⟩
abbrev S1x8192 : Shape := ⟨2, ![1, 8192]⟩
abbrev S8192x32 : Shape := ⟨2, ![8192, 32]⟩
abbrev S8192x128 : Shape := ⟨2, ![8192, 128]⟩
abbrev S8192x16 : Shape := ⟨2, ![8192, 16]⟩

abbrev nBuf : Space → Nat
  | .hbm => 16
  | .vmem => 15
  | .smem => 0
  | _ => 0

abbrev bufTy : (tb : Table) → Fin (tcTables nBuf tb) → BufTy
  | .hbm, ⟨0, _⟩ => ⟨S32768x512, .f32⟩
  | .hbm, ⟨1, _⟩ => ⟨S512x32, .f32⟩
  | .hbm, ⟨2, _⟩ => ⟨S1x32, .f32⟩
  | .hbm, ⟨3, _⟩ => ⟨S32x128, .f32⟩
  | .hbm, ⟨4, _⟩ => ⟨S1x128, .f32⟩
  | .hbm, ⟨5, _⟩ => ⟨S128x16, .f32⟩
  | .hbm, ⟨6, _⟩ => ⟨S1x16, .f32⟩
  | .hbm, ⟨7, _⟩ => ⟨S16x1, .f32⟩
  | .hbm, ⟨8, _⟩ => ⟨S1x1, .f32⟩
  | .hbm, ⟨9, _⟩ => ⟨S256x32, .f32⟩
  | .hbm, ⟨10, _⟩ => ⟨S256x32, .bf16⟩
  | .hbm, ⟨11, _⟩ => ⟨S256x32, .f32⟩
  | .hbm, ⟨12, _⟩ => ⟨S256x32, .bf16⟩
  | .hbm, ⟨13, _⟩ => ⟨S1x32768, .f32⟩
  | .hbm, ⟨14, _⟩ => ⟨S32768, .f32⟩
  | .hbm, ⟨15, _⟩ => ⟨S32768x1, .f32⟩
  | .local _ .vmem, ⟨0, _⟩ => ⟨S8192x256, .f32⟩
  | .local _ .vmem, ⟨1, _⟩ => ⟨S8192x256, .f32⟩
  | .local _ .vmem, ⟨2, _⟩ => ⟨S8192x256, .f32⟩
  | .local _ .vmem, ⟨3, _⟩ => ⟨S8192x256, .f32⟩
  | .local _ .vmem, ⟨4, _⟩ => ⟨S256x32, .bf16⟩
  | .local _ .vmem, ⟨5, _⟩ => ⟨S256x32, .bf16⟩
  | .local _ .vmem, ⟨6, _⟩ => ⟨S1x32, .f32⟩
  | .local _ .vmem, ⟨7, _⟩ => ⟨S32x128, .f32⟩
  | .local _ .vmem, ⟨8, _⟩ => ⟨S1x128, .f32⟩
  | .local _ .vmem, ⟨9, _⟩ => ⟨S128x16, .f32⟩
  | .local _ .vmem, ⟨10, _⟩ => ⟨S1x16, .f32⟩
  | .local _ .vmem, ⟨11, _⟩ => ⟨S16x1, .f32⟩
  | .local _ .vmem, ⟨12, _⟩ => ⟨S1x1, .f32⟩
  | .local _ .vmem, ⟨13, _⟩ => ⟨S1x8192, .f32⟩
  | .local _ .vmem, ⟨14, _⟩ => ⟨S1x8192, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x8192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  slices_S512x32_S256x32_0_0 : S512x32.Slices ![0, 0] S256x32
  bitsLt_bf16_f32 : FTy.bits .bf16 < FTy.bits .f32
  slices_S512x32_S256x32_256_0 : S512x32.Slices ![256, 0] S256x32
  shapeCasts_S1x32768_S32768 : S1x32768.ShapeCasts S32768
  shapeCasts_S32768_S32768x1 : S32768.ShapeCasts S32768x1
  inb_S8192x256_S8192x256_0_0 : ∀ a, (![0, 0] : Fin 2 → Nat) a + S8192x256.size a ≤ S8192x256.size a
  h_S8192x256 : 0 < S8192x256.numel
  inb_S256x32_S256x32_0_0 : ∀ a, (![0, 0] : Fin 2 → Nat) a + S256x32.size a ≤ S256x32.size a
  h_S256x32 : 0 < S256x32.numel
  shapeCasts_S256x32_S256x32 : S256x32.ShapeCasts S256x32
  inb_S1x32_S1x32_0_0 : ∀ a, (![0, 0] : Fin 2 → Nat) a + S1x32.size a ≤ S1x32.size a
  h_S1x32 : 0 < S1x32.numel
  broadcasts_S1x32_S8192x32 : S1x32.Broadcasts S8192x32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  broadcasts_S1x128_S8192x128 : S1x128.Broadcasts S8192x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  broadcasts_S1x16_S8192x16 : S1x16.Broadcasts S8192x16
  inb_S16x1_S16x1_0_0 : ∀ a, (![0, 0] : Fin 2 → Nat) a + S16x1.size a ≤ S16x1.size a
  h_S16x1 : 0 < S16x1.numel
  inb_S1x1_S1x1_0_0 : ∀ a, (![0, 0] : Fin 2 → Nat) a + S1x1.size a ≤ S1x1.size a
  h_S1x1 : 0 < S1x1.numel
  broadcasts_S1x1_S1x8192 : S1x1.Broadcasts S1x8192
  inb_S1x8192_S1x8192_0_0 : ∀ a, (![0, 0] : Fin 2 → Nat) a + S1x8192.size a ≤ S1x8192.size a
  h_S1x8192 : 0 < S1x8192.numel
  dot_S8192x256_S256x32_S8192x32_1_0_0_1_n_n_wf : DotDims.WF S8192x256 S256x32 S8192x32 [1] [0] [0] [1] [] []
  dot_S8192x32_S32x128_S8192x128_1_0_0_1_n_n_wf : DotDims.WF S8192x32 S32x128 S8192x128 [1] [0] [0] [1] [] []
  dot_S8192x128_S128x16_S8192x16_1_0_0_1_n_n_wf : DotDims.WF S8192x128 S128x16 S8192x16 [1] [0] [0] [1] [] []
  dot_S16x1_S8192x16_S1x8192_0_1_1_0_n_n_wf : DotDims.WF S16x1 S8192x16 S1x8192 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S32768x512.size a
  hwx0_0 : ∀ i : grid0.Coords, EltTy.bits .f32 = 32 ∨ (Rect.block (s := S32768x512) S8192x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S32768x512.size a
  hwx0_1 : ∀ i : grid0.Coords, EltTy.bits .f32 = 32 ∨ (Rect.block (s := S32768x512) S8192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S256x32.size a
  hwx0_2 : ∀ i : grid0.Coords, EltTy.bits .bf16 = 32 ∨ (Rect.block (s := S256x32) S256x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x32.size a ≤ S256x32.size a
  hwx0_3 : ∀ i : grid0.Coords, EltTy.bits .bf16 = 32 ∨ (Rect.block (s := S256x32) S256x32.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .f32 = 32 ∨ (Rect.block (s := S32x128) S32x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x16.size a ≤ S128x16.size a
  hwx0_7 : ∀ i : grid0.Coords, EltTy.bits .f32 = 32 ∨ (Rect.block (s := S128x16) S128x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x1.size a ≤ S16x1.size a
  hwx0_9 : ∀ i : grid0.Coords, EltTy.bits .f32 = 32 ∨ (Rect.block (s := S16x1) S16x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1.size a ≤ S1x1.size a
  hwx0_10 : ∀ i : grid0.Coords, EltTy.bits .f32 = 32 ∨ (Rect.block (s := S1x1) S1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x8192.size a ≤ S1x32768.size a
  hwx0_11 : ∀ i : grid0.Coords, EltTy.bits .f32 = 32 ∨ (Rect.block (s := S1x32768) S1x8192.size (cc0_transform_11 i) (hinb0_11 i)).WholeWords (EltTy.packing .f32)

variable [Facts₀]

def dot_S8192x256_S256x32_S8192x32_1_0_0_1_n_n : DotDims S8192x256 S256x32 S8192x32 where
  lhsContracting := [1]
  rhsContracting := [0]
  lhsNonContracting := [0]
  rhsNonContracting := [1]
  lhsBatch := []
  rhsBatch := []
  wf := dot_S8192x256_S256x32_S8192x32_1_0_0_1_n_n_wf
def dot_S8192x32_S32x128_S8192x128_1_0_0_1_n_n : DotDims S8192x32 S32x128 S8192x128 where
  lhsContracting := [1]
  rhsContracting := [0]
  lhsNonContracting := [0]
  rhsNonContracting := [1]
  lhsBatch := []
  rhsBatch := []
  wf := dot_S8192x32_S32x128_S8192x128_1_0_0_1_n_n_wf
def dot_S8192x128_S128x16_S8192x16_1_0_0_1_n_n : DotDims S8192x128 S128x16 S8192x16 where
  lhsContracting := [1]
  rhsContracting := [0]
  lhsNonContracting := [0]
  rhsNonContracting := [1]
  lhsBatch := []
  rhsBatch := []
  wf := dot_S8192x128_S128x16_S8192x16_1_0_0_1_n_n_wf
def dot_S16x1_S8192x16_S1x8192_0_1_1_0_n_n : DotDims S16x1 S8192x16 S1x8192 where
  lhsContracting := [0]
  rhsContracting := [1]
  lhsNonContracting := [1]
  rhsNonContracting := [0]
  lhsBatch := []
  rhsBatch := []
  wf := dot_S16x1_S8192x16_S1x8192_0_1_1_0_n_n_wf

abbrev win0_0 : Pipeline.Window sig grid0 :=
  Pipeline.Window.ofSpec (Memref.whole main_arg0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S256x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S256x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S128x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S16x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v4) S1x8192.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S32768x512 : Shape := ⟨2, ![32768, 512]⟩
abbrev S512x32 : Shape := ⟨2, ![512, 32]⟩
abbrev S1x32 : Shape := ⟨2, ![1, 32]⟩
abbrev S32x128 : Shape := ⟨2, ![32, 128]⟩
abbrev S1x128 : Shape := ⟨2, ![1, 128]⟩
abbrev S128x16 : Shape := ⟨2, ![128, 16]⟩
abbrev S1x16 : Shape := ⟨2, ![1, 16]⟩
abbrev S16x1 : Shape := ⟨2, ![16, 1]⟩
abbrev S1x1 : Shape := ⟨2, ![1, 1]⟩
abbrev S0 : Shape := ⟨1, ![0]⟩
abbrev S_ : Shape := ⟨0, ![]⟩
abbrev S512x32768 : Shape := ⟨2, ![512, 32768]⟩
abbrev S32x512 : Shape := ⟨2, ![32, 512]⟩
abbrev S128x32 : Shape := ⟨2, ![128, 32]⟩
abbrev S16x128 : Shape := ⟨2, ![16, 128]⟩
abbrev S32x1 : Shape := ⟨2, ![32, 1]⟩
abbrev S128x1 : Shape := ⟨2, ![128, 1]⟩
abbrev S1x32768 : Shape := ⟨2, ![1, 32768]⟩
abbrev S32768 : Shape := ⟨1, ![32768]⟩
abbrev S32768x1 : Shape := ⟨2, ![32768, 1]⟩
abbrev S512x128 : Shape := ⟨2, ![512, 128]⟩
abbrev S128x128 : Shape := ⟨2, ![128, 128]⟩
abbrev S128 : Shape := ⟨1, ![128]⟩

abbrev nBuf : Space → Nat
  | .hbm => 24
  | .vmem => 12
  | .smem => 0
  | _ => 0

abbrev bufTy : (tb : Table) → Fin (tcTables nBuf tb) → BufTy
  | .hbm, ⟨0, _⟩ => ⟨S32768x512, .f32⟩
  | .hbm, ⟨1, _⟩ => ⟨S512x32, .f32⟩
  | .hbm, ⟨2, _⟩ => ⟨S1x32, .f32⟩
  | .hbm, ⟨3, _⟩ => ⟨S32x128, .f32⟩
  | .hbm, ⟨4, _⟩ => ⟨S1x128, .f32⟩
  | .hbm, ⟨5, _⟩ => ⟨S128x16, .f32⟩
  | .hbm, ⟨6, _⟩ => ⟨S1x16, .f32⟩
  | .hbm, ⟨7, _⟩ => ⟨S16x1, .f32⟩
  | .hbm, ⟨8, _⟩ => ⟨S1x1, .f32⟩
  | .hbm, ⟨9, _⟩ => ⟨S0, .i32⟩
  | .hbm, ⟨10, _⟩ => ⟨S_, .f32⟩
  | .hbm, ⟨11, _⟩ => ⟨S512x32768, .f32⟩
  | .hbm, ⟨12, _⟩ => ⟨S512x32768, .f32⟩
  | .hbm, ⟨13, _⟩ => ⟨S512x32768, .f32⟩
  | .hbm, ⟨14, _⟩ => ⟨S32x512, .f32⟩
  | .hbm, ⟨15, _⟩ => ⟨S128x32, .f32⟩
  | .hbm, ⟨16, _⟩ => ⟨S16x128, .f32⟩
  | .hbm, ⟨17, _⟩ => ⟨S32x1, .f32⟩
  | .hbm, ⟨18, _⟩ => ⟨S128x1, .f32⟩
  | .hbm, ⟨19, _⟩ => ⟨S16x1, .f32⟩
  | .hbm, ⟨20, _⟩ => ⟨S1x1, .f32⟩
  | .hbm, ⟨21, _⟩ => ⟨S1x32768, .f32⟩
  | .hbm, ⟨22, _⟩ => ⟨S32768, .f32⟩
  | .hbm, ⟨23, _⟩ => ⟨S32768x1, .f32⟩
  | .local _ .vmem, ⟨0, _⟩ => ⟨S512x128, .f32⟩
  | .local _ .vmem, ⟨1, _⟩ => ⟨S512x128, .f32⟩
  | .local _ .vmem, ⟨2, _⟩ => ⟨S32x512, .f32⟩
  | .local _ .vmem, ⟨3, _⟩ => ⟨S32x1, .f32⟩
  | .local _ .vmem, ⟨4, _⟩ => ⟨S128x32, .f32⟩
  | .local _ .vmem, ⟨5, _⟩ => ⟨S128x1, .f32⟩
  | .local _ .vmem, ⟨6, _⟩ => ⟨S16x128, .f32⟩
  | .local _ .vmem, ⟨7, _⟩ => ⟨S16x1, .f32⟩
  | .local _ .vmem, ⟨8, _⟩ => ⟨S16x1, .f32⟩
  | .local _ .vmem, ⟨9, _⟩ => ⟨S1x1, .f32⟩
  | .local _ .vmem, ⟨10, _⟩ => ⟨S1x128, .f32⟩
  | .local _ .vmem, ⟨11, _⟩ => ⟨S1x128, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_v0 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  hz_S0 : S0.numel = 0
  bcast_S_S512x32768 : S_.BroadcastsInDim S512x32768 (![] : Fin 0 → Fin S512x32768.rank)
  transposes_S32768x512_S512x32768_1_0 : S32768x512.Transposes [1, 0] S512x32768
  transposes_S512x32_S32x512_1_0 : S512x32.Transposes [1, 0] S32x512
  transposes_S32x128_S128x32_1_0 : S32x128.Transposes [1, 0] S128x32
  transposes_S128x16_S16x128_1_0 : S128x16.Transposes [1, 0] S16x128
  transposes_S1x32_S32x1_1_0 : S1x32.Transposes [1, 0] S32x1
  transposes_S1x128_S128x1_1_0 : S1x128.Transposes [1, 0] S128x1
  transposes_S1x16_S16x1_1_0 : S1x16.Transposes [1, 0] S16x1
  transposes_S1x1_S1x1_1_0 : S1x1.Transposes [1, 0] S1x1
  shapeCasts_S1x32768_S32768 : S1x32768.ShapeCasts S32768
  shapeCasts_S32768_S32768x1 : S32768.ShapeCasts S32768x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x128 : S32x1.Broadcasts S32x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  broadcasts_S128x1_S128x128 : S128x1.Broadcasts S128x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x128 : S16x1.Broadcasts S16x128
  reduces_S16x128_S128 : S16x128.Reduces [0] S128
  shapeCasts_S128_S1x128 : S128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x128 : S1x1.Broadcasts S1x128
  inb_S1x128_S1x128_0_0 : ∀ a, (![0, 0] : Fin 2 → Nat) a + S1x128.size a ≤ S1x128.size a
  h_S1x128 : 0 < S1x128.numel
  scatter_S512x32768_S0_S512x32768_01_n_n_0_wf : ScatterDims.WF S512x32768 S0 S512x32768 [0, 1] [] [] 0
  dot_S32x512_S512x128_S32x128_1_0_0_1_n_n_wf : DotDims.WF S32x512 S512x128 S32x128 [1] [0] [0] [1] [] []
  dot_S128x32_S32x128_S128x128_1_0_0_1_n_n_wf : DotDims.WF S128x32 S32x128 S128x128 [1] [0] [0] [1] [] []
  dot_S16x128_S128x128_S16x128_1_0_0_1_n_n_wf : DotDims.WF S16x128 S128x128 S16x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S512x32768.size a
  hwx0_0 : ∀ i : grid0.Coords, EltTy.bits .f32 = 32 ∨ (Rect.block (s := S512x32768) S512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .f32 = 32 ∨ (Rect.block (s := S128x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x128.size a ≤ S16x128.size a
  hwx0_5 : ∀ i : grid0.Coords, EltTy.bits .f32 = 32 ∨ (Rect.block (s := S16x128) S16x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x1.size a ≤ S16x1.size a
  hwx0_6 : ∀ i : grid0.Coords, EltTy.bits .f32 = 32 ∨ (Rect.block (s := S16x1) S16x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x1.size a ≤ S16x1.size a
  hwx0_7 : ∀ i : grid0.Coords, EltTy.bits .f32 = 32 ∨ (Rect.block (s := S16x1) S16x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x32768.size a
  hwx0_9 : ∀ i : grid0.Coords, EltTy.bits .f32 = 32 ∨ (Rect.block (s := S1x32768) S1x128.size (cc0_transform_9 i) (hinb0_9 i)).WholeWords (EltTy.packing .f32)

variable [Facts₀]

def scatter_S512x32768_S0_S512x32768_01_n_n_0 : ScatterDims S512x32768 S0 S512x32768 where
  updateWindowDims := [0, 1]
  insertedWindowDims := []
  scatterDimsToOperandDims := []
  indexVectorDim := 0
  wf := scatter_S512x32768_S0_S512x32768_01_n_n_0_wf
def dot_S32x512_S512x128_S32x128_1_0_0_1_n_n : DotDims S32x512 S512x128 S32x128 where
  lhsContracting := [1]
  rhsContracting := [0]
  lhsNonContracting := [0]
  rhsNonContracting := [1]
  lhsBatch := []
  rhsBatch := []
  wf := dot_S32x512_S512x128_S32x128_1_0_0_1_n_n_wf
def dot_S128x32_S32x128_S128x128_1_0_0_1_n_n : DotDims S128x32 S32x128 S128x128 where
  lhsContracting := [1]
  rhsContracting := [0]
  lhsNonContracting := [0]
  rhsNonContracting := [1]
  lhsBatch := []
  rhsBatch := []
  wf := dot_S128x32_S32x128_S128x128_1_0_0_1_n_n_wf
def dot_S16x128_S128x128_S16x128_1_0_0_1_n_n : DotDims S16x128 S128x128 S16x128 where
  lhsContracting := [1]
  rhsContracting := [0]
  lhsNonContracting := [0]
  rhsNonContracting := [1]
  lhsBatch := []
  rhsBatch := []
  wf := dot_S16x128_S128x128_S16x128_1_0_0_1_n_n_wf

abbrev win0_0 : Pipeline.Window sig grid0 :=
  Pipeline.Window.ofSpec (Memref.whole main_call0_v2) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v6) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v4) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v7) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v5) S16x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v8) S16x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v9) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v10) S1x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== Proof.Spec.lean ====
import Idealize.ShloMosaic.PureOps.Ideal
import Idealize.ShloMosaic.Lib.ValueIdx

/-!
# The network as one function of its arguments

A four-layer perceptron on the extended reals: three dense layers with the rectifier `max · 0`, widths
512 → 32 → 128 → 16, then one output unit and the logistic function. A batch is a family of rows; each
row's output depends on that row alone, so the function is stated for any number of rows and a block of
rows of a batch is computed by the same function of that block.
-/

noncomputable section

namespace Cert.Mlp

open Idealize.ShloMosaic Idealize.ShloMosaic.ValueIdx

/-- One dense layer followed by the rectifier: row `r`, unit `j` is `max (∑ₖ h r k · w k j + b j) 0`. -/
def dense {B K J : ℕ} (h : Fin B → Fin K → EReal) (w : Fin K → Fin J → EReal) (b : Fin J → EReal)
    (r : Fin B) (j : Fin J) : EReal :=
  max ((∑ k, h r k * w k j) + b j) 0

/-- The output unit before the logistic function: `∑ⱼ w₄ j · h r j + b₄`. -/
def logit {B : ℕ} (h : Fin B → Fin 16 → EReal) (w4 : Fin 16 → EReal) (b4 : EReal) (r : Fin B) : EReal :=
  (∑ j, w4 j * h r j) + b4

/-- The network on row `r` of a batch of `B` rows. -/
def mlp {B : ℕ} (x : Fin B → Fin 512 → EReal) (w1 : Fin 512 → Fin 32 → EReal) (b1 : Fin 32 → EReal)
    (w2 : Fin 32 → Fin 128 → EReal) (b2 : Fin 128 → EReal) (w3 : Fin 128 → Fin 16 → EReal) (b3 : Fin 16 → EReal)
    (w4 : Fin 16 → EReal) (b4 : EReal) (r : Fin B) : EReal :=
  Ideal.logistic (logit (dense (dense (dense x w1 b1) w2 b2) w3 b3) w4 b4 r)

/-- The result array `[32768, 1]` as a function of the nine argument arrays. -/
def result (x : FVec Ideal ⟨2, ![32768, 512]⟩ .f32) (w1 : FVec Ideal ⟨2, ![512, 32]⟩ .f32) (b1 : FVec Ideal ⟨2, ![1, 32]⟩ .f32)
    (w2 : FVec Ideal ⟨2, ![32, 128]⟩ .f32) (b2 : FVec Ideal ⟨2, ![1, 128]⟩ .f32) (w3 : FVec Ideal ⟨2, ![128, 16]⟩ .f32)
    (b3 : FVec Ideal ⟨2, ![1, 16]⟩ .f32) (w4 : FVec Ideal ⟨2, ![16, 1]⟩ .f32) (b4 : FVec Ideal ⟨2, ![1, 1]⟩ .f32) :
    FVec Ideal ⟨2, ![32768, 1]⟩ .f32 :=
  fun i => mlp (fun r k => x (ix2 r k)) (fun k j => w1 (ix2 k j)) (fun j => b1 (ix2 0 j)) (fun k j => w2 (ix2 k j))
    (fun j => b2 (ix2 0 j)) (fun k j => w3 (ix2 k j)) (fun j => b3 (ix2 0 j)) (fun j => w4 (ix2 j 0)) (b4 (ix2 0 0)) (i 0)

/-- A sum over 512 terms is the sum of its first 256 and its last 256: addition on the extended reals is
    associative and commutative, so no finiteness is needed. -/
theorem sum_halves (f : Fin 512 → EReal) :
    (∑ k : Fin 512, f k) = (∑ k : Fin 256, f (Fin.castAdd 256 k)) + ∑ k : Fin 256, f (Fin.natAdd 256 k) :=
  Fin.sum_univ_add (a := 256) (b := 256) f

/-- The network on a block of rows is the network on the batch at those rows. -/
theorem mlp_rows {B B' : ℕ} (ι : Fin B' → Fin B) (x : Fin B → Fin 512 → EReal) (w1 : Fin 512 → Fin 32 → EReal) (b1 : Fin 32 → EReal)
    (w2 : Fin 32 → Fin 128 → EReal) (b2 : Fin 128 → EReal) (w3 : Fin 128 → Fin 16 → EReal) (b3 : Fin 16 → EReal)
    (w4 : Fin 16 → EReal) (b4 : EReal) (r : Fin B') :
    mlp (fun r' k => x (ι r') k) w1 b1 w2 b2 w3 b3 w4 b4 r = mlp x w1 b1 w2 b2 w3 b3 w4 b4 (ι r) := rfl

end Cert.Mlp

end
-- ==== Proof.KBody.lean ====
import proofs.«110689_g2000103882058017_pallasbulk_729_24_alg».proof.Proof.Gen.Kernel.Launch
import proofs.«110689_g2000103882058017_pallasbulk_729_24_alg».proof.Proof.Gen.Kernel.Skeleton
import proofs.«110689_g2000103882058017_pallasbulk_729_24_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's accesses: every load and the one store go through the whole buffer -/

abbrev rX : Rect S8192x256 := Rect.unit (s := S8192x256) ![0, 0] S8192x256.size inb_S8192x256_S8192x256_0_0
abbrev rW1 : Rect S256x32 := Rect.unit (s := S256x32) ![0, 0] S256x32.size inb_S256x32_S256x32_0_0
abbrev rB1 : Rect S1x32 := Rect.unit (s := S1x32) ![0, 0] S1x32.size inb_S1x32_S1x32_0_0
abbrev rW2 : Rect S32x128 := Rect.unit (s := S32x128) ![0, 0] S32x128.size inb_S32x128_S32x128_0_0
abbrev rB2 : Rect S1x128 := Rect.unit (s := S1x128) ![0, 0] S1x128.size inb_S1x128_S1x128_0_0
abbrev rW3 : Rect S128x16 := Rect.unit (s := S128x16) ![0, 0] S128x16.size inb_S128x16_S128x16_0_0
abbrev rB3 : Rect S1x16 := Rect.unit (s := S1x16) ![0, 0] S1x16.size inb_S1x16_S1x16_0_0
abbrev rW4 : Rect S16x1 := Rect.unit (s := S16x1) ![0, 0] S16x1.size inb_S16x1_S16x1_0_0
abbrev rB4 : Rect S1x1 := Rect.unit (s := S1x1) ![0, 0] S1x1.size inb_S1x1_S1x1_0_0
abbrev rOut : Rect S1x8192 := Rect.unit (s := S1x8192) ![0, 0] S1x8192.size inb_S1x8192_S1x8192_0_0

/-! ## What the body leaves in the output window's buffer -/

/-- The output block after the body, from the eleven input blocks: the one store, whose value is the
    sigmoid row computed from the third hidden layer, itself computed from the two column halves of the
    batch tile and the weights. -/
def outBlk (x0 : Vec F S8192x256 .f32) (x1 : Vec F S8192x256 .f32) (x2 : Vec F S256x32 .bf16) (x3 : Vec F S256x32 .bf16) (x4 : Vec F S1x32 .f32) (x5 : Vec F S32x128 .f32) (x6 : Vec F S1x128 .f32) (x7 : Vec F S128x16 .f32) (x8 : Vec F S1x16 .f32) (x9 : Vec F S16x1 .f32) (x10 : Vec F S1x1 .f32) : Vec F S1x8192 .f32 :=
  View.canon [⟨rOut, k0_pay1 (k0_pay2 (View.ld x0 rX) (View.ld x2 rW1) (View.ld x1 rX) (View.ld x3 rW1) (View.ld x4 rB1) (View.ld x5 rW2) (View.ld x6 rB2) (View.ld x7 rW3) (View.ld x8 rB3)) (View.ld x9 rW4) (constant S1x8192 .f32 0x00000000#32) (View.ld x10 rB4)⟩]

/-- The one store writes the whole block. -/
theorem outCover (p0 : Vec F S1x8192 .f32) (y : S1x8192.Idx) :
    ∃ pc ∈ ([⟨rOut, p0⟩] : List (View.Piece (Elt F) S1x8192 .f32)), y ∈ pc.1.set :=
  View.cover_of_tiled [⟨rOut, p0⟩] S1x8192.size (by rfl) y

/-! ## The body's triple -/

set_option maxHeartbeats 1000000 in
/-- The kernel body on whole staging memrefs, the inputs at contents `xW` and the output at anything, runs to the
    continuation with the inputs as they were and the output at `outBlk` of them. -/
theorem sound_kernel (c : Dev nD) (E : Set ℕ) (i : grid0.Coords) (arg1 : Memref sig .tc .vmem S8192x256 .f32) (harg1 : arg1.IsWhole) (arg2 : Memref sig .tc .vmem S8192x256 .f32) (harg2 : arg2.IsWhole) (arg3 : Memref sig .tc .vmem S256x32 .bf16) (harg3 : arg3.IsWhole) (arg4 : Memref sig .tc .vmem S256x32 .bf16) (harg4 : arg4.IsWhole) (arg5 : Memref sig .tc .vmem S1x32 .f32) (harg5 : arg5.IsWhole) (arg6 : Memref sig .tc .vmem S32x128 .f32) (harg6 : arg6.IsWhole) (arg7 : Memref sig .tc .vmem S1x128 .f32) (harg7 : arg7.IsWhole) (arg8 : Memref sig .tc .vmem S128x16 .f32) (harg8 : arg8.IsWhole) (arg9 : Memref sig .tc .vmem S1x16 .f32) (harg9 : arg9.IsWhole) (arg10 : Memref sig .tc .vmem S16x1 .f32) (harg10 : arg10.IsWhole) (arg11 : Memref sig .tc .vmem S1x1 .f32) (harg11 : arg11.IsWhole) (arg12 : Memref sig .tc .vmem S1x8192 .f32) (harg12 : arg12.IsWhole)
    (x0 : Vec F S8192x256 .f32) (x1 : Vec F S8192x256 .f32) (x2 : Vec F S256x32 .bf16) (x3 : Vec F S256x32 .bf16) (x4 : Vec F S1x32 .f32) (x5 : Vec F S32x128 .f32) (x6 : Vec F S1x128 .f32) (x7 : Vec F S128x16 .f32) (x8 : Vec F S1x16 .f32) (x9 : Vec F S16x1 .f32) (x10 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (outBlk x0 x1 x2 x3 x4 x5 x6 x7 x8 x9 x10)) -∗ K ⟨⟩))
      ⊢ wp frame (wpE (defs₀ (F := F)) Variants.none c none) E (cc0__mlp_fused_kernel i arg1 harg1 arg2 harg2 arg3 harg3 arg4 harg4 arg5 harg5 arg6 harg6 arg7 harg7 arg8 harg8 arg9 harg9 arg10 harg10 arg11 harg11 arg12 harg12) K := by
  simp only [cc0__mlp_fused_kernel_eq_skeleton]; unfold cc0__mlp_fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (outCover _)

end Cert.Kernel.Hand

end
-- ==== Proof.KFrame.lean ====
import proofs.«110689_g2000103882058017_pallasbulk_729_24_alg».proof.Proof.Gen.Kernel.Launch
import proofs.«110689_g2000103882058017_pallasbulk_729_24_alg».proof.Proof.Gen.Kernel.Skeleton
import proofs.«110689_g2000103882058017_pallasbulk_729_24_alg».proof.Proof.Gen.Kernel.Points
import proofs.«110689_g2000103882058017_pallasbulk_729_24_alg».proof.Proof.KBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: after the four host operations that cut the first
    weight matrix into its upper and lower halves and change their format. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the two reshapes after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data of the pipeline on core `c`. The batch array is read through two windows, its left and its
    right column half: each holds half of the array's share; every other array is held whole. After the body each
    input buffer holds its block and the output buffer the block computed from them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlk (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = outBlk (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d
theorem before_3 (c : Dev nD) (t : Fin cfg0.N) (d) : (dats m 0 c).before 3 t d = iblk m c 3 t :=
  before3_of m (dats m 0 c) (A_eq m c 3) (after_3 m c) t d
theorem before_4 (c : Dev nD) (t : Fin cfg0.N) (d) : (dats m 0 c).before 4 t d = iblk m c 4 t :=
  before4_of m (dats m 0 c) (A_eq m c 4) (after_4 m c) t d
theorem before_5 (c : Dev nD) (t : Fin cfg0.N) (d) : (dats m 0 c).before 5 t d = iblk m c 5 t :=
  before5_of m (dats m 0 c) (A_eq m c 5) (after_5 m c) t d
theorem before_6 (c : Dev nD) (t : Fin cfg0.N) (d) : (dats m 0 c).before 6 t d = iblk m c 6 t :=
  before6_of m (dats m 0 c) (A_eq m c 6) (after_6 m c) t d
theorem before_7 (c : Dev nD) (t : Fin cfg0.N) (d) : (dats m 0 c).before 7 t d = iblk m c 7 t :=
  before7_of m (dats m 0 c) (A_eq m c 7) (after_7 m c) t d
theorem before_8 (c : Dev nD) (t : Fin cfg0.N) (d) : (dats m 0 c).before 8 t d = iblk m c 8 t :=
  before8_of m (dats m 0 c) (A_eq m c 8) (after_8 m c) t d
theorem before_9 (c : Dev nD) (t : Fin cfg0.N) (d) : (dats m 0 c).before 9 t d = iblk m c 9 t :=
  before9_of m (dats m 0 c) (A_eq m c 9) (after_9 m c) t d
theorem before_10 (c : Dev nD) (t : Fin cfg0.N) (d) : (dats m 0 c).before 10 t d = iblk m c 10 t :=
  before10_of m (dats m 0 c) (A_eq m c 10) (after_10 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KLaunch.lean ====
import proofs.«110689_g2000103882058017_pallasbulk_729_24_alg».proof.Proof.Gen.Kernel.Launch
import proofs.«110689_g2000103882058017_pallasbulk_729_24_alg».proof.Proof.Gen.Kernel.Skeleton
import proofs.«110689_g2000103882058017_pallasbulk_729_24_alg».proof.Proof.Gen.Kernel.Points
import proofs.«110689_g2000103882058017_pallasbulk_729_24_alg».proof.Proof.KFrame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

/-- The contents at the region's exit: as at its entry, the output array as the write-backs left it (every other
    array of the pipeline is an input, which the pipeline only reads). -/
def V1 (c : Dev nD) : Valuation τ sig (Elt F) :=
  Function.update (V0 m c) (Proc.devRef .tc main_call0_v4) ((dats m 0 c).arrAt 11 cfg0.N)

/-- What a final state satisfies: every array of the pipeline holds what the write-backs left, and every other
    unscoped buffer what the two reshapes after the region leave from the exit contents. -/
def RunPost (r : PUnit × MemSt nD τ sig (Elt F)) : Prop := ∀ c : Dev nD,
  (∀ w, r.2.mem ((cfg0.spec w).arr.view.loc (c.tc : Thread nD τ)) = (dats m 0 c).arrAt w cfg0.N)
  ∧ ∀ b ∈ Pipeline.restRefs sig spec0, r.2.mem ((c.tc : Thread nD τ).loc b) = StableHlo.after hostOps1 (V1 m c) (Proc.devRef .tc b)

/-! ## The arrays and the buffers behind them -/

/-- The distinct buffers behind the twelve windows' arrays, listed: the batch array once. -/
theorem arrBufs_eq (c : Dev nD) (Wv : (b : Ref sig .tc) → Buf (Elt F) ((c : Thread nD τ).loc b)) :
    (Pipeline.arrBufs (Ix := Unit) (Name := ℕ) (U := UR sig nD τ) (Lvl := ℕ) spec0 c Wv : sProp 𝕄)
      = iprop(
      (((c : Thread nD τ).loc main_arg0) ↦{fullShare} Wv main_arg0) ∗
      (((c : Thread nD τ).loc main_call0_v1) ↦{fullShare} Wv main_call0_v1) ∗
      (((c : Thread nD τ).loc main_call0_v3) ↦{fullShare} Wv main_call0_v3) ∗
      (((c : Thread nD τ).loc main_arg2) ↦{fullShare} Wv main_arg2) ∗
      (((c : Thread nD τ).loc main_arg3) ↦{fullShare} Wv main_arg3) ∗
      (((c : Thread nD τ).loc main_arg4) ↦{fullShare} Wv main_arg4) ∗
      (((c : Thread nD τ).loc main_arg5) ↦{fullShare} Wv main_arg5) ∗
      (((c : Thread nD τ).loc main_arg6) ↦{fullShare} Wv main_arg6) ∗
      (((c : Thread nD τ).loc main_arg7) ↦{fullShare} Wv main_arg7) ∗
      (((c : Thread nD τ).loc main_arg8) ↦{fullShare} Wv main_arg8) ∗
      (((c : Thread nD τ).loc main_call0_v4) ↦{fullShare} Wv main_call0_v4)) := by
  unfold Pipeline.arrBufs
  exact Idealize.SL.BI.bigSep_eq_bigSepL_of_eq [main_arg0, main_call0_v1, main_call0_v3, main_arg2, main_arg3, main_arg4, main_arg5, main_arg6, main_arg7, main_arg8, main_call0_v4] (by decide) (by decide) _

/-- The pipeline's arrays, window by window, each at its share. -/
theorem arrays_eq' (c : Dev nD) (G : (w : Fin cfg0.W) → Buf (Elt F) ((cfg0.win w).arr.view.loc (c.tc : Thread nD τ))) :
    ((dats m 0 c).arrays G : sProp 𝕄) = iprop(
      (((c : Thread nD τ).loc main_arg0) ↦{fullShare.left} G 0) ∗
      (((c : Thread nD τ).loc main_arg0) ↦{fullShare.right} G 1) ∗
      (((c : Thread nD τ).loc main_call0_v1) ↦{fullShare} G 2) ∗
      (((c : Thread nD τ).loc main_call0_v3) ↦{fullShare} G 3) ∗
      (((c : Thread nD τ).loc main_arg2) ↦{fullShare} G 4) ∗
      (((c : Thread nD τ).loc main_arg3) ↦{fullShare} G 5) ∗
      (((c : Thread nD τ).loc main_arg4) ↦{fullShare} G 6) ∗
      (((c : Thread nD τ).loc main_arg5) ↦{fullShare} G 7) ∗
      (((c : Thread nD τ).loc main_arg6) ↦{fullShare} G 8) ∗
      (((c : Thread nD τ).loc main_arg7) ↦{fullShare} G 9) ∗
      (((c : Thread nD τ).loc main_arg8) ↦{fullShare} G 10) ∗
      (((c : Thread nD τ).loc main_call0_v4) ↦{fullShare} G 11)) := by
  unfold Dat.arrays
  rw [bigSep_W0]
  rw [(arr_whole0 0).set_eq_univ, (arr_whole0 2).set_eq_univ, (arr_whole0 3).set_eq_univ, (arr_whole0 4).set_eq_univ, (arr_whole0 5).set_eq_univ, (arr_whole0 6).set_eq_univ, (arr_whole0 7).set_eq_univ, (arr_whole0 8).set_eq_univ, (arr_whole0 9).set_eq_univ, (arr_whole0 10).set_eq_univ, (arr_whole0 11).set_eq_univ]
  rfl

/-- The pipeline's arrays at the contents `Wv` of the buffers behind them ARE those buffers whole: the batch array's
    full share is the left window's half and the right window's half. -/
theorem arrays_eq_bufs (c : Dev nD) (Wv : (b : Ref sig .tc) → Buf (Elt F) ((c : Thread nD τ).loc b)) :
    ((dats m 0 c).arrays (fun w => Wv (Pipeline.arrRef spec0 w)) : sProp 𝕄)
      = Pipeline.arrBufs (Ix := Unit) (Name := ℕ) (U := UR sig nD τ) (Lvl := ℕ) spec0 c Wv := by
  rw [arrBufs_eq, arrays_eq']
  have h1 : (iprop(
      (((c : Thread nD τ).loc main_arg0) ↦{fullShare.left} Wv (Pipeline.arrRef spec0 0)) ∗
      (((c : Thread nD τ).loc main_arg0) ↦{fullShare.right} Wv (Pipeline.arrRef spec0 1)) ∗
      (((c : Thread nD τ).loc main_call0_v1) ↦{fullShare} Wv (Pipeline.arrRef spec0 2)) ∗
      (((c : Thread nD τ).loc main_call0_v3) ↦{fullShare} Wv (Pipeline.arrRef spec0 3)) ∗
      (((c : Thread nD τ).loc main_arg2) ↦{fullShare} Wv (Pipeline.arrRef spec0 4)) ∗
      (((c : Thread nD τ).loc main_arg3) ↦{fullShare} Wv (Pipeline.arrRef spec0 5)) ∗
      (((c : Thread nD τ).loc main_arg4) ↦{fullShare} Wv (Pipeline.arrRef spec0 6)) ∗
      (((c : Thread nD τ).loc main_arg5) ↦{fullShare} Wv (Pipeline.arrRef spec0 7)) ∗
      (((c : Thread nD τ).loc main_arg6) ↦{fullShare} Wv (Pipeline.arrRef spec0 8)) ∗
      (((c : Thread nD τ).loc main_arg7) ↦{fullShare} Wv (Pipeline.arrRef spec0 9)) ∗
      (((c : Thread nD τ).loc main_arg8) ↦{fullShare} Wv (Pipeline.arrRef spec0 10)) ∗
      (((c : Thread nD τ).loc main_call0_v4) ↦{fullShare} Wv (Pipeline.arrRef spec0 11))) : sProp 𝕄) ⊢ iprop(
      (((c : Thread nD τ).loc main_arg0) ↦{fullShare} Wv main_arg0) ∗
      (((c : Thread nD τ).loc main_call0_v1) ↦{fullShare} Wv main_call0_v1) ∗
      (((c : Thread nD τ).loc main_call0_v3) ↦{fullShare} Wv main_call0_v3) ∗
      (((c : Thread nD τ).loc main_arg2) ↦{fullShare} Wv main_arg2) ∗
      (((c : Thread nD τ).loc main_arg3) ↦{fullShare} Wv main_arg3) ∗
      (((c : Thread nD τ).loc main_arg4) ↦{fullShare} Wv main_arg4) ∗
      (((c : Thread nD τ).loc main_arg5) ↦{fullShare} Wv main_arg5) ∗
      (((c : Thread nD τ).loc main_arg6) ↦{fullShare} Wv main_arg6) ∗
      (((c : Thread nD τ).loc main_arg7) ↦{fullShare} Wv main_arg7) ∗
      (((c : Thread nD τ).loc main_arg8) ↦{fullShare} Wv main_arg8) ∗
      (((c : Thread nD τ).loc main_call0_v4) ↦{fullShare} Wv main_call0_v4)) := by
    iintro ⟨Ha, Hb, H2, H3, H4, H5, H6, H7, H8, H9, H10, H11⟩
    isplitl [Ha Hb]
    · iapply (pointsTo_share (PosShare.mem_left_op_right fullShare)).2
      isplitl [Ha]; · iexact Ha
      iexact Hb
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  have h2 : (iprop(
      (((c : Thread nD τ).loc main_arg0) ↦{fullShare} Wv main_arg0) ∗
      (((c : Thread nD τ).loc main_call0_v1) ↦{fullShare} Wv main_call0_v1) ∗
      (((c : Thread nD τ).loc main_call0_v3) ↦{fullShare} Wv main_call0_v3) ∗
      (((c : Thread nD τ).loc main_arg2) ↦{fullShare} Wv main_arg2) ∗
      (((c : Thread nD τ).loc main_arg3) ↦{fullShare} Wv main_arg3) ∗
      (((c : Thread nD τ).loc main_arg4) ↦{fullShare} Wv main_arg4) ∗
      (((c : Thread nD τ).loc main_arg5) ↦{fullShare} Wv main_arg5) ∗
      (((c : Thread nD τ).loc main_arg6) ↦{fullShare} Wv main_arg6) ∗
      (((c : Thread nD τ).loc main_arg7) ↦{fullShare} Wv main_arg7) ∗
      (((c : Thread nD τ).loc main_arg8) ↦{fullShare} Wv main_arg8) ∗
      (((c : Thread nD τ).loc main_call0_v4) ↦{fullShare} Wv main_call0_v4)) : sProp 𝕄) ⊢ iprop(
      (((c : Thread nD τ).loc main_arg0) ↦{fullShare.left} Wv (Pipeline.arrRef spec0 0)) ∗
      (((c : Thread nD τ).loc main_arg0) ↦{fullShare.right} Wv (Pipeline.arrRef spec0 1)) ∗
      (((c : Thread nD τ).loc main_call0_v1) ↦{fullShare} Wv (Pipeline.arrRef spec0 2)) ∗
      (((c : Thread nD τ).loc main_call0_v3) ↦{fullShare} Wv (Pipeline.arrRef spec0 3)) ∗
      (((c : Thread nD τ).loc main_arg2) ↦{fullShare} Wv (Pipeline.arrRef spec0 4)) ∗
      (((c : Thread nD τ).loc main_arg3) ↦{fullShare} Wv (Pipeline.arrRef spec0 5)) ∗
      (((c : Thread nD τ).loc main_arg4) ↦{fullShare} Wv (Pipeline.arrRef spec0 6)) ∗
      (((c : Thread nD τ).loc main_arg5) ↦{fullShare} Wv (Pipeline.arrRef spec0 7)) ∗
      (((c : Thread nD τ).loc main_arg6) ↦{fullShare} Wv (Pipeline.arrRef spec0 8)) ∗
      (((c : Thread nD τ).loc main_arg7) ↦{fullShare} Wv (Pipeline.arrRef spec0 9)) ∗
      (((c : Thread nD τ).loc main_arg8) ↦{fullShare} Wv (Pipeline.arrRef spec0 10)) ∗
      (((c : Thread nD τ).loc main_call0_v4) ↦{fullShare} Wv (Pipeline.arrRef spec0 11))) := by
    iintro ⟨H0, H2, H3, H4, H5, H6, H7, H8, H9, H10, H11⟩
    ihave H01 := (pointsTo_share (PosShare.mem_left_op_right fullShare)).1 $$ H0
    icases H01 with ⟨Ha, Hb⟩
    isplitl [Ha]; · iexact Ha
    isplitl [Hb]; · iexact Hb
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  exact equiv_iff.mp ⟨h1, h2⟩

/-- All the unscoped buffers held at a valuation: the pipeline's arrays and the rest. -/
theorem held_eq (c : Dev nD) (W : Valuation τ sig (Elt F)) :
    (StableHlo.held (c.tc : Thread nD τ) (Pipeline.ucRefs τ sig) W : sProp 𝕄)
      = iprop((dats m 0 c).arrays (fun w => W (Proc.devRef .tc (Pipeline.arrRef spec0 w)))
          ∗ Pipeline.unscopedRest spec0 c (fun b => W (Proc.devRef .tc b))) := by
  rw [← Pipeline.unscopedBufs_held, Pipeline.unscopedBufs_split₀ cfgs 0 winFacts₀0.arr_unscoped c,
    arrays_eq_bufs m c (fun b => W (Proc.devRef .tc b))]

/-! ## The contents at the region's exit -/

/-- Every array of the pipeline holds at the exit what the exit valuation names: an input its entry contents, the
    output what the write-backs left. -/
theorem arrAt_V1 (c : Dev nD) (w : Fin cfg0.W) : (dats m 0 c).arrAt w cfg0.N = V1 m c (Proc.devRef .tc (Pipeline.arrRef spec0 w)) := by
  by_cases hw : w = 11
  · subst hw
    exact (Function.update_self (Proc.devRef .tc main_call0_v4) ((dats m 0 c).arrAt 11 cfg0.N) (V0 m c)).symm
  · have hin : (cfg0.win w).isOut = false := by revert hw; revert w; decide
    have hne : Pipeline.arrRef spec0 w ≠ main_call0_v4 := by revert hw; revert w; decide
    rw [(dats m 0 c).arrAt_in w hin cfg0.N, A_eq m c w]
    exact (Function.update_of_ne (StableHlo.devRef_ne_of_ne hne) ((dats m 0 c).arrAt 11 cfg0.N) (V0 m c)).symm

/-- A buffer that is no array of the pipeline holds at the exit what it held at the entry. -/
theorem V1_of_rest (c : Dev nD) (b : Ref sig .tc) (hb : b ∈ Pipeline.restRefs sig spec0) :
    V1 m c (Proc.devRef .tc b) = V m c b := by
  have hne : b ≠ main_call0_v4 := fun e =>
    (Finset.mem_sdiff.mp hb).2 (Finset.mem_image.mpr ⟨11, Finset.mem_univ _, e.symm⟩)
  exact Function.update_of_ne (StableHlo.devRef_ne_of_ne hne) _ _

/-- The two reshapes after the region write no array of the pipeline. -/
theorem tail_keeps (W : Valuation τ sig (Elt F)) (w : Fin cfg0.W) :
    StableHlo.after hostOps1 W (Proc.devRef .tc (Pipeline.arrRef spec0 w)) = W (Proc.devRef .tc (Pipeline.arrRef spec0 w)) :=
  StableHlo.after_of_forall_not_mem _ _ (List.forall_iff_forall_mem.mp (by
    simp only [hostOps1, List.Forall, StableHlo.reshape_writes, Finset.mem_singleton]
    refine ⟨?_, ?_⟩ <;> (fin_cases w <;> exact StableHlo.devRef_ne_of_ne (by decide))))

theorem hostOps1_ucRefs : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem hostOps1_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-! ## The lines after the region -/

/-- At the region's exit the unscoped buffers, all held whole, are the pipeline's arrays as the write-backs left them
    and the other buffers as they were at the entry. -/
theorem exit_held (c : Dev nD) :
    (StableHlo.held (c.tc : Thread nD τ) (Pipeline.ucRefs τ sig) (V1 m c) : sProp 𝕄)
      = iprop((dats m 0 c).arrays ((dats m 0 c).arrAt · cfg0.N)
          ∗ Pipeline.unscopedRestP Pipeline.Prefetch.none spec0 c (V m c)) := by
  have e1 : (fun w => V1 m c (Proc.devRef .tc (Pipeline.arrRef spec0 w))) = fun w => (dats m 0 c).arrAt w cfg0.N :=
    funext fun w => (arrAt_V1 m c w).symm
  have e2 : (Pipeline.unscopedRest spec0 c (fun b => V1 m c (Proc.devRef .tc b)) : sProp 𝕄) = Pipeline.unscopedRest spec0 c (V m c) := by
    unfold Pipeline.unscopedRest
    exact bigSep_congr fun b hb => by dsimp only; rw [V1_of_rest m c b hb]
  rw [held_eq m c (V1 m c), e1, e2, Pipeline.unscopedRestP_none]

/-- After the two reshapes they are the arrays, untouched, and the other buffers at the reshapes' results. -/
theorem end_held (c : Dev nD) :
    (StableHlo.held (c.tc : Thread nD τ) (Pipeline.ucRefs τ sig) (StableHlo.after ([hostOps1] : List (List (HloOp τ sig (Elt F)))).flatten (V1 m c)) : sProp 𝕄)
      = iprop((dats m 0 c).arrays ((dats m 0 c).arrAt · cfg0.N)
          ∗ Pipeline.unscopedRest spec0 c (fun b => StableHlo.after hostOps1 (V1 m c) (Proc.devRef .tc b))) := by
  have e0 : ([hostOps1] : List (List (HloOp τ sig (Elt F)))).flatten = hostOps1 := by
    simp only [List.flatten_cons, List.flatten_nil, List.append_nil]
  have e1 : (fun w => StableHlo.after hostOps1 (V1 m c) (Proc.devRef .tc (Pipeline.arrRef spec0 w))) = fun w => (dats m 0 c).arrAt w cfg0.N :=
    funext fun w => by rw [tail_keeps, arrAt_V1 m c w]
  rw [e0, held_eq m c (StableHlo.after hostOps1 (V1 m c)), e1]

-- the rule for a line of host operations is stated for any thread; at the TensorCore thread it unifies only when
-- unification may unfold plain definitions in a metavariable's type
set_option backward.isDefEq.respectTransparency.types false in
/-- The two reshapes run from the region's exit: the batch array's halves are joined, every unscoped buffer is held
    whole, the reshapes write their own result buffers, and the arrays come back as they were. -/
theorem tail (c : Dev nD) (Q' : PUnit → sProp 𝕄) :
    iprop((iprop((dats m 0 c).arrays ((dats m 0 c).arrAt · cfg0.N)
            ∗ Pipeline.unscopedRest spec0 c (fun b => StableHlo.after hostOps1 (V1 m c) (Proc.devRef .tc b))) -∗ Q' ⟨⟩)
        ∗ boundary (c.tc : Thread nD τ) ∗ (dats m 0 c).arrays ((dats m 0 c).arrAt · cfg0.N)
        ∗ Pipeline.unscopedRestP Pipeline.Prefetch.none spec0 c (V m c))
      ⊢ wp frame (wpE (Pipeline.defs (fun q => (cfgs q).toPCfg (Val := Elt F)) defs₀) (Variants.lift Variants.none) (c.tc : Thread nD τ) none) Set.univ
          (Pipeline.chain ([hostOps1].map StableHlo.seq ++ [])) Q' := by
  rw [← exit_held m c]
  iintro ⟨Hk, Hb⟩
  iapply (Pipeline.wp_seqs_then (fun q => (cfgs q).toPCfg (Val := Elt F)) defs₀ Variants.none c (Pipeline.ucRefs τ sig) [] [hostOps1] hostOps1_ucRefs hostOps1_fresh' (V1 m c)) $$ Hb
  iintro Hb
  rw [Pipeline.chain_nil, wp_pure, end_held m c]
  imodintro
  iapply Hk
  icases Hb with ⟨-, H⟩
  iexact H

/-! ## The run -/

-- the launch theorem's implicit arguments are found by unifying its conclusion with this one
set_option backward.isDefEq.respectTransparency.types false in
/-- Every weakly fair execution of @main from a memory with zero counters terminates, and every final state has the
    pipeline's arrays at what the write-backs left and every other unscoped buffer at what the reshapes leave. The
    launch deals the batch array whole; the region is entered with its two halves, one per window, and the halves are
    joined again at the exit, before the reshapes run. -/
theorem run_main : θ_run defs (onTc (τ := τ) (main (F := F))) (s₀ m ρ) (RunPost m) := by
  classical
  refine Pipeline.θ_run_region_noSem_pf_tail (fun q => (cfgs q).toPCfg (Val := Elt F)) (fun q => (cfgs q).toPCfg_adm) (dats m) () cellOf_inj
    (0 : Fin 1) winFacts₀0 (Pipeline.PreFacts.none _) emb₁ defs₀ Variants.none m ρ main
    (fun _ => Pipeline.chain [StableHlo.seq hostOps1]) (fun c => (body_obligation m c).loose)
    block_pos0 arr_whole0 stage_whole0 (fun _ _ => rfl)
    _ (Entails.of_eq (ownU_emb₁ _))
    (fun c b => V m c b) (hmain m Variants.none) ?hsplit (fun _ k => k.elim0)
    (fun _ => iprop(emp)) (fun _ => iprop(emp))
    (fun c => Pipeline.unscopedRestP (Ix := Unit) (Name := ℕ) (U := UR sig nD τ) (Lvl := ℕ) Pipeline.Prefetch.none spec0 c (V m c))
    (fun c => Pipeline.unscopedRest (Ix := Unit) (Name := ℕ) (U := UR sig nD τ) (Lvl := ℕ) spec0 c (fun b => StableHlo.after hostOps1 (V1 m c) (Proc.devRef .tc b)))
    ?hX ?hin ?hout ?htail
    (fun c s => ∀ b ∈ Pipeline.restRefs sig spec0, s.mem ((c.tc : Thread nD τ).loc b) = StableHlo.after hostOps1 (V1 m c) (Proc.devRef .tc b))
    ?hY (fun s h c => ⟨(h c).1, (h c).2.2⟩)
  case hsplit =>
    intro c
    exact (Entails.of_eq (arrays_eq_bufs m c (V m c)).symm)
  case hX =>
    intro c
    iintro H
    isplitr; · iempintro
    iexact H
  case hin =>
    intro c
    show iprop(_ ∗ _ ∗ Pipeline.scopedRest spec0 c) ⊢ Pipeline.scopedRest spec0 c
    iintro ⟨-, -, H⟩
    iexact H
  case hout =>
    intro c
    show Pipeline.scopedRest spec0 c ⊢ iprop(_ ∗ Pipeline.scopedRest spec0 c)
    iintro H
    isplitr; · iempintro
    iexact H
  case htail =>
    intro c Q'
    exact tail m c Q'
  case hY =>
    intro c s'
    iintro ⟨-, HU, HSI⟩
    unfold Pipeline.unscopedRest
    imodintro
    iapply (pointsTo_read_all (Pipeline.restRefs sig spec0) (fun b => (c.tc : Thread nD τ).loc b) (fun b => StableHlo.after hostOps1 (V1 m c) (Proc.devRef .tc b)) s')
    isplitl [HU] <;> iassumption

/-- The argument arrays end as launched: eight of them are input arrays of the pipeline, which it only reads; the first
    weight matrix is no array of the pipeline, and no host operation writes it. -/
theorem args_of_post {r : PUnit × MemSt nD τ sig (Elt F)} (h : RunPost m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) := by
  have hw : ∀ w : Fin cfg0.W, (cfg0.win w).isOut = false →
      r.2.mem ((cfg0.spec w).arr.view.loc (c.tc : Thread nD τ)) = V m c (Pipeline.arrRef spec0 w) := fun w hw =>
    ((h c).1 w).trans (((dats m 0 c).arrAt_in w hw _).trans (A_eq m c w))
  have h1 : r.2.mem ((c.tc : Thread nD τ).loc main_arg1) = m ((c.tc : Thread nD τ).loc main_arg1) := by
    rw [(h c).2 main_arg1 (Pipeline.mem_restRefs_of main_arg1 (by decide) (by decide)),
      StableHlo.after_of_forall_not_mem (b := Proc.devRef .tc main_arg1) _ _ (List.forall_iff_forall_mem.mp (by
        simp only [hostOps1, List.Forall, StableHlo.reshape_writes, Finset.mem_singleton]
        exact ⟨StableHlo.devRef_ne_of_ne (by decide), StableHlo.devRef_ne_of_ne (by decide)⟩)),
      V1_of_rest m c main_arg1 (Pipeline.mem_restRefs_of main_arg1 (by decide) (by decide))]
    exact V_main_arg1 m c
  exact ⟨(hw 0 rfl).trans (V_main_arg0 m c), h1, (hw 4 rfl).trans (V_main_arg2 m c), (hw 5 rfl).trans (V_main_arg3 m c),
    (hw 6 rfl).trans (V_main_arg4 m c), (hw 7 rfl).trans (V_main_arg5 m c), (hw 8 rfl).trans (V_main_arg6 m c),
    (hw 9 rfl).trans (V_main_arg7 m c), (hw 10 rfl).trans (V_main_arg8 m c)⟩

end Cert.Kernel.Hand

end
-- ==== Proof.KIBody.lean ====
import proofs.«110689_g2000103882058017_pallasbulk_729_24_alg».proof.Proof.Gen.KernelIdeal.Launch
import proofs.«110689_g2000103882058017_pallasbulk_729_24_alg».proof.Proof.Gen.KernelIdeal.Skeleton
import proofs.«110689_g2000103882058017_pallasbulk_729_24_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's accesses: every load and the one store go through the whole buffer -/

abbrev rX : Rect S8192x256 := Rect.unit (s := S8192x256) ![0, 0] S8192x256.size inb_S8192x256_S8192x256_0_0
abbrev rW1 : Rect S256x32 := Rect.unit (s := S256x32) ![0, 0] S256x32.size inb_S256x32_S256x32_0_0
abbrev rB1 : Rect S1x32 := Rect.unit (s := S1x32) ![0, 0] S1x32.size inb_S1x32_S1x32_0_0
abbrev rW2 : Rect S32x128 := Rect.unit (s := S32x128) ![0, 0] S32x128.size inb_S32x128_S32x128_0_0
abbrev rB2 : Rect S1x128 := Rect.unit (s := S1x128) ![0, 0] S1x128.size inb_S1x128_S1x128_0_0
abbrev rW3 : Rect S128x16 := Rect.unit (s := S128x16) ![0, 0] S128x16.size inb_S128x16_S128x16_0_0
abbrev rB3 : Rect S1x16 := Rect.unit (s := S1x16) ![0, 0] S1x16.size inb_S1x16_S1x16_0_0
abbrev rW4 : Rect S16x1 := Rect.unit (s := S16x1) ![0, 0] S16x1.size inb_S16x1_S16x1_0_0
abbrev rB4 : Rect S1x1 := Rect.unit (s := S1x1) ![0, 0] S1x1.size inb_S1x1_S1x1_0_0
abbrev rOut : Rect S1x8192 := Rect.unit (s := S1x8192) ![0, 0] S1x8192.size inb_S1x8192_S1x8192_0_0

/-! ## What the body leaves in the output window's buffer -/

/-- The output block after the body, from the eleven input blocks: the one store, whose value is the
    sigmoid row computed from the third hidden layer, itself computed from the two column halves of the
    batch tile and the weights. -/
def outBlk (x0 : Vec F S8192x256 .f32) (x1 : Vec F S8192x256 .f32) (x2 : Vec F S256x32 .bf16) (x3 : Vec F S256x32 .bf16) (x4 : Vec F S1x32 .f32) (x5 : Vec F S32x128 .f32) (x6 : Vec F S1x128 .f32) (x7 : Vec F S128x16 .f32) (x8 : Vec F S1x16 .f32) (x9 : Vec F S16x1 .f32) (x10 : Vec F S1x1 .f32) : Vec F S1x8192 .f32 :=
  View.canon [⟨rOut, k0_pay1 (k0_pay2 (View.ld x0 rX) (View.ld x2 rW1) (View.ld x1 rX) (View.ld x3 rW1) (View.ld x4 rB1) (View.ld x5 rW2) (View.ld x6 rB2) (View.ld x7 rW3) (View.ld x8 rB3)) (View.ld x9 rW4) (constant S1x8192 .f32 0x00000000#32) (View.ld x10 rB4)⟩]

/-- The one store writes the whole block. -/
theorem outCover (p0 : Vec F S1x8192 .f32) (y : S1x8192.Idx) :
    ∃ pc ∈ ([⟨rOut, p0⟩] : List (View.Piece (Elt F) S1x8192 .f32)), y ∈ pc.1.set :=
  View.cover_of_tiled [⟨rOut, p0⟩] S1x8192.size (by rfl) y

/-! ## The body's triple -/

set_option maxHeartbeats 1000000 in
/-- The kernel body on whole staging memrefs, the inputs at contents `xW` and the output at anything, runs to the
    continuation with the inputs as they were and the output at `outBlk` of them. -/
theorem sound_kernel (c : Dev nD) (E : Set ℕ) (i : grid0.Coords) (arg1 : Memref sig .tc .vmem S8192x256 .f32) (harg1 : arg1.IsWhole) (arg2 : Memref sig .tc .vmem S8192x256 .f32) (harg2 : arg2.IsWhole) (arg3 : Memref sig .tc .vmem S256x32 .bf16) (harg3 : arg3.IsWhole) (arg4 : Memref sig .tc .vmem S256x32 .bf16) (harg4 : arg4.IsWhole) (arg5 : Memref sig .tc .vmem S1x32 .f32) (harg5 : arg5.IsWhole) (arg6 : Memref sig .tc .vmem S32x128 .f32) (harg6 : arg6.IsWhole) (arg7 : Memref sig .tc .vmem S1x128 .f32) (harg7 : arg7.IsWhole) (arg8 : Memref sig .tc .vmem S128x16 .f32) (harg8 : arg8.IsWhole) (arg9 : Memref sig .tc .vmem S1x16 .f32) (harg9 : arg9.IsWhole) (arg10 : Memref sig .tc .vmem S16x1 .f32) (harg10 : arg10.IsWhole) (arg11 : Memref sig .tc .vmem S1x1 .f32) (harg11 : arg11.IsWhole) (arg12 : Memref sig .tc .vmem S1x8192 .f32) (harg12 : arg12.IsWhole)
    (x0 : Vec F S8192x256 .f32) (x1 : Vec F S8192x256 .f32) (x2 : Vec F S256x32 .bf16) (x3 : Vec F S256x32 .bf16) (x4 : Vec F S1x32 .f32) (x5 : Vec F S32x128 .f32) (x6 : Vec F S1x128 .f32) (x7 : Vec F S128x16 .f32) (x8 : Vec F S1x16 .f32) (x9 : Vec F S16x1 .f32) (x10 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (outBlk x0 x1 x2 x3 x4 x5 x6 x7 x8 x9 x10)) -∗ K ⟨⟩))
      ⊢ wp frame (wpE (defs₀ (F := F)) Variants.none c none) E (cc0__mlp_fused_kernel i arg1 harg1 arg2 harg2 arg3 harg3 arg4 harg4 arg5 harg5 arg6 harg6 arg7 harg7 arg8 harg8 arg9 harg9 arg10 harg10 arg11 harg11 arg12 harg12) K := by
  simp only [cc0__mlp_fused_kernel_eq_skeleton]; unfold cc0__mlp_fused_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (outCover _)

end Cert.KernelIdeal.Hand

end
-- ==== Proof.KIFrame.lean ====
import proofs.«110689_g2000103882058017_pallasbulk_729_24_alg».proof.Proof.Gen.KernelIdeal.Launch
import proofs.«110689_g2000103882058017_pallasbulk_729_24_alg».proof.Proof.Gen.KernelIdeal.Skeleton
import proofs.«110689_g2000103882058017_pallasbulk_729_24_alg».proof.Proof.Gen.KernelIdeal.Points
import proofs.«110689_g2000103882058017_pallasbulk_729_24_alg».proof.Proof.KIBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: after the four host operations that cut the first
    weight matrix into its upper and lower halves and change their format. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, and the two reshapes after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- No host operation before the region writes `main_arg0`. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data of the pipeline on core `c`. The batch array is read through two windows, its left and its
    right column half: each holds half of the array's share; every other array is held whole. After the body each
    input buffer holds its block and the output buffer the block computed from them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlk (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = outBlk (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before_0 (c : Dev nD) (t : Fin cfg0.N) (d) : (dats m 0 c).before 0 t d = iblk m c 0 t :=
  before0_of m (dats m 0 c) (A_eq m c 0) (after_0 m c) t d
theorem before_1 (c : Dev nD) (t : Fin cfg0.N) (d) : (dats m 0 c).before 1 t d = iblk m c 1 t :=
  before1_of m (dats m 0 c) (A_eq m c 1) (after_1 m c) t d
theorem before_2 (c : Dev nD) (t : Fin cfg0.N) (d) : (dats m 0 c).before 2 t d = iblk m c 2 t :=
  before2_of m (dats m 0 c) (A_eq m c 2) (after_2 m c) t d
theorem before_3 (c : Dev nD) (t : Fin cfg0.N) (d) : (dats m 0 c).before 3 t d = iblk m c 3 t :=
  before3_of m (dats m 0 c) (A_eq m c 3) (after_3 m c) t d
theorem before_4 (c : Dev nD) (t : Fin cfg0.N) (d) : (dats m 0 c).before 4 t d = iblk m c 4 t :=
  before4_of m (dats m 0 c) (A_eq m c 4) (after_4 m c) t d
theorem before_5 (c : Dev nD) (t : Fin cfg0.N) (d) : (dats m 0 c).before 5 t d = iblk m c 5 t :=
  before5_of m (dats m 0 c) (A_eq m c 5) (after_5 m c) t d
theorem before_6 (c : Dev nD) (t : Fin cfg0.N) (d) : (dats m 0 c).before 6 t d = iblk m c 6 t :=
  before6_of m (dats m 0 c) (A_eq m c 6) (after_6 m c) t d
theorem before_7 (c : Dev nD) (t : Fin cfg0.N) (d) : (dats m 0 c).before 7 t d = iblk m c 7 t :=
  before7_of m (dats m 0 c) (A_eq m c 7) (after_7 m c) t d
theorem before_8 (c : Dev nD) (t : Fin cfg0.N) (d) : (dats m 0 c).before 8 t d = iblk m c 8 t :=
  before8_of m (dats m 0 c) (A_eq m c 8) (after_8 m c) t d
theorem before_9 (c : Dev nD) (t : Fin cfg0.N) (d) : (dats m 0 c).before 9 t d = iblk m c 9 t :=
  before9_of m (dats m 0 c) (A_eq m c 9) (after_9 m c) t d
theorem before_10 (c : Dev nD) (t : Fin cfg0.N) (d) : (dats m 0 c).before 10 t d = iblk m c 10 t :=
  before10_of m (dats m 0 c) (A_eq m c 10) (after_10 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KILaunch.lean ====
import proofs.«110689_g2000103882058017_pallasbulk_729_24_alg».proof.Proof.Gen.KernelIdeal.Launch
import proofs.«110689_g2000103882058017_pallasbulk_729_24_alg».proof.Proof.Gen.KernelIdeal.Skeleton
import proofs.«110689_g2000103882058017_pallasbulk_729_24_alg».proof.Proof.Gen.KernelIdeal.Points
import proofs.«110689_g2000103882058017_pallasbulk_729_24_alg».proof.Proof.KIFrame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run -/

/-- The contents at the region's exit: as at its entry, the output array as the write-backs left it (every other
    array of the pipeline is an input, which the pipeline only reads). -/
def V1 (c : Dev nD) : Valuation τ sig (Elt F) :=
  Function.update (V0 m c) (Proc.devRef .tc main_call0_v4) ((dats m 0 c).arrAt 11 cfg0.N)

/-- What a final state satisfies: every array of the pipeline holds what the write-backs left, and every other
    unscoped buffer what the two reshapes after the region leave from the exit contents. -/
def RunPost (r : PUnit × MemSt nD τ sig (Elt F)) : Prop := ∀ c : Dev nD,
  (∀ w, r.2.mem ((cfg0.spec w).arr.view.loc (c.tc : Thread nD τ)) = (dats m 0 c).arrAt w cfg0.N)
  ∧ ∀ b ∈ Pipeline.restRefs sig spec0, r.2.mem ((c.tc : Thread nD τ).loc b) = StableHlo.after hostOps1 (V1 m c) (Proc.devRef .tc b)

/-! ## The arrays and the buffers behind them -/

/-- The distinct buffers behind the twelve windows' arrays, listed: the batch array once. -/
theorem arrBufs_eq (c : Dev nD) (Wv : (b : Ref sig .tc) → Buf (Elt F) ((c : Thread nD τ).loc b)) :
    (Pipeline.arrBufs (Ix := Unit) (Name := ℕ) (U := UR sig nD τ) (Lvl := ℕ) spec0 c Wv : sProp 𝕄)
      = iprop(
      (((c : Thread nD τ).loc main_arg0) ↦{fullShare} Wv main_arg0) ∗
      (((c : Thread nD τ).loc main_call0_v1) ↦{fullShare} Wv main_call0_v1) ∗
      (((c : Thread nD τ).loc main_call0_v3) ↦{fullShare} Wv main_call0_v3) ∗
      (((c : Thread nD τ).loc main_arg2) ↦{fullShare} Wv main_arg2) ∗
      (((c : Thread nD τ).loc main_arg3) ↦{fullShare} Wv main_arg3) ∗
      (((c : Thread nD τ).loc main_arg4) ↦{fullShare} Wv main_arg4) ∗
      (((c : Thread nD τ).loc main_arg5) ↦{fullShare} Wv main_arg5) ∗
      (((c : Thread nD τ).loc main_arg6) ↦{fullShare} Wv main_arg6) ∗
      (((c : Thread nD τ).loc main_arg7) ↦{fullShare} Wv main_arg7) ∗
      (((c : Thread nD τ).loc main_arg8) ↦{fullShare} Wv main_arg8) ∗
      (((c : Thread nD τ).loc main_call0_v4) ↦{fullShare} Wv main_call0_v4)) := by
  unfold Pipeline.arrBufs
  exact Idealize.SL.BI.bigSep_eq_bigSepL_of_eq [main_arg0, main_call0_v1, main_call0_v3, main_arg2, main_arg3, main_arg4, main_arg5, main_arg6, main_arg7, main_arg8, main_call0_v4] (by decide) (by decide) _

/-- The pipeline's arrays, window by window, each at its share. -/
theorem arrays_eq' (c : Dev nD) (G : (w : Fin cfg0.W) → Buf (Elt F) ((cfg0.win w).arr.view.loc (c.tc : Thread nD τ))) :
    ((dats m 0 c).arrays G : sProp 𝕄) = iprop(
      (((c : Thread nD τ).loc main_arg0) ↦{fullShare.left} G 0) ∗
      (((c : Thread nD τ).loc main_arg0) ↦{fullShare.right} G 1) ∗
      (((c : Thread nD τ).loc main_call0_v1) ↦{fullShare} G 2) ∗
      (((c : Thread nD τ).loc main_call0_v3) ↦{fullShare} G 3) ∗
      (((c : Thread nD τ).loc main_arg2) ↦{fullShare} G 4) ∗
      (((c : Thread nD τ).loc main_arg3) ↦{fullShare} G 5) ∗
      (((c : Thread nD τ).loc main_arg4) ↦{fullShare} G 6) ∗
      (((c : Thread nD τ).loc main_arg5) ↦{fullShare} G 7) ∗
      (((c : Thread nD τ).loc main_arg6) ↦{fullShare} G 8) ∗
      (((c : Thread nD τ).loc main_arg7) ↦{fullShare} G 9) ∗
      (((c : Thread nD τ).loc main_arg8) ↦{fullShare} G 10) ∗
      (((c : Thread nD τ).loc main_call0_v4) ↦{fullShare} G 11)) := by
  unfold Dat.arrays
  rw [bigSep_W0]
  rw [(arr_whole0 0).set_eq_univ, (arr_whole0 2).set_eq_univ, (arr_whole0 3).set_eq_univ, (arr_whole0 4).set_eq_univ, (arr_whole0 5).set_eq_univ, (arr_whole0 6).set_eq_univ, (arr_whole0 7).set_eq_univ, (arr_whole0 8).set_eq_univ, (arr_whole0 9).set_eq_univ, (arr_whole0 10).set_eq_univ, (arr_whole0 11).set_eq_univ]
  rfl

/-- The pipeline's arrays at the contents `Wv` of the buffers behind them ARE those buffers whole: the batch array's
    full share is the left window's half and the right window's half. -/
theorem arrays_eq_bufs (c : Dev nD) (Wv : (b : Ref sig .tc) → Buf (Elt F) ((c : Thread nD τ).loc b)) :
    ((dats m 0 c).arrays (fun w => Wv (Pipeline.arrRef spec0 w)) : sProp 𝕄)
      = Pipeline.arrBufs (Ix := Unit) (Name := ℕ) (U := UR sig nD τ) (Lvl := ℕ) spec0 c Wv := by
  rw [arrBufs_eq, arrays_eq']
  have h1 : (iprop(
      (((c : Thread nD τ).loc main_arg0) ↦{fullShare.left} Wv (Pipeline.arrRef spec0 0)) ∗
      (((c : Thread nD τ).loc main_arg0) ↦{fullShare.right} Wv (Pipeline.arrRef spec0 1)) ∗
      (((c : Thread nD τ).loc main_call0_v1) ↦{fullShare} Wv (Pipeline.arrRef spec0 2)) ∗
      (((c : Thread nD τ).loc main_call0_v3) ↦{fullShare} Wv (Pipeline.arrRef spec0 3)) ∗
      (((c : Thread nD τ).loc main_arg2) ↦{fullShare} Wv (Pipeline.arrRef spec0 4)) ∗
      (((c : Thread nD τ).loc main_arg3) ↦{fullShare} Wv (Pipeline.arrRef spec0 5)) ∗
      (((c : Thread nD τ).loc main_arg4) ↦{fullShare} Wv (Pipeline.arrRef spec0 6)) ∗
      (((c : Thread nD τ).loc main_arg5) ↦{fullShare} Wv (Pipeline.arrRef spec0 7)) ∗
      (((c : Thread nD τ).loc main_arg6) ↦{fullShare} Wv (Pipeline.arrRef spec0 8)) ∗
      (((c : Thread nD τ).loc main_arg7) ↦{fullShare} Wv (Pipeline.arrRef spec0 9)) ∗
      (((c : Thread nD τ).loc main_arg8) ↦{fullShare} Wv (Pipeline.arrRef spec0 10)) ∗
      (((c : Thread nD τ).loc main_call0_v4) ↦{fullShare} Wv (Pipeline.arrRef spec0 11))) : sProp 𝕄) ⊢ iprop(
      (((c : Thread nD τ).loc main_arg0) ↦{fullShare} Wv main_arg0) ∗
      (((c : Thread nD τ).loc main_call0_v1) ↦{fullShare} Wv main_call0_v1) ∗
      (((c : Thread nD τ).loc main_call0_v3) ↦{fullShare} Wv main_call0_v3) ∗
      (((c : Thread nD τ).loc main_arg2) ↦{fullShare} Wv main_arg2) ∗
      (((c : Thread nD τ).loc main_arg3) ↦{fullShare} Wv main_arg3) ∗
      (((c : Thread nD τ).loc main_arg4) ↦{fullShare} Wv main_arg4) ∗
      (((c : Thread nD τ).loc main_arg5) ↦{fullShare} Wv main_arg5) ∗
      (((c : Thread nD τ).loc main_arg6) ↦{fullShare} Wv main_arg6) ∗
      (((c : Thread nD τ).loc main_arg7) ↦{fullShare} Wv main_arg7) ∗
      (((c : Thread nD τ).loc main_arg8) ↦{fullShare} Wv main_arg8) ∗
      (((c : Thread nD τ).loc main_call0_v4) ↦{fullShare} Wv main_call0_v4)) := by
    iintro ⟨Ha, Hb, H2, H3, H4, H5, H6, H7, H8, H9, H10, H11⟩
    isplitl [Ha Hb]
    · iapply (pointsTo_share (PosShare.mem_left_op_right fullShare)).2
      isplitl [Ha]; · iexact Ha
      iexact Hb
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  have h2 : (iprop(
      (((c : Thread nD τ).loc main_arg0) ↦{fullShare} Wv main_arg0) ∗
      (((c : Thread nD τ).loc main_call0_v1) ↦{fullShare} Wv main_call0_v1) ∗
      (((c : Thread nD τ).loc main_call0_v3) ↦{fullShare} Wv main_call0_v3) ∗
      (((c : Thread nD τ).loc main_arg2) ↦{fullShare} Wv main_arg2) ∗
      (((c : Thread nD τ).loc main_arg3) ↦{fullShare} Wv main_arg3) ∗
      (((c : Thread nD τ).loc main_arg4) ↦{fullShare} Wv main_arg4) ∗
      (((c : Thread nD τ).loc main_arg5) ↦{fullShare} Wv main_arg5) ∗
      (((c : Thread nD τ).loc main_arg6) ↦{fullShare} Wv main_arg6) ∗
      (((c : Thread nD τ).loc main_arg7) ↦{fullShare} Wv main_arg7) ∗
      (((c : Thread nD τ).loc main_arg8) ↦{fullShare} Wv main_arg8) ∗
      (((c : Thread nD τ).loc main_call0_v4) ↦{fullShare} Wv main_call0_v4)) : sProp 𝕄) ⊢ iprop(
      (((c : Thread nD τ).loc main_arg0) ↦{fullShare.left} Wv (Pipeline.arrRef spec0 0)) ∗
      (((c : Thread nD τ).loc main_arg0) ↦{fullShare.right} Wv (Pipeline.arrRef spec0 1)) ∗
      (((c : Thread nD τ).loc main_call0_v1) ↦{fullShare} Wv (Pipeline.arrRef spec0 2)) ∗
      (((c : Thread nD τ).loc main_call0_v3) ↦{fullShare} Wv (Pipeline.arrRef spec0 3)) ∗
      (((c : Thread nD τ).loc main_arg2) ↦{fullShare} Wv (Pipeline.arrRef spec0 4)) ∗
      (((c : Thread nD τ).loc main_arg3) ↦{fullShare} Wv (Pipeline.arrRef spec0 5)) ∗
      (((c : Thread nD τ).loc main_arg4) ↦{fullShare} Wv (Pipeline.arrRef spec0 6)) ∗
      (((c : Thread nD τ).loc main_arg5) ↦{fullShare} Wv (Pipeline.arrRef spec0 7)) ∗
      (((c : Thread nD τ).loc main_arg6) ↦{fullShare} Wv (Pipeline.arrRef spec0 8)) ∗
      (((c : Thread nD τ).loc main_arg7) ↦{fullShare} Wv (Pipeline.arrRef spec0 9)) ∗
      (((c : Thread nD τ).loc main_arg8) ↦{fullShare} Wv (Pipeline.arrRef spec0 10)) ∗
      (((c : Thread nD τ).loc main_call0_v4) ↦{fullShare} Wv (Pipeline.arrRef spec0 11))) := by
    iintro ⟨H0, H2, H3, H4, H5, H6, H7, H8, H9, H10, H11⟩
    ihave H01 := (pointsTo_share (PosShare.mem_left_op_right fullShare)).1 $$ H0
    icases H01 with ⟨Ha, Hb⟩
    isplitl [Ha]; · iexact Ha
    isplitl [Hb]; · iexact Hb
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  exact equiv_iff.mp ⟨h1, h2⟩

/-- All the unscoped buffers held at a valuation: the pipeline's arrays and the rest. -/
theorem held_eq (c : Dev nD) (W : Valuation τ sig (Elt F)) :
    (StableHlo.held (c.tc : Thread nD τ) (Pipeline.ucRefs τ sig) W : sProp 𝕄)
      = iprop((dats m 0 c).arrays (fun w => W (Proc.devRef .tc (Pipeline.arrRef spec0 w)))
          ∗ Pipeline.unscopedRest spec0 c (fun b => W (Proc.devRef .tc b))) := by
  rw [← Pipeline.unscopedBufs_held, Pipeline.unscopedBufs_split₀ cfgs 0 winFacts₀0.arr_unscoped c,
    arrays_eq_bufs m c (fun b => W (Proc.devRef .tc b))]

/-! ## The contents at the region's exit -/

/-- Every array of the pipeline holds at the exit what the exit valuation names: an input its entry contents, the
    output what the write-backs left. -/
theorem arrAt_V1 (c : Dev nD) (w : Fin cfg0.W) : (dats m 0 c).arrAt w cfg0.N = V1 m c (Proc.devRef .tc (Pipeline.arrRef spec0 w)) := by
  by_cases hw : w = 11
  · subst hw
    exact (Function.update_self (Proc.devRef .tc main_call0_v4) ((dats m 0 c).arrAt 11 cfg0.N) (V0 m c)).symm
  · have hin : (cfg0.win w).isOut = false := by revert hw; revert w; decide
    have hne : Pipeline.arrRef spec0 w ≠ main_call0_v4 := by revert hw; revert w; decide
    rw [(dats m 0 c).arrAt_in w hin cfg0.N, A_eq m c w]
    exact (Function.update_of_ne (StableHlo.devRef_ne_of_ne hne) ((dats m 0 c).arrAt 11 cfg0.N) (V0 m c)).symm

/-- A buffer that is no array of the pipeline holds at the exit what it held at the entry. -/
theorem V1_of_rest (c : Dev nD) (b : Ref sig .tc) (hb : b ∈ Pipeline.restRefs sig spec0) :
    V1 m c (Proc.devRef .tc b) = V m c b := by
  have hne : b ≠ main_call0_v4 := fun e =>
    (Finset.mem_sdiff.mp hb).2 (Finset.mem_image.mpr ⟨11, Finset.mem_univ _, e.symm⟩)
  exact Function.update_of_ne (StableHlo.devRef_ne_of_ne hne) _ _

/-- The two reshapes after the region write no array of the pipeline. -/
theorem tail_keeps (W : Valuation τ sig (Elt F)) (w : Fin cfg0.W) :
    StableHlo.after hostOps1 W (Proc.devRef .tc (Pipeline.arrRef spec0 w)) = W (Proc.devRef .tc (Pipeline.arrRef spec0 w)) :=
  StableHlo.after_of_forall_not_mem _ _ (List.forall_iff_forall_mem.mp (by
    simp only [hostOps1, List.Forall, StableHlo.reshape_writes, Finset.mem_singleton]
    refine ⟨?_, ?_⟩ <;> (fin_cases w <;> exact StableHlo.devRef_ne_of_ne (by decide))))

theorem hostOps1_ucRefs : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)

theorem hostOps1_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-! ## The lines after the region -/

/-- At the region's exit the unscoped buffers, all held whole, are the pipeline's arrays as the write-backs left them
    and the other buffers as they were at the entry. -/
theorem exit_held (c : Dev nD) :
    (StableHlo.held (c.tc : Thread nD τ) (Pipeline.ucRefs τ sig) (V1 m c) : sProp 𝕄)
      = iprop((dats m 0 c).arrays ((dats m 0 c).arrAt · cfg0.N)
          ∗ Pipeline.unscopedRestP Pipeline.Prefetch.none spec0 c (V m c)) := by
  have e1 : (fun w => V1 m c (Proc.devRef .tc (Pipeline.arrRef spec0 w))) = fun w => (dats m 0 c).arrAt w cfg0.N :=
    funext fun w => (arrAt_V1 m c w).symm
  have e2 : (Pipeline.unscopedRest spec0 c (fun b => V1 m c (Proc.devRef .tc b)) : sProp 𝕄) = Pipeline.unscopedRest spec0 c (V m c) := by
    unfold Pipeline.unscopedRest
    exact bigSep_congr fun b hb => by dsimp only; rw [V1_of_rest m c b hb]
  rw [held_eq m c (V1 m c), e1, e2, Pipeline.unscopedRestP_none]

/-- After the two reshapes they are the arrays, untouched, and the other buffers at the reshapes' results. -/
theorem end_held (c : Dev nD) :
    (StableHlo.held (c.tc : Thread nD τ) (Pipeline.ucRefs τ sig) (StableHlo.after ([hostOps1] : List (List (HloOp τ sig (Elt F)))).flatten (V1 m c)) : sProp 𝕄)
      = iprop((dats m 0 c).arrays ((dats m 0 c).arrAt · cfg0.N)
          ∗ Pipeline.unscopedRest spec0 c (fun b => StableHlo.after hostOps1 (V1 m c) (Proc.devRef .tc b))) := by
  have e0 : ([hostOps1] : List (List (HloOp τ sig (Elt F)))).flatten = hostOps1 := by
    simp only [List.flatten_cons, List.flatten_nil, List.append_nil]
  have e1 : (fun w => StableHlo.after hostOps1 (V1 m c) (Proc.devRef .tc (Pipeline.arrRef spec0 w))) = fun w => (dats m 0 c).arrAt w cfg0.N :=
    funext fun w => by rw [tail_keeps, arrAt_V1 m c w]
  rw [e0, held_eq m c (StableHlo.after hostOps1 (V1 m c)), e1]

-- the rule for a line of host operations is stated for any thread; at the TensorCore thread it unifies only when
-- unification may unfold plain definitions in a metavariable's type
set_option backward.isDefEq.respectTransparency.types false in
/-- The two reshapes run from the region's exit: the batch array's halves are joined, every unscoped buffer is held
    whole, the reshapes write their own result buffers, and the arrays come back as they were. -/
theorem tail (c : Dev nD) (Q' : PUnit → sProp 𝕄) :
    iprop((iprop((dats m 0 c).arrays ((dats m 0 c).arrAt · cfg0.N)
            ∗ Pipeline.unscopedRest spec0 c (fun b => StableHlo.after hostOps1 (V1 m c) (Proc.devRef .tc b))) -∗ Q' ⟨⟩)
        ∗ boundary (c.tc : Thread nD τ) ∗ (dats m 0 c).arrays ((dats m 0 c).arrAt · cfg0.N)
        ∗ Pipeline.unscopedRestP Pipeline.Prefetch.none spec0 c (V m c))
      ⊢ wp frame (wpE (Pipeline.defs (fun q => (cfgs q).toPCfg (Val := Elt F)) defs₀) (Variants.lift Variants.none) (c.tc : Thread nD τ) none) Set.univ
          (Pipeline.chain ([hostOps1].map StableHlo.seq ++ [])) Q' := by
  rw [← exit_held m c]
  iintro ⟨Hk, Hb⟩
  iapply (Pipeline.wp_seqs_then (fun q => (cfgs q).toPCfg (Val := Elt F)) defs₀ Variants.none c (Pipeline.ucRefs τ sig) [] [hostOps1] hostOps1_ucRefs hostOps1_fresh' (V1 m c)) $$ Hb
  iintro Hb
  rw [Pipeline.chain_nil, wp_pure, end_held m c]
  imodintro
  iapply Hk
  icases Hb with ⟨-, H⟩
  iexact H

/-! ## The run -/

-- the launch theorem's implicit arguments are found by unifying its conclusion with this one
set_option backward.isDefEq.respectTransparency.types false in
/-- Every weakly fair execution of @main from a memory with zero counters terminates, and every final state has the
    pipeline's arrays at what the write-backs left and every other unscoped buffer at what the reshapes leave. The
    launch deals the batch array whole; the region is entered with its two halves, one per window, and the halves are
    joined again at the exit, before the reshapes run. -/
theorem run_main : θ_run defs (onTc (τ := τ) (main (F := F))) (s₀ m ρ) (RunPost m) := by
  classical
  refine Pipeline.θ_run_region_noSem_pf_tail (fun q => (cfgs q).toPCfg (Val := Elt F)) (fun q => (cfgs q).toPCfg_adm) (dats m) () cellOf_inj
    (0 : Fin 1) winFacts₀0 (Pipeline.PreFacts.none _) emb₁ defs₀ Variants.none m ρ main
    (fun _ => Pipeline.chain [StableHlo.seq hostOps1]) (fun c => (body_obligation m c).loose)
    block_pos0 arr_whole0 stage_whole0 (fun _ _ => rfl)
    _ (Entails.of_eq (ownU_emb₁ _))
    (fun c b => V m c b) (hmain m Variants.none) ?hsplit (fun _ k => k.elim0)
    (fun _ => iprop(emp)) (fun _ => iprop(emp))
    (fun c => Pipeline.unscopedRestP (Ix := Unit) (Name := ℕ) (U := UR sig nD τ) (Lvl := ℕ) Pipeline.Prefetch.none spec0 c (V m c))
    (fun c => Pipeline.unscopedRest (Ix := Unit) (Name := ℕ) (U := UR sig nD τ) (Lvl := ℕ) spec0 c (fun b => StableHlo.after hostOps1 (V1 m c) (Proc.devRef .tc b)))
    ?hX ?hin ?hout ?htail
    (fun c s => ∀ b ∈ Pipeline.restRefs sig spec0, s.mem ((c.tc : Thread nD τ).loc b) = StableHlo.after hostOps1 (V1 m c) (Proc.devRef .tc b))
    ?hY (fun s h c => ⟨(h c).1, (h c).2.2⟩)
  case hsplit =>
    intro c
    exact (Entails.of_eq (arrays_eq_bufs m c (V m c)).symm)
  case hX =>
    intro c
    iintro H
    isplitr; · iempintro
    iexact H
  case hin =>
    intro c
    show iprop(_ ∗ _ ∗ Pipeline.scopedRest spec0 c) ⊢ Pipeline.scopedRest spec0 c
    iintro ⟨-, -, H⟩
    iexact H
  case hout =>
    intro c
    show Pipeline.scopedRest spec0 c ⊢ iprop(_ ∗ Pipeline.scopedRest spec0 c)
    iintro H
    isplitr; · iempintro
    iexact H
  case htail =>
    intro c Q'
    exact tail m c Q'
  case hY =>
    intro c s'
    iintro ⟨-, HU, HSI⟩
    unfold Pipeline.unscopedRest
    imodintro
    iapply (pointsTo_read_all (Pipeline.restRefs sig spec0) (fun b => (c.tc : Thread nD τ).loc b) (fun b => StableHlo.after hostOps1 (V1 m c) (Proc.devRef .tc b)) s')
    isplitl [HU] <;> iassumption

/-- The argument arrays end as launched: eight of them are input arrays of the pipeline, which it only reads; the first
    weight matrix is no array of the pipeline, and no host operation writes it. -/
theorem args_of_post {r : PUnit × MemSt nD τ sig (Elt F)} (h : RunPost m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8) := by
  have hw : ∀ w : Fin cfg0.W, (cfg0.win w).isOut = false →
      r.2.mem ((cfg0.spec w).arr.view.loc (c.tc : Thread nD τ)) = V m c (Pipeline.arrRef spec0 w) := fun w hw =>
    ((h c).1 w).trans (((dats m 0 c).arrAt_in w hw _).trans (A_eq m c w))
  have h1 : r.2.mem ((c.tc : Thread nD τ).loc main_arg1) = m ((c.tc : Thread nD τ).loc main_arg1) := by
    rw [(h c).2 main_arg1 (Pipeline.mem_restRefs_of main_arg1 (by decide) (by decide)),
      StableHlo.after_of_forall_not_mem (b := Proc.devRef .tc main_arg1) _ _ (List.forall_iff_forall_mem.mp (by
        simp only [hostOps1, List.Forall, StableHlo.reshape_writes, Finset.mem_singleton]
        exact ⟨StableHlo.devRef_ne_of_ne (by decide), StableHlo.devRef_ne_of_ne (by decide)⟩)),
      V1_of_rest m c main_arg1 (Pipeline.mem_restRefs_of main_arg1 (by decide) (by decide))]
    exact V_main_arg1 m c
  exact ⟨(hw 0 rfl).trans (V_main_arg0 m c), h1, (hw 4 rfl).trans (V_main_arg2 m c), (hw 5 rfl).trans (V_main_arg3 m c),
    (hw 6 rfl).trans (V_main_arg4 m c), (hw 7 rfl).trans (V_main_arg5 m c), (hw 8 rfl).trans (V_main_arg6 m c),
    (hw 9 rfl).trans (V_main_arg7 m c), (hw 10 rfl).trans (V_main_arg8 m c)⟩

end Cert.KernelIdeal.Hand

end
-- ==== Proof.KIValue.lean ====
import proofs.«110689_g2000103882058017_pallasbulk_729_24_alg».proof.Proof.KILaunch
import proofs.«110689_g2000103882058017_pallasbulk_729_24_alg».proof.Proof.Spec
import Idealize.ShloMosaic.Lib.ValueIdx
import Idealize.ShloMosaic.Lib.Pipeline.Value
import Idealize.ShloMosaic.PureOps.Ideal.Laws
import Idealize.ShloMosaic.Lib.ValueLayout
import Idealize.ShloMosaic.Lib.StableHlo.Run

/-!
# The fused perceptron's value, read off its run

The kernel works on four tiles of 8192 batch rows. Each tile's 512 input columns arrive as two blocks of 256
columns, and the first weight matrix as its upper and lower 256 rows; the first layer's contraction over 512 is the
sum of the two contractions over 256. The other three layers and the logistic function act row by row, and the
last layer is computed transposed: the output block is one row of 8192 entries, entry `q` the network's value on the
tile's row `q`. The four output blocks fill a row of 32768 entries, which two reshapes turn into a column.
-/

set_option maxRecDepth 16384

noncomputable section

namespace Cert.KernelIdeal.KValue

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand

/-! ## The four products: where each operand is read -/

/-- Left operand of a first-layer product, row axis: the output's row. -/
theorem lhs_d1_0 (i : S8192x32.Idx) (q : dot_S8192x256_S256x32_S8192x32_1_0_0_1_n_n.contr.Idx) :
    (dot_S8192x256_S256x32_S8192x32_1_0_0_1_n_n.lhsIdx i q 0).val = (i 0).val := by
  unfold DotDims.lhsIdx
  rw [dif_neg (show ¬(0 : Fin S8192x256.rank) ∈ dot_S8192x256_S256x32_S8192x32_1_0_0_1_n_n.lhsBatch by decide),
    dif_pos (show (0 : Fin S8192x256.rank) ∈ dot_S8192x256_S256x32_S8192x32_1_0_0_1_n_n.lhsNonContracting by decide)]
  rfl
/-- Left operand, column axis: the contracted coordinate. -/
theorem lhs_d1_1 (i : S8192x32.Idx) (q : dot_S8192x256_S256x32_S8192x32_1_0_0_1_n_n.contr.Idx) :
    (dot_S8192x256_S256x32_S8192x32_1_0_0_1_n_n.lhsIdx i q 1).val = (q ⟨0, by decide⟩).val :=
  dot_S8192x256_S256x32_S8192x32_1_0_0_1_n_n.lhsIdx_val_of_single rfl i q
/-- Right operand, row axis: the contracted coordinate. -/
theorem rhs_d1_0 (i : S8192x32.Idx) (q : dot_S8192x256_S256x32_S8192x32_1_0_0_1_n_n.contr.Idx) :
    (dot_S8192x256_S256x32_S8192x32_1_0_0_1_n_n.rhsIdx i q 0).val = (q ⟨0, by decide⟩).val :=
  dot_S8192x256_S256x32_S8192x32_1_0_0_1_n_n.rhsIdx_val_of_single rfl i q
/-- Right operand, column axis: the output's column. -/
theorem rhs_d1_1 (i : S8192x32.Idx) (q : dot_S8192x256_S256x32_S8192x32_1_0_0_1_n_n.contr.Idx) :
    (dot_S8192x256_S256x32_S8192x32_1_0_0_1_n_n.rhsIdx i q 1).val = (i 1).val := by
  unfold DotDims.rhsIdx
  rw [dif_neg (show ¬(1 : Fin S256x32.rank) ∈ dot_S8192x256_S256x32_S8192x32_1_0_0_1_n_n.rhsBatch by decide),
    dif_pos (show (1 : Fin S256x32.rank) ∈ dot_S8192x256_S256x32_S8192x32_1_0_0_1_n_n.rhsNonContracting by decide)]
  rfl

/-- A first-layer product into the zero block, at row `p` and unit `j`: the sum over the 256 columns. -/
theorem mm1_apply (a : FVec Ideal S8192x256 .bf16) (b : FVec Ideal S256x32 .bf16) (p : Fin 8192) (j : Fin 32) :
    matmul dot_S8192x256_S256x32_S8192x32_1_0_0_1_n_n none a b (constant (F := Ideal) S8192x32 .f32 0x00000000#32) (ix2 p j)
      = ∑ k : Fin 256, a (ix2 p k) * b (ix2 k j) := by
  simp only [matmul]
  rw [Ideal.matmul_constant_zero_apply,
    ← Equiv.sum_comp (contrEquiv1 dot_S8192x256_S256x32_S8192x32_1_0_0_1_n_n 256 rfl rfl).symm]
  refine Finset.sum_congr rfl fun k _ => ?_
  have hk := contrEquiv1_symm_val dot_S8192x256_S256x32_S8192x32_1_0_0_1_n_n 256 rfl rfl k
  have el : dot_S8192x256_S256x32_S8192x32_1_0_0_1_n_n.lhsIdx (ix2 p j)
      ((contrEquiv1 dot_S8192x256_S256x32_S8192x32_1_0_0_1_n_n 256 rfl rfl).symm k) = ix2 p k :=
    funext fun a => Fin.ext (by
      match a with
      | ⟨0, _⟩ => exact lhs_d1_0 _ _
      | ⟨1, _⟩ => exact (lhs_d1_1 _ _).trans hk)
  have er : dot_S8192x256_S256x32_S8192x32_1_0_0_1_n_n.rhsIdx (ix2 p j)
      ((contrEquiv1 dot_S8192x256_S256x32_S8192x32_1_0_0_1_n_n 256 rfl rfl).symm k) = ix2 k j :=
    funext fun a => Fin.ext (by
      match a with
      | ⟨0, _⟩ => exact (rhs_d1_0 _ _).trans hk
      | ⟨1, _⟩ => exact rhs_d1_1 _ _)
  rw [el, er]

/-- Left operand of a second-layer product, row axis: the output's row. -/
theorem lhs_d2_0 (i : S8192x128.Idx) (q : dot_S8192x32_S32x128_S8192x128_1_0_0_1_n_n.contr.Idx) :
    (dot_S8192x32_S32x128_S8192x128_1_0_0_1_n_n.lhsIdx i q 0).val = (i 0).val := by
  unfold DotDims.lhsIdx
  rw [dif_neg (show ¬(0 : Fin S8192x32.rank) ∈ dot_S8192x32_S32x128_S8192x128_1_0_0_1_n_n.lhsBatch by decide),
    dif_pos (show (0 : Fin S8192x32.rank) ∈ dot_S8192x32_S32x128_S8192x128_1_0_0_1_n_n.lhsNonContracting by decide)]
  rfl
/-- Left operand, column axis: the contracted coordinate. -/
theorem lhs_d2_1 (i : S8192x128.Idx) (q : dot_S8192x32_S32x128_S8192x128_1_0_0_1_n_n.contr.Idx) :
    (dot_S8192x32_S32x128_S8192x128_1_0_0_1_n_n.lhsIdx i q 1).val = (q ⟨0, by decide⟩).val :=
  dot_S8192x32_S32x128_S8192x128_1_0_0_1_n_n.lhsIdx_val_of_single rfl i q
/-- Right operand, row axis: the contracted coordinate. -/
theorem rhs_d2_0 (i : S8192x128.Idx) (q : dot_S8192x32_S32x128_S8192x128_1_0_0_1_n_n.contr.Idx) :
    (dot_S8192x32_S32x128_S8192x128_1_0_0_1_n_n.rhsIdx i q 0).val = (q ⟨0, by decide⟩).val :=
  dot_S8192x32_S32x128_S8192x128_1_0_0_1_n_n.rhsIdx_val_of_single rfl i q
/-- Right operand, column axis: the output's column. -/
theorem rhs_d2_1 (i : S8192x128.Idx) (q : dot_S8192x32_S32x128_S8192x128_1_0_0_1_n_n.contr.Idx) :
    (dot_S8192x32_S32x128_S8192x128_1_0_0_1_n_n.rhsIdx i q 1).val = (i 1).val := by
  unfold DotDims.rhsIdx
  rw [dif_neg (show ¬(1 : Fin S32x128.rank) ∈ dot_S8192x32_S32x128_S8192x128_1_0_0_1_n_n.rhsBatch by decide),
    dif_pos (show (1 : Fin S32x128.rank) ∈ dot_S8192x32_S32x128_S8192x128_1_0_0_1_n_n.rhsNonContracting by decide)]
  rfl

/-- A second-layer product into the zero block, at row `p` and unit `j`: the sum over the 32 units below. -/
theorem mm2_apply (a : FVec Ideal S8192x32 .f32) (b : FVec Ideal S32x128 .f32) (p : Fin 8192) (j : Fin 128) :
    matmul dot_S8192x32_S32x128_S8192x128_1_0_0_1_n_n none a b (constant (F := Ideal) S8192x128 .f32 0x00000000#32) (ix2 p j)
      = ∑ k : Fin 32, a (ix2 p k) * b (ix2 k j) := by
  simp only [matmul]
  rw [Ideal.matmul_constant_zero_apply,
    ← Equiv.sum_comp (contrEquiv1 dot_S8192x32_S32x128_S8192x128_1_0_0_1_n_n 32 rfl rfl).symm]
  refine Finset.sum_congr rfl fun k _ => ?_
  have hk := contrEquiv1_symm_val dot_S8192x32_S32x128_S8192x128_1_0_0_1_n_n 32 rfl rfl k
  have el : dot_S8192x32_S32x128_S8192x128_1_0_0_1_n_n.lhsIdx (ix2 p j)
      ((contrEquiv1 dot_S8192x32_S32x128_S8192x128_1_0_0_1_n_n 32 rfl rfl).symm k) = ix2 p k :=
    funext fun a => Fin.ext (by
      match a with
      | ⟨0, _⟩ => exact lhs_d2_0 _ _
      | ⟨1, _⟩ => exact (lhs_d2_1 _ _).trans hk)
  have er : dot_S8192x32_S32x128_S8192x128_1_0_0_1_n_n.rhsIdx (ix2 p j)
      ((contrEquiv1 dot_S8192x32_S32x128_S8192x128_1_0_0_1_n_n 32 rfl rfl).symm k) = ix2 k j :=
    funext fun a => Fin.ext (by
      match a with
      | ⟨0, _⟩ => exact (rhs_d2_0 _ _).trans hk
      | ⟨1, _⟩ => exact rhs_d2_1 _ _)
  rw [el, er]

/-- Left operand of a third-layer product, row axis: the output's row. -/
theorem lhs_d3_0 (i : S8192x16.Idx) (q : dot_S8192x128_S128x16_S8192x16_1_0_0_1_n_n.contr.Idx) :
    (dot_S8192x128_S128x16_S8192x16_1_0_0_1_n_n.lhsIdx i q 0).val = (i 0).val := by
  unfold DotDims.lhsIdx
  rw [dif_neg (show ¬(0 : Fin S8192x128.rank) ∈ dot_S8192x128_S128x16_S8192x16_1_0_0_1_n_n.lhsBatch by decide),
    dif_pos (show (0 : Fin S8192x128.rank) ∈ dot_S8192x128_S128x16_S8192x16_1_0_0_1_n_n.lhsNonContracting by decide)]
  rfl
/-- Left operand, column axis: the contracted coordinate. -/
theorem lhs_d3_1 (i : S8192x16.Idx) (q : dot_S8192x128_S128x16_S8192x16_1_0_0_1_n_n.contr.Idx) :
    (dot_S8192x128_S128x16_S8192x16_1_0_0_1_n_n.lhsIdx i q 1).val = (q ⟨0, by decide⟩).val :=
  dot_S8192x128_S128x16_S8192x16_1_0_0_1_n_n.lhsIdx_val_of_single rfl i q
/-- Right operand, row axis: the contracted coordinate. -/
theorem rhs_d3_0 (i : S8192x16.Idx) (q : dot_S8192x128_S128x16_S8192x16_1_0_0_1_n_n.contr.Idx) :
    (dot_S8192x128_S128x16_S8192x16_1_0_0_1_n_n.rhsIdx i q 0).val = (q ⟨0, by decide⟩).val :=
  dot_S8192x128_S128x16_S8192x16_1_0_0_1_n_n.rhsIdx_val_of_single rfl i q
/-- Right operand, column axis: the output's column. -/
theorem rhs_d3_1 (i : S8192x16.Idx) (q : dot_S8192x128_S128x16_S8192x16_1_0_0_1_n_n.contr.Idx) :
    (dot_S8192x128_S128x16_S8192x16_1_0_0_1_n_n.rhsIdx i q 1).val = (i 1).val := by
  unfold DotDims.rhsIdx
  rw [dif_neg (show ¬(1 : Fin S128x16.rank) ∈ dot_S8192x128_S128x16_S8192x16_1_0_0_1_n_n.rhsBatch by decide),
    dif_pos (show (1 : Fin S128x16.rank) ∈ dot_S8192x128_S128x16_S8192x16_1_0_0_1_n_n.rhsNonContracting by decide)]
  rfl

/-- A third-layer product into the zero block, at row `p` and unit `j`: the sum over the 128 units below. -/
theorem mm3_apply (a : FVec Ideal S8192x128 .f32) (b : FVec Ideal S128x16 .f32) (p : Fin 8192) (j : Fin 16) :
    matmul dot_S8192x128_S128x16_S8192x16_1_0_0_1_n_n none a b (constant (F := Ideal) S8192x16 .f32 0x00000000#32) (ix2 p j)
      = ∑ k : Fin 128, a (ix2 p k) * b (ix2 k j) := by
  simp only [matmul]
  rw [Ideal.matmul_constant_zero_apply,
    ← Equiv.sum_comp (contrEquiv1 dot_S8192x128_S128x16_S8192x16_1_0_0_1_n_n 128 rfl rfl).symm]
  refine Finset.sum_congr rfl fun k _ => ?_
  have hk := contrEquiv1_symm_val dot_S8192x128_S128x16_S8192x16_1_0_0_1_n_n 128 rfl rfl k
  have el : dot_S8192x128_S128x16_S8192x16_1_0_0_1_n_n.lhsIdx (ix2 p j)
      ((contrEquiv1 dot_S8192x128_S128x16_S8192x16_1_0_0_1_n_n 128 rfl rfl).symm k) = ix2 p k :=
    funext fun a => Fin.ext (by
      match a with
      | ⟨0, _⟩ => exact lhs_d3_0 _ _
      | ⟨1, _⟩ => exact (lhs_d3_1 _ _).trans hk)
  have er : dot_S8192x128_S128x16_S8192x16_1_0_0_1_n_n.rhsIdx (ix2 p j)
      ((contrEquiv1 dot_S8192x128_S128x16_S8192x16_1_0_0_1_n_n 128 rfl rfl).symm k) = ix2 k j :=
    funext fun a => Fin.ext (by
      match a with
      | ⟨0, _⟩ => exact (rhs_d3_0 _ _).trans hk
      | ⟨1, _⟩ => exact rhs_d3_1 _ _)
  rw [el, er]

/-- The output product's left operand (the last weights, a column), row axis: the contracted coordinate. -/
theorem lhs_d4_0 (i : S1x8192.Idx) (q : dot_S16x1_S8192x16_S1x8192_0_1_1_0_n_n.contr.Idx) :
    (dot_S16x1_S8192x16_S1x8192_0_1_1_0_n_n.lhsIdx i q 0).val = (q ⟨0, by decide⟩).val :=
  dot_S16x1_S8192x16_S1x8192_0_1_1_0_n_n.lhsIdx_val_of_single rfl i q
/-- Its column axis: the output's unit row coordinate. -/
theorem lhs_d4_1 (i : S1x8192.Idx) (q : dot_S16x1_S8192x16_S1x8192_0_1_1_0_n_n.contr.Idx) :
    (dot_S16x1_S8192x16_S1x8192_0_1_1_0_n_n.lhsIdx i q 1).val = (i 0).val := by
  unfold DotDims.lhsIdx
  rw [dif_neg (show ¬(1 : Fin S16x1.rank) ∈ dot_S16x1_S8192x16_S1x8192_0_1_1_0_n_n.lhsBatch by decide),
    dif_pos (show (1 : Fin S16x1.rank) ∈ dot_S16x1_S8192x16_S1x8192_0_1_1_0_n_n.lhsNonContracting by decide)]
  rfl
/-- The right operand (the third hidden layer), row axis: the output's column, a batch row of the tile. -/
theorem rhs_d4_0 (i : S1x8192.Idx) (q : dot_S16x1_S8192x16_S1x8192_0_1_1_0_n_n.contr.Idx) :
    (dot_S16x1_S8192x16_S1x8192_0_1_1_0_n_n.rhsIdx i q 0).val = (i 1).val := by
  unfold DotDims.rhsIdx
  rw [dif_neg (show ¬(0 : Fin S8192x16.rank) ∈ dot_S16x1_S8192x16_S1x8192_0_1_1_0_n_n.rhsBatch by decide),
    dif_pos (show (0 : Fin S8192x16.rank) ∈ dot_S16x1_S8192x16_S1x8192_0_1_1_0_n_n.rhsNonContracting by decide)]
  rfl
/-- Its column axis: the contracted coordinate. -/
theorem rhs_d4_1 (i : S1x8192.Idx) (q : dot_S16x1_S8192x16_S1x8192_0_1_1_0_n_n.contr.Idx) :
    (dot_S16x1_S8192x16_S1x8192_0_1_1_0_n_n.rhsIdx i q 1).val = (q ⟨0, by decide⟩).val :=
  dot_S16x1_S8192x16_S1x8192_0_1_1_0_n_n.rhsIdx_val_of_single rfl i q

/-- The output product into the zero row, at column `q`: the sum over the 16 units of the last weight times the
    third hidden layer on the tile's row `q`. -/
theorem mm4_apply (a : FVec Ideal S16x1 .f32) (b : FVec Ideal S8192x16 .f32) (u : Fin 1) (q : Fin 8192) :
    matmul dot_S16x1_S8192x16_S1x8192_0_1_1_0_n_n none a b (constant (F := Ideal) S1x8192 .f32 0x00000000#32) (ix2 u q)
      = ∑ k : Fin 16, a (ix2 k u) * b (ix2 q k) := by
  simp only [matmul]
  rw [Ideal.matmul_constant_zero_apply,
    ← Equiv.sum_comp (contrEquiv1 dot_S16x1_S8192x16_S1x8192_0_1_1_0_n_n 16 rfl rfl).symm]
  refine Finset.sum_congr rfl fun k _ => ?_
  have hk := contrEquiv1_symm_val dot_S16x1_S8192x16_S1x8192_0_1_1_0_n_n 16 rfl rfl k
  have el : dot_S16x1_S8192x16_S1x8192_0_1_1_0_n_n.lhsIdx (ix2 u q)
      ((contrEquiv1 dot_S16x1_S8192x16_S1x8192_0_1_1_0_n_n 16 rfl rfl).symm k) = ix2 k u :=
    funext fun a => Fin.ext (by
      match a with
      | ⟨0, _⟩ => exact (lhs_d4_0 _ _).trans hk
      | ⟨1, _⟩ => exact lhs_d4_1 _ _)
  have er : dot_S16x1_S8192x16_S1x8192_0_1_1_0_n_n.rhsIdx (ix2 u q)
      ((contrEquiv1 dot_S16x1_S8192x16_S1x8192_0_1_1_0_n_n 16 rfl rfl).symm k) = ix2 q k :=
    funext fun a => Fin.ext (by
      match a with
      | ⟨0, _⟩ => exact rhs_d4_0 _ _
      | ⟨1, _⟩ => exact (rhs_d4_1 _ _).trans hk)
  rw [el, er]

/-! ## The layers on a tile -/

/-- The first layer on a tile whose 512 columns come as two blocks of 256, with the weights' rows cut the same
    way: the two partial products add up to the product over all 512 columns. -/
theorem layer1_apply (x0 x1 : FVec Ideal S8192x256 .f32) (w0 w1 : FVec Ideal S256x32 .bf16) (b : FVec Ideal S1x32 .f32)
    (hb : S1x32.Broadcasts S8192x32) (ht : FTy.bits .bf16 < FTy.bits .f32) (hs : S256x32.ShapeCasts S256x32)
    (X : Fin 8192 → Fin 512 → EReal) (W : Fin 512 → Fin 32 → EReal)
    (hx0 : ∀ p k, x0 (ix2 p k) = X p (Fin.castAdd 256 k)) (hx1 : ∀ p k, x1 (ix2 p k) = X p (Fin.natAdd 256 k))
    (hw0 : ∀ k j, w0 (ix2 k j) = W (Fin.castAdd 256 k) j) (hw1 : ∀ k j, w1 (ix2 k j) = W (Fin.natAdd 256 k) j)
    (p : Fin 8192) (j : Fin 32) :
    maximumf (addf (addf
        (matmul dot_S8192x256_S256x32_S8192x32_1_0_0_1_n_n none (truncf .bf16 x0 ht) (shapeCast S256x32 w0 hs) (constant (F := Ideal) S8192x32 .f32 0x00000000#32))
        (matmul dot_S8192x256_S256x32_S8192x32_1_0_0_1_n_n none (truncf .bf16 x1 ht) (shapeCast S256x32 w1 hs) (constant (F := Ideal) S8192x32 .f32 0x00000000#32)))
        (broadcastTo S8192x32 b hb)) (broadcast S8192x32 (Scalar.ofBits (F := Ideal) .f32 0x00000000#32)) (ix2 p j)
      = Cert.Mlp.dense X W (fun j => b (ix2 0 j)) p j := by
  show max ((matmul dot_S8192x256_S256x32_S8192x32_1_0_0_1_n_n none (truncf .bf16 x0 ht) (shapeCast S256x32 w0 hs) (constant (F := Ideal) S8192x32 .f32 0x00000000#32) (ix2 p j)
      + matmul dot_S8192x256_S256x32_S8192x32_1_0_0_1_n_n none (truncf .bf16 x1 ht) (shapeCast S256x32 w1 hs) (constant (F := Ideal) S8192x32 .f32 0x00000000#32) (ix2 p j))
      + broadcastTo S8192x32 b hb (ix2 p j)) (Ideal.ofBits .f32 0x00000000#32) = max ((∑ k, X p k * W k j) + b (ix2 0 j)) 0
  rw [mm1_apply, mm1_apply, broadcastTo_1b_ab_apply, Ideal.ofBits_zero_f32, shapeCast_self, shapeCast_self, Cert.Mlp.sum_halves]
  simp only [truncf_apply, hx0, hx1, hw0, hw1]

/-- The second layer on a tile. -/
theorem layer2_apply (a : FVec Ideal S8192x32 .f32) (w : FVec Ideal S32x128 .f32) (b : FVec Ideal S1x128 .f32)
    (hb : S1x128.Broadcasts S8192x128) (p : Fin 8192) (j : Fin 128) :
    maximumf (addf (matmul dot_S8192x32_S32x128_S8192x128_1_0_0_1_n_n none a w (constant (F := Ideal) S8192x128 .f32 0x00000000#32))
        (broadcastTo S8192x128 b hb)) (broadcast S8192x128 (Scalar.ofBits (F := Ideal) .f32 0x00000000#32)) (ix2 p j)
      = Cert.Mlp.dense (fun r k => a (ix2 r k)) (fun k j => w (ix2 k j)) (fun j => b (ix2 0 j)) p j := by
  show max (matmul dot_S8192x32_S32x128_S8192x128_1_0_0_1_n_n none a w (constant (F := Ideal) S8192x128 .f32 0x00000000#32) (ix2 p j)
      + broadcastTo S8192x128 b hb (ix2 p j)) (Ideal.ofBits .f32 0x00000000#32) = max ((∑ k, a (ix2 p k) * w (ix2 k j)) + b (ix2 0 j)) 0
  rw [mm2_apply, broadcastTo_1b_ab_apply, Ideal.ofBits_zero_f32]

/-- The third layer on a tile. -/
theorem layer3_apply (a : FVec Ideal S8192x128 .f32) (w : FVec Ideal S128x16 .f32) (b : FVec Ideal S1x16 .f32)
    (hb : S1x16.Broadcasts S8192x16) (p : Fin 8192) (j : Fin 16) :
    maximumf (addf (matmul dot_S8192x128_S128x16_S8192x16_1_0_0_1_n_n none a w (constant (F := Ideal) S8192x16 .f32 0x00000000#32))
        (broadcastTo S8192x16 b hb)) (broadcast S8192x16 (Scalar.ofBits (F := Ideal) .f32 0x00000000#32)) (ix2 p j)
      = Cert.Mlp.dense (fun r k => a (ix2 r k)) (fun k j => w (ix2 k j)) (fun j => b (ix2 0 j)) p j := by
  show max (matmul dot_S8192x128_S128x16_S8192x16_1_0_0_1_n_n none a w (constant (F := Ideal) S8192x16 .f32 0x00000000#32) (ix2 p j)
      + broadcastTo S8192x16 b hb (ix2 p j)) (Ideal.ofBits .f32 0x00000000#32) = max ((∑ k, a (ix2 p k) * w (ix2 k j)) + b (ix2 0 j)) 0
  rw [mm3_apply, broadcastTo_1b_ab_apply, Ideal.ofBits_zero_f32]

/-- The one bias of the output unit, spread over the output row. -/
theorem bias4_apply (b : FVec Ideal S1x1 .f32) (hb : S1x1.Broadcasts S1x8192) (u : Fin 1) (q : Fin 8192) :
    broadcastTo S1x8192 b hb (ix2 u q) = b (ix2 0 0) :=
  broadcastTo_apply b hb (ix2 u q) (ix2 (0 : Fin 1) (0 : Fin 1)) fun ax => by
    match ax with
    | ⟨0, _⟩ => rfl
    | ⟨1, _⟩ => rfl

/-- The output row from the third hidden layer: entry `q` is the logistic function of the output unit on the
    tile's row `q`. -/
theorem out_apply (h3 : FVec Ideal S8192x16 .f32) (w : FVec Ideal S16x1 .f32) (b : FVec Ideal S1x1 .f32) (u : Fin 1) (q : Fin 8192) :
    k0_pay1 (F := Ideal) h3 w (constant (F := Ideal) S1x8192 .f32 0x00000000#32) b (ix2 u q)
      = Ideal.logistic (Cert.Mlp.logit (fun r j => h3 (ix2 r j)) (fun j => w (ix2 j 0)) (b (ix2 0 0)) q) := by
  obtain rfl : u = 0 := Subsingleton.elim _ _
  unfold k0_pay1
  show Ideal.logistic (matmul dot_S16x1_S8192x16_S1x8192_0_1_1_0_n_n none w h3 (constant (F := Ideal) S1x8192 .f32 0x00000000#32) (ix2 0 q)
      + broadcastTo S1x8192 b broadcasts_S1x1_S1x8192 (ix2 0 q)) = Ideal.logistic ((∑ j, w (ix2 j 0) * h3 (ix2 q j)) + b (ix2 0 0))
  rw [mm4_apply, bias4_apply]

/-- THE BODY'S RESULT AT AN ENTRY. With the tile's two column blocks the halves of `X` and the two weight blocks
    the halves of `W`, entry `q` of the output row is the network on row `q` of `X`. -/
theorem pay_apply (x0 x1 : FVec Ideal S8192x256 .f32) (w0 w1 : FVec Ideal S256x32 .bf16) (b1 : FVec Ideal S1x32 .f32)
    (w2 : FVec Ideal S32x128 .f32) (b2 : FVec Ideal S1x128 .f32) (w3 : FVec Ideal S128x16 .f32) (b3 : FVec Ideal S1x16 .f32)
    (w4 : FVec Ideal S16x1 .f32) (b4 : FVec Ideal S1x1 .f32)
    (X : Fin 8192 → Fin 512 → EReal) (W : Fin 512 → Fin 32 → EReal)
    (hx0 : ∀ p k, x0 (ix2 p k) = X p (Fin.castAdd 256 k)) (hx1 : ∀ p k, x1 (ix2 p k) = X p (Fin.natAdd 256 k))
    (hw0 : ∀ k j, w0 (ix2 k j) = W (Fin.castAdd 256 k) j) (hw1 : ∀ k j, w1 (ix2 k j) = W (Fin.natAdd 256 k) j)
    (u : Fin 1) (q : Fin 8192) :
    k0_pay1 (F := Ideal) (k0_pay2 (F := Ideal) x0 w0 x1 w1 b1 w2 b2 w3 b3) w4 (constant (F := Ideal) S1x8192 .f32 0x00000000#32) b4 (ix2 u q)
      = Cert.Mlp.mlp X W (fun j => b1 (ix2 0 j)) (fun k j => w2 (ix2 k j)) (fun j => b2 (ix2 0 j)) (fun k j => w3 (ix2 k j))
          (fun j => b3 (ix2 0 j)) (fun j => w4 (ix2 j 0)) (b4 (ix2 0 0)) q := by
  rw [out_apply]
  unfold Cert.Mlp.mlp
  refine congrArg (fun h => Ideal.logistic (Cert.Mlp.logit h (fun j => w4 (ix2 j 0)) (b4 (ix2 0 0)) q)) ?_
  unfold k0_pay2
  funext r j
  refine (layer3_apply _ w3 b3 _ r j).trans ?_
  refine congrArg (fun h => Cert.Mlp.dense h (fun k j => w3 (ix2 k j)) (fun j => b3 (ix2 0 j)) r j) ?_
  funext r j
  refine (layer2_apply _ w2 b2 _ r j).trans ?_
  refine congrArg (fun h => Cert.Mlp.dense h (fun k j => w2 (ix2 k j)) (fun j => b2 (ix2 0 j)) r j) ?_
  funext r j
  exact layer1_apply x0 x1 w0 w1 b1 _ _ _ X W hx0 hx1 hw0 hw1 r j

/-! ## The arrays and the blocks -/

variable (m : (ℓ : Loc nD τ sig) → Buf (Elt Ideal) ℓ)

/-- The batch as launched. -/
abbrev aX (c : Dev nD) : FVec Ideal S32768x512 .f32 := m ((c.tc : Thread nD τ).loc main_arg0)
/-- The first weight matrix as launched. -/
abbrev aW1 (c : Dev nD) : FVec Ideal S512x32 .f32 := m ((c.tc : Thread nD τ).loc main_arg1)

/-- The printed index maps, decided over the four grid points: the two batch windows and the output window move
    with the point, the batch's right half sits one block to the right, and every other window stays at its one
    block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 1
    ∧ win0_2.index t (0 : Fin 2) = 0 ∧ win0_2.index t (1 : Fin 2) = 0
    ∧ win0_3.index t (0 : Fin 2) = 0 ∧ win0_3.index t (1 : Fin 2) = 0
    ∧ win0_11.index t (0 : Fin 2) = 0 ∧ win0_11.index t (1 : Fin 2) = t.val :=
  (by decide +kernel : ∀ t : Fin grid0.N, _)

/-- The left column block of the batch tile at point `t`. -/
abbrev bX0 (c : Dev nD) (t : Fin cfg0.N) : FVec Ideal S8192x256 .f32 := iblk m c 0 t
/-- The right column block of the batch tile at point `t`. -/
abbrev bX1 (c : Dev nD) (t : Fin cfg0.N) : FVec Ideal S8192x256 .f32 := iblk m c 1 t

/-- Row `p`, column `k` of the left block at point `t` is row `8192 t + p`, column `k` of the batch. -/
theorem bX0_apply (c : Dev nD) (t : Fin cfg0.N) (p : Fin 8192) (k : Fin 256) (r : Fin 32768) (hr : r.val = 8192 * t.val + p.val) :
    bX0 m c t (ix2 p k) = aX m c (ix2 r (Fin.castAdd 256 k : Fin 512)) := by
  obtain ⟨e0, e1, -⟩ := idx_facts t
  show iblk m c 0 t (ix2 p k) = _
  unfold iblk
  rw [View.read_apply]
  show V m c main_arg0 _ = _
  rw [V_main_arg0]
  refine congrArg _ (funext fun a => Fin.ext ?_)
  match a with
  | ⟨0, _⟩ => show win0_0.index t (0 : Fin 2) * 8192 + 1 * p.val = r.val; omega
  | ⟨1, _⟩ => show win0_0.index t (1 : Fin 2) * 256 + 1 * k.val = k.val; omega

/-- Row `p`, column `k` of the right block is row `8192 t + p`, column `256 + k` of the batch. -/
theorem bX1_apply (c : Dev nD) (t : Fin cfg0.N) (p : Fin 8192) (k : Fin 256) (r : Fin 32768) (hr : r.val = 8192 * t.val + p.val) :
    bX1 m c t (ix2 p k) = aX m c (ix2 r (Fin.natAdd 256 k : Fin 512)) := by
  obtain ⟨-, -, e0, e1, -⟩ := idx_facts t
  show iblk m c 1 t (ix2 p k) = _
  unfold iblk
  rw [View.read_apply]
  show V m c main_arg0 _ = _
  rw [V_main_arg0]
  refine congrArg _ (funext fun a => Fin.ext ?_)
  match a with
  | ⟨0, _⟩ => show win0_1.index t (0 : Fin 2) * 8192 + 1 * p.val = r.val; omega
  | ⟨1, _⟩ => show win0_1.index t (1 : Fin 2) * 256 + 1 * k.val = 256 + k.val; omega

/-- The upper half of the first weight matrix, in the kernel's format, as the region finds it: the host cuts it out
    and changes its format before the call. -/
theorem V_w1_upper (c : Dev nD) : (V m c main_call0_v1 : FVec Ideal S256x32 .bf16)
    = truncf .bf16 (extractStridedSlice S256x32 ![0, 0] (aW1 m c) slices_S512x32_S256x32_0_0) bitsLt_bf16_f32 := by
  dsimp only [V, V0]
  simp only [hostOps0, List.flatten_cons, List.flatten_nil, List.append_nil]
  after_results
  rfl
/-- The lower half likewise. -/
theorem V_w1_lower (c : Dev nD) : (V m c main_call0_v3 : FVec Ideal S256x32 .bf16)
    = truncf .bf16 (extractStridedSlice S256x32 ![256, 0] (aW1 m c) slices_S512x32_S256x32_256_0) bitsLt_bf16_f32 := by
  dsimp only [V, V0]
  simp only [hostOps0, List.flatten_cons, List.flatten_nil, List.append_nil]
  after_results
  rfl

/-- The upper weight block at point `t`. -/
abbrev bW0 (c : Dev nD) (t : Fin cfg0.N) : FVec Ideal S256x32 .bf16 := iblk m c 2 t
/-- The lower weight block at point `t`. -/
abbrev bW1 (c : Dev nD) (t : Fin cfg0.N) : FVec Ideal S256x32 .bf16 := iblk m c 3 t

/-- Row `k` of the upper weight block is row `k` of the first weight matrix. -/
theorem bW0_apply (c : Dev nD) (t : Fin cfg0.N) (k : Fin 256) (j : Fin 32) :
    bW0 m c t (ix2 k j) = aW1 m c (ix2 (Fin.castAdd 256 k : Fin 512) j) := by
  obtain ⟨-, -, -, -, e0, e1, -⟩ := idx_facts t
  show iblk m c 2 t (ix2 k j) = _
  unfold iblk
  rw [View.read_apply]
  show (V m c main_call0_v1 : FVec Ideal S256x32 .bf16) _ = _
  rw [V_w1_upper]
  show extractStridedSlice S256x32 ![0, 0] (aW1 m c) slices_S512x32_S256x32_0_0 _ = _
  refine extractStridedSlice_apply _ _ _ _ (ix2 (Fin.castAdd 256 k : Fin 512) j) fun a => ?_
  match a with
  | ⟨0, _⟩ => show k.val = 0 + (win0_2.index t (0 : Fin 2) * 256 + 1 * k.val); omega
  | ⟨1, _⟩ => show j.val = 0 + (win0_2.index t (1 : Fin 2) * 32 + 1 * j.val); omega

/-- Row `k` of the lower weight block is row `256 + k` of the first weight matrix. -/
theorem bW1_apply (c : Dev nD) (t : Fin cfg0.N) (k : Fin 256) (j : Fin 32) :
    bW1 m c t (ix2 k j) = aW1 m c (ix2 (Fin.natAdd 256 k : Fin 512) j) := by
  obtain ⟨-, -, -, -, -, -, e0, e1, -⟩ := idx_facts t
  show iblk m c 3 t (ix2 k j) = _
  unfold iblk
  rw [View.read_apply]
  show (V m c main_call0_v3 : FVec Ideal S256x32 .bf16) _ = _
  rw [V_w1_lower]
  show extractStridedSlice S256x32 ![256, 0] (aW1 m c) slices_S512x32_S256x32_256_0 _ = _
  refine extractStridedSlice_apply _ _ _ _ (ix2 (Fin.natAdd 256 k : Fin 512) j) fun a => ?_
  match a with
  | ⟨0, _⟩ => show 256 + k.val = 256 + (win0_3.index t (0 : Fin 2) * 256 + 1 * k.val); omega
  | ⟨1, _⟩ => show j.val = 0 + (win0_3.index t (1 : Fin 2) * 32 + 1 * j.val); omega

/-! ### The arrays held whole: each block is its array -/

/-- The first bias as launched. -/
abbrev aB1 (c : Dev nD) : FVec Ideal S1x32 .f32 := m ((c.tc : Thread nD τ).loc main_arg2)
/-- Its window's block at point `t`. -/
abbrev bB1 (c : Dev nD) (t : Fin cfg0.N) : FVec Ideal S1x32 .f32 := iblk m c 4 t
theorem idx4 : ∀ t : Fin cfg0.N, win0_4.index t (0 : Fin 2) = 0 ∧ win0_4.index t (1 : Fin 2) = 0 :=
  (by decide +kernel : ∀ t : Fin grid0.N, _)
/-- The window holds the first bias whole at every point. -/
theorem bB1_eq (c : Dev nD) (t : Fin cfg0.N) : bB1 m c t = aB1 m c := by
  obtain ⟨e0, e1⟩ := idx4 t
  funext y
  show iblk m c 4 t y = _
  unfold iblk
  rw [View.read_apply]
  show V m c main_arg2 _ = _
  rw [V_main_arg2]
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 32 + 1 * (y 1).val = (y 1).val; omega

/-- The second weight matrix as launched. -/
abbrev aW2 (c : Dev nD) : FVec Ideal S32x128 .f32 := m ((c.tc : Thread nD τ).loc main_arg3)
/-- Its window's block at point `t`. -/
abbrev bW2 (c : Dev nD) (t : Fin cfg0.N) : FVec Ideal S32x128 .f32 := iblk m c 5 t
theorem idx5 : ∀ t : Fin cfg0.N, win0_5.index t (0 : Fin 2) = 0 ∧ win0_5.index t (1 : Fin 2) = 0 :=
  (by decide +kernel : ∀ t : Fin grid0.N, _)
/-- The window holds the second weight matrix whole at every point. -/
theorem bW2_eq (c : Dev nD) (t : Fin cfg0.N) : bW2 m c t = aW2 m c := by
  obtain ⟨e0, e1⟩ := idx5 t
  funext y
  show iblk m c 5 t y = _
  unfold iblk
  rw [View.read_apply]
  show V m c main_arg3 _ = _
  rw [V_main_arg3]
  refine congrArg _ (funext fun a => Fin.ext ?_)
  match a with
  | ⟨0, _⟩ => show win0_5.index t (0 : Fin 2) * 32 + 1 * (y 0).val = (y 0).val; omega
  | ⟨1, _⟩ => show win0_5.index t (1 : Fin 2) * 128 + 1 * (y 1).val = (y 1).val; omega

/-- The second bias as launched. -/
abbrev aB2 (c : Dev nD) : FVec Ideal S1x128 .f32 := m ((c.tc : Thread nD τ).loc main_arg4)
/-- Its window's block at point `t`. -/
abbrev bB2 (c : Dev nD) (t : Fin cfg0.N) : FVec Ideal S1x128 .f32 := iblk m c 6 t
theorem idx6 : ∀ t : Fin cfg0.N, win0_6.index t (0 : Fin 2) = 0 ∧ win0_6.index t (1 : Fin 2) = 0 :=
  (by decide +kernel : ∀ t : Fin grid0.N, _)
/-- The window holds the second bias whole at every point. -/
theorem bB2_eq (c : Dev nD) (t : Fin cfg0.N) : bB2 m c t = aB2 m c := by
  obtain ⟨e0, e1⟩ := idx6 t
  funext y
  show iblk m c 6 t y = _
  unfold iblk
  rw [View.read_apply]
  show V m c main_arg4 _ = _
  rw [V_main_arg4]
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- The third weight matrix as launched. -/
abbrev aW3 (c : Dev nD) : FVec Ideal S128x16 .f32 := m ((c.tc : Thread nD τ).loc main_arg5)
/-- Its window's block at point `t`. -/
abbrev bW3 (c : Dev nD) (t : Fin cfg0.N) : FVec Ideal S128x16 .f32 := iblk m c 7 t
theorem idx7 : ∀ t : Fin cfg0.N, win0_7.index t (0 : Fin 2) = 0 ∧ win0_7.index t (1 : Fin 2) = 0 :=
  (by decide +kernel : ∀ t : Fin grid0.N, _)
/-- The window holds the third weight matrix whole at every point. -/
theorem bW3_eq (c : Dev nD) (t : Fin cfg0.N) : bW3 m c t = aW3 m c := by
  obtain ⟨e0, e1⟩ := idx7 t
  funext y
  show iblk m c 7 t y = _
  unfold iblk
  rw [View.read_apply]
  show V m c main_arg5 _ = _
  rw [V_main_arg5]
  refine congrArg _ (funext fun a => Fin.ext ?_)
  match a with
  | ⟨0, _⟩ => show win0_7.index t (0 : Fin 2) * 128 + 1 * (y 0).val = (y 0).val; omega
  | ⟨1, _⟩ => show win0_7.index t (1 : Fin 2) * 16 + 1 * (y 1).val = (y 1).val; omega

/-- The third bias as launched. -/
abbrev aB3 (c : Dev nD) : FVec Ideal S1x16 .f32 := m ((c.tc : Thread nD τ).loc main_arg6)
/-- Its window's block at point `t`. -/
abbrev bB3 (c : Dev nD) (t : Fin cfg0.N) : FVec Ideal S1x16 .f32 := iblk m c 8 t
theorem idx8 : ∀ t : Fin cfg0.N, win0_8.index t (0 : Fin 2) = 0 ∧ win0_8.index t (1 : Fin 2) = 0 :=
  (by decide +kernel : ∀ t : Fin grid0.N, _)
/-- The window holds the third bias whole at every point. -/
theorem bB3_eq (c : Dev nD) (t : Fin cfg0.N) : bB3 m c t = aB3 m c := by
  obtain ⟨e0, e1⟩ := idx8 t
  funext y
  show iblk m c 8 t y = _
  unfold iblk
  rw [View.read_apply]
  show V m c main_arg6 _ = _
  rw [V_main_arg6]
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 16 + 1 * (y 1).val = (y 1).val; omega

/-- The output unit's weights as launched. -/
abbrev aW4 (c : Dev nD) : FVec Ideal S16x1 .f32 := m ((c.tc : Thread nD τ).loc main_arg7)
/-- Its window's block at point `t`. -/
abbrev bW4 (c : Dev nD) (t : Fin cfg0.N) : FVec Ideal S16x1 .f32 := iblk m c 9 t
theorem idx9 : ∀ t : Fin cfg0.N, win0_9.index t (0 : Fin 2) = 0 ∧ win0_9.index t (1 : Fin 2) = 0 :=
  (by decide +kernel : ∀ t : Fin grid0.N, _)
/-- The window holds the output unit's weights whole at every point. -/
theorem bW4_eq (c : Dev nD) (t : Fin cfg0.N) : bW4 m c t = aW4 m c := by
  obtain ⟨e0, e1⟩ := idx9 t
  funext y
  show iblk m c 9 t y = _
  unfold iblk
  rw [View.read_apply]
  show V m c main_arg7 _ = _
  rw [V_main_arg7]
  refine congrArg _ (funext fun a => Fin.ext ?_)
  match a with
  | ⟨0, _⟩ => show win0_9.index t (0 : Fin 2) * 16 + 1 * (y 0).val = (y 0).val; omega
  | ⟨1, _⟩ => show win0_9.index t (1 : Fin 2) * 1 + 1 * (y 1).val = (y 1).val; omega

/-- The output unit's bias as launched. -/
abbrev aB4 (c : Dev nD) : FVec Ideal S1x1 .f32 := m ((c.tc : Thread nD τ).loc main_arg8)
/-- Its window's block at point `t`. -/
abbrev bB4 (c : Dev nD) (t : Fin cfg0.N) : FVec Ideal S1x1 .f32 := iblk m c 10 t
theorem idx10 : ∀ t : Fin cfg0.N, win0_10.index t (0 : Fin 2) = 0 ∧ win0_10.index t (1 : Fin 2) = 0 :=
  (by decide +kernel : ∀ t : Fin grid0.N, _)
/-- The window holds the output unit's bias whole at every point. -/
theorem bB4_eq (c : Dev nD) (t : Fin cfg0.N) : bB4 m c t = aB4 m c := by
  obtain ⟨e0, e1⟩ := idx10 t
  funext y
  show iblk m c 10 t y = _
  unfold iblk
  rw [View.read_apply]
  show V m c main_arg8 _ = _
  rw [V_main_arg8]
  refine congrArg _ (funext fun a => Fin.ext ?_)
  match a with
  | ⟨0, _⟩ => show win0_10.index t (0 : Fin 2) * 1 + 1 * (y 0).val = (y 0).val; omega
  | ⟨1, _⟩ => show win0_10.index t (1 : Fin 2) * 1 + 1 * (y 1).val = (y 1).val; omega

/-! ## From the blocks to the output row -/

/-- The output row `[1, 32768]` the region leaves: entry `r` is the network on row `r` of the batch. -/
def G (c : Dev nD) : FVec Ideal S1x32768 .f32 := fun i =>
  Cert.Mlp.mlp (fun r k => aX m c (ix2 r k)) (fun k j => aW1 m c (ix2 k j)) (fun j => aB1 m c (ix2 0 j))
    (fun k j => aW2 m c (ix2 k j)) (fun j => aB2 m c (ix2 0 j)) (fun k j => aW3 m c (ix2 k j)) (fun j => aB3 m c (ix2 0 j))
    (fun j => aW4 m c (ix2 j 0)) (aB4 m c (ix2 0 0)) (i 1)

theorem hz : (![0, 0] : Fin 2 → Nat) = fun _ => 0 := funext fun a => by fin_cases a <;> rfl

/-- The body's result at any index of the output block. -/
theorem pay_apply' (x0 x1 : FVec Ideal S8192x256 .f32) (w0 w1 : FVec Ideal S256x32 .bf16) (b1 : FVec Ideal S1x32 .f32)
    (w2 : FVec Ideal S32x128 .f32) (b2 : FVec Ideal S1x128 .f32) (w3 : FVec Ideal S128x16 .f32) (b3 : FVec Ideal S1x16 .f32)
    (w4 : FVec Ideal S16x1 .f32) (b4 : FVec Ideal S1x1 .f32)
    (X : Fin 8192 → Fin 512 → EReal) (W : Fin 512 → Fin 32 → EReal)
    (hx0 : ∀ p k, x0 (ix2 p k) = X p (Fin.castAdd 256 k)) (hx1 : ∀ p k, x1 (ix2 p k) = X p (Fin.natAdd 256 k))
    (hw0 : ∀ k j, w0 (ix2 k j) = W (Fin.castAdd 256 k) j) (hw1 : ∀ k j, w1 (ix2 k j) = W (Fin.natAdd 256 k) j)
    (y : S1x8192.Idx) :
    k0_pay1 (F := Ideal) (k0_pay2 (F := Ideal) x0 w0 x1 w1 b1 w2 b2 w3 b3) w4 (constant (F := Ideal) S1x8192 .f32 0x00000000#32) b4 y
      = Cert.Mlp.mlp X W (fun j => b1 (ix2 0 j)) (fun k j => w2 (ix2 k j)) (fun j => b2 (ix2 0 j)) (fun k j => w3 (ix2 k j))
          (fun j => b3 (ix2 0 j)) (fun j => w4 (ix2 j 0)) (b4 (ix2 0 0)) (y 1) := by
  obtain ⟨u, q, rfl⟩ : ∃ (u : Fin 1) (q : Fin 8192), y = ix2 u q := ⟨y 0, y 1, eq_ix2 y⟩
  exact pay_apply x0 x1 w0 w1 b1 w2 b2 w3 b3 w4 b4 X W hx0 hx1 hw0 hw1 u q

/-- The batch row under row `p` of the tile at point `t`. -/
def rowAt (t : Fin cfg0.N) (p : Fin 8192) : Fin 32768 := ⟨8192 * t.val + p.val, by
  have ht : t.val < 4 := Nat.lt_of_lt_of_eq t.isLt N_0
  have := p.isLt; omega⟩

/-- WHAT POINT `t` WRITES BACK is block `t` of `G`: columns `8192 t` to `8192 t + 8191` of the output row. -/
theorem flushed_eq (c : Dev nD) (t : Fin cfg0.N) :
    (dats m 0 c).flushed 11 t = ((cfg0.win 11).blk t).view.read (Elt Ideal) (G m c) := by
  show (cfg0.win 11).cut (grid0.coords t) ((dats m 0 c).after 11 t) = _
  rw [after_11]
  unfold outBlk
  rw [View.canon_unit_zero hz]
  simp only [View.ld_unit_zero (S := S8192x256) hz, View.ld_unit_zero (S := S256x32) hz, View.ld_unit_zero (S := S1x32) hz,
    View.ld_unit_zero (S := S32x128) hz, View.ld_unit_zero (S := S1x128) hz, View.ld_unit_zero (S := S128x16) hz,
    View.ld_unit_zero (S := S1x16) hz, View.ld_unit_zero (S := S16x1) hz, View.ld_unit_zero (S := S1x1) hz]
  obtain ⟨-, -, -, -, -, -, -, -, e0, e1⟩ := idx_facts t
  funext y
  show k0_pay1 (F := Ideal) (k0_pay2 (F := Ideal) (bX0 m c t) (bW0 m c t) (bX1 m c t) (bW1 m c t) (bB1 m c t) (bW2 m c t)
      (bB2 m c t) (bW3 m c t) (bB3 m c t)) (bW4 m c t) (constant (F := Ideal) S1x8192 .f32 0x00000000#32) (bB4 m c t) y
    = G m c (((cfg0.win 11).blk t).view.emb y)
  rw [bB1_eq, bW2_eq, bB2_eq, bW3_eq, bB3_eq, bW4_eq, bB4_eq]
  refine (pay_apply' (bX0 m c t) (bX1 m c t) (bW0 m c t) (bW1 m c t) (aB1 m c) (aW2 m c) (aB2 m c) (aW3 m c) (aB3 m c)
    (aW4 m c) (aB4 m c) (fun p k => aX m c (ix2 (rowAt t p) k)) (fun k j => aW1 m c (ix2 k j))
    (fun p k => bX0_apply m c t p k (rowAt t p) rfl) (fun p k => bX1_apply m c t p k (rowAt t p) rfl)
    (fun k j => bW0_apply m c t k j) (fun k j => bW1_apply m c t k j) y).trans ?_
  refine (Cert.Mlp.mlp_rows (rowAt t) (fun r k => aX m c (ix2 r k)) (fun k j => aW1 m c (ix2 k j)) (fun j => aB1 m c (ix2 0 j))
    (fun k j => aW2 m c (ix2 k j)) (fun j => aB2 m c (ix2 0 j)) (fun k j => aW3 m c (ix2 k j)) (fun j => aB3 m c (ix2 0 j))
    (fun j => aW4 m c (ix2 j 0)) (aB4 m c (ix2 0 0)) (y 1)).trans ?_
  unfold G
  refine congrArg (Cert.Mlp.mlp (fun r k => aX m c (ix2 r k)) (fun k j => aW1 m c (ix2 k j)) (fun j => aB1 m c (ix2 0 j))
    (fun k j => aW2 m c (ix2 k j)) (fun j => aB2 m c (ix2 0 j)) (fun k j => aW3 m c (ix2 k j)) (fun j => aB3 m c (ix2 0 j))
    (fun j => aW4 m c (ix2 j 0)) (aB4 m c (ix2 0 0))) (Fin.ext ?_)
  show 8192 * t.val + (y 1).val = win0_11.index t (1 : Fin 2) * 8192 + 1 * (y 1).val
  omega

/-- An index of the output row is in point `t`'s block iff each coordinate is in the block's range on its axis. -/
theorem mem_blk (t : Fin cfg0.N) (i : S1x32768.Idx) :
    i ∈ ((cfg0.win 11).blk t).view.set ↔ ∀ a : Fin 2, win0_11.index t a * S1x8192.size a ≤ (i a).val
      ∧ (i a).val < win0_11.index t a * S1x8192.size a + S1x8192.size a := by
  show i ∈ ((View.whole main_call0_v4).slice (win0_11.rect t)).set ↔ _
  rw [View.set_slice_whole, Rect.mem_set_unit]
  exact Iff.rfl

/-- Every column of the output row is written back by some point: column `r` by point `r / 8192`. -/
theorem cover (i : S1x32768.Idx) : ∃ t : Fin cfg0.N, (cfg0.win 11).flush t = true ∧ i ∈ ((cfg0.win 11).blk t).view.set := by
  have h0 : (i 0).val < 1 := (i 0).isLt
  have h1 : (i 1).val < 32768 := (i 1).isLt
  have hN : cfg0.N = 4 := N_0
  obtain ⟨t, ht⟩ : ∃ t : Fin cfg0.N, t.val = (i 1).val / 8192 := ⟨⟨(i 1).val / 8192, by rw [hN]; omega⟩, rfl⟩
  obtain ⟨-, -, -, -, -, -, -, -, e0, e1⟩ := idx_facts t
  refine ⟨t, flush0_11 t, ?_⟩
  rw [mem_blk]
  intro a
  match a with
  | ⟨0, _⟩ =>
    show win0_11.index t (0 : Fin 2) * 1 ≤ (i 0).val ∧ (i 0).val < win0_11.index t (0 : Fin 2) * 1 + 1
    omega
  | ⟨1, _⟩ =>
    show win0_11.index t (1 : Fin 2) * 8192 ≤ (i 1).val ∧ (i 1).val < win0_11.index t (1 : Fin 2) * 8192 + 8192
    omega

/-- THE OUTPUT ROW after the run. -/
theorem final (c : Dev nD) : (dats m 0 c).arrAt 11 cfg0.N = G m c :=
  (dats m 0 c).arrAt_eq_of_cover 11 (G m c) (fun t _ => flushed_eq m c t) cover

/-! ## The result: the output row reshaped to a column -/

/-- At the region's exit the output row holds `G`. -/
theorem V1_out (c : Dev nD) : (V1 m c (Proc.devRef .tc main_call0_v4) : FVec Ideal S1x32768 .f32) = G m c := by
  unfold V1
  rw [Function.update_self]
  exact final m c

/-- THE RESULT. The two reshapes after the region read the output row `[1, 32768]` as a column `[32768, 1]`: entry
    `(r, 0)` is entry `(0, r)` of the row, the network on row `r` of the batch. -/
theorem value_of_post {r : PUnit × MemSt nD τ sig (Elt Ideal)} (h : Hand.RunPost m r) (c : Dev nD) :
    r.2.mem ((c.tc : Thread nD τ).loc main_v0) = Cert.Mlp.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  have h1 := (h c).2 main_v0 (Pipeline.mem_restRefs_of main_v0 (by decide) (by decide))
  rw [h1]
  show StableHlo.after hostOps1 (V1 m c) (Proc.devRef .tc main_v0) = _
  after_results
  funext i
  obtain ⟨q, u, rfl⟩ : ∃ (q : Fin 32768) (u : Fin 1), i = ix2 q u := ⟨i 0, i 1, eq_ix2 i⟩
  show shapeCast S32768x1 (shapeCast S32768 (V1 m c (Proc.devRef .tc main_call0_v4) : FVec Ideal S1x32768 .f32)
      shapeCasts_S1x32768_S32768) shapeCasts_S32768_S32768x1 (ix2 q u) = _
  rw [V1_out]
  refine (shapeCast_apply _ _ (ix2 q u) (ix1 q) ?_).trans ?_
  · have hu : u.val = 0 := by omega
    rw [Shape.rowMajor_val_one, Shape.rowMajor_val_two]
    show q.val = q.val * 1 + u.val
    omega
  · refine (shapeCast_1a_a_apply (G m c) _ q).trans ?_
    rfl

end Cert.KernelIdeal.KValue

end
-- ==== Proof.RefValue.lean ====
/-
  The value of the reference at the extended reals.

  The reference transposes the batch `x` (rows × features) into features × rows, overwrites a zero array of that shape
  with it, transposes the weights and biases, and runs one grid of 256 points: point `t` reads columns `128 t … 128 t + 127`
  of the transposed batch and the whole transposed weights, and stores, at column `q` of a `[1, 128]` block, the logistic
  function of `∑ⱼ h₃[j, q] · w₄[j] + b₄`, where each hidden layer is `max (W · h + b) 0` computed units by columns. Two
  reshapes then turn the `[1, 32768]` row into the `[32768, 1]` result.

  Read at an index, every product `W[j, k] · h[k, q]` is the product `h[q, k] · W[k, j]` of the row orientation with its
  factors exchanged, so column `q` of a block is the network applied to batch row `128 t + q`; the blocks tile the row;
  the reshapes keep the row-major position. Only commutativity of the product on the extended reals is used.
-/
import proofs.«110689_g2000103882058017_pallasbulk_729_24_alg».proof.Proof.Spec
import proofs.«110689_g2000103882058017_pallasbulk_729_24_alg».proof.Proof.Gen.ReferenceIdeal.Frame
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

noncomputable section

namespace Cert.ReferenceIdeal.RefValue

open Idealize.ShloMosaic Idealize.ShloMosaic.ValueIdx Idealize.ShloMosaic.TcCoe
open Idealize.SL.Sem
open Idealize.ShloMosaic.Pipeline (Dat)
open Cert.ReferenceIdeal Cert.ReferenceIdeal.Gen

/-! ## The three block products, read at an index -/

theorem lhs1_0 (j : S32x128.Idx) (k : dot_S32x512_S512x128_S32x128_1_0_0_1_n_n.contr.Idx) : (dot_S32x512_S512x128_S32x128_1_0_0_1_n_n.lhsIdx j k 0 : ℕ) = j 0 := by
  simp [DotDims.lhsIdx, dot_S32x512_S512x128_S32x128_1_0_0_1_n_n]; rfl
theorem lhs1_1 (j : S32x128.Idx) (k : dot_S32x512_S512x128_S32x128_1_0_0_1_n_n.contr.Idx) : (dot_S32x512_S512x128_S32x128_1_0_0_1_n_n.lhsIdx j k 1 : ℕ) = k ⟨0, by decide⟩ := by
  simp [DotDims.lhsIdx, dot_S32x512_S512x128_S32x128_1_0_0_1_n_n]; rfl
theorem rhs1_0 (j : S32x128.Idx) (k : dot_S32x512_S512x128_S32x128_1_0_0_1_n_n.contr.Idx) : (dot_S32x512_S512x128_S32x128_1_0_0_1_n_n.rhsIdx j k 0 : ℕ) = k ⟨0, by decide⟩ := by
  simp [DotDims.rhsIdx, dot_S32x512_S512x128_S32x128_1_0_0_1_n_n]; rfl
theorem rhs1_1 (j : S32x128.Idx) (k : dot_S32x512_S512x128_S32x128_1_0_0_1_n_n.contr.Idx) : (dot_S32x512_S512x128_S32x128_1_0_0_1_n_n.rhsIdx j k 1 : ℕ) = j 1 := by
  simp [DotDims.rhsIdx, dot_S32x512_S512x128_S32x128_1_0_0_1_n_n]; rfl

/-- The block product into a zero accumulator, read at row `p`, column `q`: the sum over the contracted axis. -/
theorem mm1 (A : FVec Ideal S32x512 .f32) (B : FVec Ideal S512x128 .f32) (p : Fin 32) (q : Fin 128) :
    matmul dot_S32x512_S512x128_S32x128_1_0_0_1_n_n none A B (constant S32x128 .f32 0x00000000#32) (ix2 p q)
      = ∑ k : Fin 512, A (ix2 p k) * B (ix2 k q) := by
  simp only [matmul]
  rw [Ideal.matmul_constant_zero_apply, ← Equiv.sum_comp (contrEquiv1 dot_S32x512_S512x128_S32x128_1_0_0_1_n_n 512 rfl rfl).symm]
  refine Finset.sum_congr rfl fun k _ => ?_
  have hk := contrEquiv1_symm_val dot_S32x512_S512x128_S32x128_1_0_0_1_n_n 512 rfl rfl k
  congr 2
  · funext a; apply Fin.ext
    match a with
    | ⟨0, _⟩ => exact lhs1_0 _ _
    | ⟨1, _⟩ => exact (lhs1_1 _ _).trans hk
  · funext a; apply Fin.ext
    match a with
    | ⟨0, _⟩ => exact (rhs1_0 _ _).trans hk
    | ⟨1, _⟩ => exact rhs1_1 _ _

theorem lhs2_0 (j : S128x128.Idx) (k : dot_S128x32_S32x128_S128x128_1_0_0_1_n_n.contr.Idx) : (dot_S128x32_S32x128_S128x128_1_0_0_1_n_n.lhsIdx j k 0 : ℕ) = j 0 := by
  simp [DotDims.lhsIdx, dot_S128x32_S32x128_S128x128_1_0_0_1_n_n]; rfl
theorem lhs2_1 (j : S128x128.Idx) (k : dot_S128x32_S32x128_S128x128_1_0_0_1_n_n.contr.Idx) : (dot_S128x32_S32x128_S128x128_1_0_0_1_n_n.lhsIdx j k 1 : ℕ) = k ⟨0, by decide⟩ := by
  simp [DotDims.lhsIdx, dot_S128x32_S32x128_S128x128_1_0_0_1_n_n]; rfl
theorem rhs2_0 (j : S128x128.Idx) (k : dot_S128x32_S32x128_S128x128_1_0_0_1_n_n.contr.Idx) : (dot_S128x32_S32x128_S128x128_1_0_0_1_n_n.rhsIdx j k 0 : ℕ) = k ⟨0, by decide⟩ := by
  simp [DotDims.rhsIdx, dot_S128x32_S32x128_S128x128_1_0_0_1_n_n]; rfl
theorem rhs2_1 (j : S128x128.Idx) (k : dot_S128x32_S32x128_S128x128_1_0_0_1_n_n.contr.Idx) : (dot_S128x32_S32x128_S128x128_1_0_0_1_n_n.rhsIdx j k 1 : ℕ) = j 1 := by
  simp [DotDims.rhsIdx, dot_S128x32_S32x128_S128x128_1_0_0_1_n_n]; rfl

/-- The block product into a zero accumulator, read at row `p`, column `q`: the sum over the contracted axis. -/
theorem mm2 (A : FVec Ideal S128x32 .f32) (B : FVec Ideal S32x128 .f32) (p : Fin 128) (q : Fin 128) :
    matmul dot_S128x32_S32x128_S128x128_1_0_0_1_n_n none A B (constant S128x128 .f32 0x00000000#32) (ix2 p q)
      = ∑ k : Fin 32, A (ix2 p k) * B (ix2 k q) := by
  simp only [matmul]
  rw [Ideal.matmul_constant_zero_apply, ← Equiv.sum_comp (contrEquiv1 dot_S128x32_S32x128_S128x128_1_0_0_1_n_n 32 rfl rfl).symm]
  refine Finset.sum_congr rfl fun k _ => ?_
  have hk := contrEquiv1_symm_val dot_S128x32_S32x128_S128x128_1_0_0_1_n_n 32 rfl rfl k
  congr 2
  · funext a; apply Fin.ext
    match a with
    | ⟨0, _⟩ => exact lhs2_0 _ _
    | ⟨1, _⟩ => exact (lhs2_1 _ _).trans hk
  · funext a; apply Fin.ext
    match a with
    | ⟨0, _⟩ => exact (rhs2_0 _ _).trans hk
    | ⟨1, _⟩ => exact rhs2_1 _ _

theorem lhs3_0 (j : S16x128.Idx) (k : dot_S16x128_S128x128_S16x128_1_0_0_1_n_n.contr.Idx) : (dot_S16x128_S128x128_S16x128_1_0_0_1_n_n.lhsIdx j k 0 : ℕ) = j 0 := by
  simp [DotDims.lhsIdx, dot_S16x128_S128x128_S16x128_1_0_0_1_n_n]; rfl
theorem lhs3_1 (j : S16x128.Idx) (k : dot_S16x128_S128x128_S16x128_1_0_0_1_n_n.contr.Idx) : (dot_S16x128_S128x128_S16x128_1_0_0_1_n_n.lhsIdx j k 1 : ℕ) = k ⟨0, by decide⟩ := by
  simp [DotDims.lhsIdx, dot_S16x128_S128x128_S16x128_1_0_0_1_n_n]; rfl
theorem rhs3_0 (j : S16x128.Idx) (k : dot_S16x128_S128x128_S16x128_1_0_0_1_n_n.contr.Idx) : (dot_S16x128_S128x128_S16x128_1_0_0_1_n_n.rhsIdx j k 0 : ℕ) = k ⟨0, by decide⟩ := by
  simp [DotDims.rhsIdx, dot_S16x128_S128x128_S16x128_1_0_0_1_n_n]; rfl
theorem rhs3_1 (j : S16x128.Idx) (k : dot_S16x128_S128x128_S16x128_1_0_0_1_n_n.contr.Idx) : (dot_S16x128_S128x128_S16x128_1_0_0_1_n_n.rhsIdx j k 1 : ℕ) = j 1 := by
  simp [DotDims.rhsIdx, dot_S16x128_S128x128_S16x128_1_0_0_1_n_n]; rfl

/-- The block product into a zero accumulator, read at row `p`, column `q`: the sum over the contracted axis. -/
theorem mm3 (A : FVec Ideal S16x128 .f32) (B : FVec Ideal S128x128 .f32) (p : Fin 16) (q : Fin 128) :
    matmul dot_S16x128_S128x128_S16x128_1_0_0_1_n_n none A B (constant S16x128 .f32 0x00000000#32) (ix2 p q)
      = ∑ k : Fin 128, A (ix2 p k) * B (ix2 k q) := by
  simp only [matmul]
  rw [Ideal.matmul_constant_zero_apply, ← Equiv.sum_comp (contrEquiv1 dot_S16x128_S128x128_S16x128_1_0_0_1_n_n 128 rfl rfl).symm]
  refine Finset.sum_congr rfl fun k _ => ?_
  have hk := contrEquiv1_symm_val dot_S16x128_S128x128_S16x128_1_0_0_1_n_n 128 rfl rfl k
  congr 2
  · funext a; apply Fin.ext
    match a with
    | ⟨0, _⟩ => exact lhs3_0 _ _
    | ⟨1, _⟩ => exact (lhs3_1 _ _).trans hk
  · funext a; apply Fin.ext
    match a with
    | ⟨0, _⟩ => exact (rhs3_0 _ _).trans hk
    | ⟨1, _⟩ => exact rhs3_1 _ _

/-- A column `[a, 1]` broadcast to `[a, b]` reads, at `(p, c)`, the column's entry `p`. -/
theorem bcol_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Layer 1 of the transposed network at unit `p`, column `q`: the rectified affine form of column `q` of the input. -/
theorem lay1 (A : FVec Ideal S32x512 .f32) (B : FVec Ideal S512x128 .f32) (b : FVec Ideal S32x1 .f32) (p : Fin 32) (q : Fin 128) :
    maximumf (addf (matmul dot_S32x512_S512x128_S32x128_1_0_0_1_n_n none (shapeCast S32x512 A shapeCasts_S32x512_S32x512 : FVec Ideal S32x512 .f32) B (constant S32x128 .f32 0x00000000#32))
        (broadcastTo S32x128 (shapeCast S32x1 b shapeCasts_S32x1_S32x1 : FVec Ideal S32x1 .f32) broadcasts_S32x1_S32x128))
      (broadcast S32x128 (Scalar.ofBits (F := Ideal) .f32 0x00000000#32)) (ix2 p q)
      = max ((∑ k : Fin 512, B (ix2 k q) * A (ix2 p k)) + b (ix2 p (0 : Fin 1))) 0 := by
  rw [maximumf_apply, addf_apply, mm1, shapeCast_self, shapeCast_self, bcol_apply, broadcast_apply]
  congr 1
  · congr 1
    exact Finset.sum_congr rfl fun k _ => mul_comm _ _
  · exact Ideal.ofBits_zero_f32

/-- Layer 2 of the transposed network at unit `p`, column `q`: the rectified affine form of column `q` of the input. -/
theorem lay2 (A : FVec Ideal S128x32 .f32) (B : FVec Ideal S32x128 .f32) (b : FVec Ideal S128x1 .f32) (p : Fin 128) (q : Fin 128) :
    maximumf (addf (matmul dot_S128x32_S32x128_S128x128_1_0_0_1_n_n none (shapeCast S128x32 A shapeCasts_S128x32_S128x32 : FVec Ideal S128x32 .f32) B (constant S128x128 .f32 0x00000000#32))
        (broadcastTo S128x128 (shapeCast S128x1 b shapeCasts_S128x1_S128x1 : FVec Ideal S128x1 .f32) broadcasts_S128x1_S128x128))
      (broadcast S128x128 (Scalar.ofBits (F := Ideal) .f32 0x00000000#32)) (ix2 p q)
      = max ((∑ k : Fin 32, B (ix2 k q) * A (ix2 p k)) + b (ix2 p (0 : Fin 1))) 0 := by
  rw [maximumf_apply, addf_apply, mm2, shapeCast_self, shapeCast_self, bcol_apply, broadcast_apply]
  congr 1
  · congr 1
    exact Finset.sum_congr rfl fun k _ => mul_comm _ _
  · exact Ideal.ofBits_zero_f32

/-- Layer 3 of the transposed network at unit `p`, column `q`: the rectified affine form of column `q` of the input. -/
theorem lay3 (A : FVec Ideal S16x128 .f32) (B : FVec Ideal S128x128 .f32) (b : FVec Ideal S16x1 .f32) (p : Fin 16) (q : Fin 128) :
    maximumf (addf (matmul dot_S16x128_S128x128_S16x128_1_0_0_1_n_n none (shapeCast S16x128 A shapeCasts_S16x128_S16x128 : FVec Ideal S16x128 .f32) B (constant S16x128 .f32 0x00000000#32))
        (broadcastTo S16x128 (shapeCast S16x1 b shapeCasts_S16x1_S16x1 : FVec Ideal S16x1 .f32) broadcasts_S16x1_S16x128))
      (broadcast S16x128 (Scalar.ofBits (F := Ideal) .f32 0x00000000#32)) (ix2 p q)
      = max ((∑ k : Fin 128, B (ix2 k q) * A (ix2 p k)) + b (ix2 p (0 : Fin 1))) 0 := by
  rw [maximumf_apply, addf_apply, mm3, shapeCast_self, shapeCast_self, bcol_apply, broadcast_apply]
  congr 1
  · congr 1
    exact Finset.sum_congr rfl fun k _ => mul_comm _ _
  · exact Ideal.ofBits_zero_f32

/-- The sum over the sixteen rows of a `[16, 128]` array, read at column `q`. -/
theorem red16 (src : FVec Ideal S16x128 .f32) (q : Fin 128) :
    multiReduction (F := Ideal) .add [0] S128 src 0x00000000#32 reduces_S16x128_S128 (.inl rfl) rfl (ix1 q)
      = ∑ j : Fin 16, src (ix2 j q) := by
  refine (Ideal.multiReduction_add_single src 0x00000000#32 reduces_S16x128_S128 (.inl rfl) rfl (ix1 q)).trans ?_
  refine Finset.sum_congr rfl fun j _ => congrArg src ?_
  funext a; match a with | ⟨0, _⟩ => rfl | ⟨1, _⟩ => rfl

/-! ## The body's stored value at a column -/

theorem hz : (![0, 0] : Fin 2 → Nat) = fun _ => 0 := funext fun a => by fin_cases a <;> rfl

/-- The first hidden layer of the body, as an array `[32, 128]` (units by columns). -/
def act1 (x0 : FVec Ideal S512x128 .f32) (x1 : FVec Ideal S32x512 .f32) (x2 : FVec Ideal S32x1 .f32) : FVec Ideal S32x128 .f32 :=
  maximumf (addf (matmul dot_S32x512_S512x128_S32x128_1_0_0_1_n_n none (shapeCast S32x512 x1 shapeCasts_S32x512_S32x512 : FVec Ideal S32x512 .f32)
        (shapeCast S512x128 x0 shapeCasts_S512x128_S512x128 : FVec Ideal S512x128 .f32) (constant S32x128 .f32 0x00000000#32))
      (broadcastTo S32x128 (shapeCast S32x1 x2 shapeCasts_S32x1_S32x1 : FVec Ideal S32x1 .f32) broadcasts_S32x1_S32x128))
    (broadcast S32x128 (Scalar.ofBits (F := Ideal) .f32 0x00000000#32))

/-- The second hidden layer, `[128, 128]`. -/
def act2 (h : FVec Ideal S32x128 .f32) (x3 : FVec Ideal S128x32 .f32) (x4 : FVec Ideal S128x1 .f32) : FVec Ideal S128x128 .f32 :=
  maximumf (addf (matmul dot_S128x32_S32x128_S128x128_1_0_0_1_n_n none (shapeCast S128x32 x3 shapeCasts_S128x32_S128x32 : FVec Ideal S128x32 .f32)
        h (constant S128x128 .f32 0x00000000#32))
      (broadcastTo S128x128 (shapeCast S128x1 x4 shapeCasts_S128x1_S128x1 : FVec Ideal S128x1 .f32) broadcasts_S128x1_S128x128))
    (broadcast S128x128 (Scalar.ofBits (F := Ideal) .f32 0x00000000#32))

/-- The third hidden layer, `[16, 128]`. -/
def act3 (h : FVec Ideal S128x128 .f32) (x5 : FVec Ideal S16x128 .f32) (x6 : FVec Ideal S16x1 .f32) : FVec Ideal S16x128 .f32 :=
  maximumf (addf (matmul dot_S16x128_S128x128_S16x128_1_0_0_1_n_n none (shapeCast S16x128 x5 shapeCasts_S16x128_S16x128 : FVec Ideal S16x128 .f32)
        h (constant S16x128 .f32 0x00000000#32))
      (broadcastTo S16x128 (shapeCast S16x1 x6 shapeCasts_S16x1_S16x1 : FVec Ideal S16x1 .f32) broadcasts_S16x1_S16x128))
    (broadcast S16x128 (Scalar.ofBits (F := Ideal) .f32 0x00000000#32))

/-- The body's stored value is the logistic function of the weighted row sum of the third layer plus the last bias. -/
theorem pay_eq (x0 : FVec Ideal S512x128 .f32) (x1 : FVec Ideal S32x512 .f32) (x2 : FVec Ideal S32x1 .f32)
    (x3 : FVec Ideal S128x32 .f32) (x4 : FVec Ideal S128x1 .f32) (x5 : FVec Ideal S16x128 .f32) (x6 : FVec Ideal S16x1 .f32)
    (x7 : FVec Ideal S16x1 .f32) (x8 : FVec Ideal S1x1 .f32) :
    k0_pay1 (F := Ideal) (k0_pay2 (F := Ideal) x0 x1 x2 x3 x4 x5 x6 x7) x8
      = logistic (addf (shapeCast S1x128 (multiReduction (F := Ideal) .add [0] S128
            (mulf (act3 (act2 (act1 x0 x1 x2) x3 x4) x5 x6) (broadcastTo S16x128 x7 broadcasts_S16x1_S16x128))
            0x00000000#32 reduces_S16x128_S128 (.inl rfl) rfl) shapeCasts_S128_S1x128)
          (broadcastTo S1x128 (shapeCast S1x1 x8 shapeCasts_S1x1_S1x1 : FVec Ideal S1x1 .f32) broadcasts_S1x1_S1x128)) := rfl

theorem act1_apply (x0 : FVec Ideal S512x128 .f32) (x1 : FVec Ideal S32x512 .f32) (x2 : FVec Ideal S32x1 .f32) (p : Fin 32) (q : Fin 128) :
    act1 x0 x1 x2 (ix2 p q)
      = Cert.Mlp.dense (fun r k => x0 (ix2 k r)) (fun k j => x1 (ix2 j k)) (fun j => x2 (ix2 j (0 : Fin 1))) q p := by
  unfold act1
  rw [lay1]
  simp only [shapeCast_self]
  rfl

theorem act2_apply (h : FVec Ideal S32x128 .f32) (x3 : FVec Ideal S128x32 .f32) (x4 : FVec Ideal S128x1 .f32) (p : Fin 128) (q : Fin 128) :
    act2 h x3 x4 (ix2 p q)
      = Cert.Mlp.dense (fun r k => h (ix2 k r)) (fun k j => x3 (ix2 j k)) (fun j => x4 (ix2 j (0 : Fin 1))) q p := by
  unfold act2
  rw [lay2]
  rfl

theorem act3_apply (h : FVec Ideal S128x128 .f32) (x5 : FVec Ideal S16x128 .f32) (x6 : FVec Ideal S16x1 .f32) (p : Fin 16) (q : Fin 128) :
    act3 h x5 x6 (ix2 p q)
      = Cert.Mlp.dense (fun r k => h (ix2 k r)) (fun k j => x5 (ix2 j k)) (fun j => x6 (ix2 j (0 : Fin 1))) q p := by
  unfold act3
  rw [lay3]
  rfl

/-- The body at a column: column `q` of the stored `[1, 128]` block is the network applied to column `q` of the
    input block, the weights read transposed. The products commute, so the transposed orientation changes nothing. -/
theorem out_apply (x0 : FVec Ideal S512x128 .f32) (x1 : FVec Ideal S32x512 .f32) (x2 : FVec Ideal S32x1 .f32)
    (x3 : FVec Ideal S128x32 .f32) (x4 : FVec Ideal S128x1 .f32) (x5 : FVec Ideal S16x128 .f32) (x6 : FVec Ideal S16x1 .f32)
    (x7 : FVec Ideal S16x1 .f32) (x8 : FVec Ideal S1x1 .f32) (q : Fin 128) :
    out0_9 (F := Ideal) x0 x1 x2 x3 x4 x5 x6 x7 x8 (ix2 (0 : Fin 1) q)
      = Cert.Mlp.mlp (fun r k => x0 (ix2 k r)) (fun k j => x1 (ix2 j k)) (fun j => x2 (ix2 j (0 : Fin 1)))
          (fun k j => x3 (ix2 j k)) (fun j => x4 (ix2 j (0 : Fin 1))) (fun k j => x5 (ix2 j k)) (fun j => x6 (ix2 j (0 : Fin 1)))
          (fun j => x7 (ix2 j (0 : Fin 1))) (x8 (ix2 (0 : Fin 1) (0 : Fin 1))) q := by
  unfold out0_9
  rw [View.canon_unit_zero hz]
  simp only [View.ld_unit_zero (S := S512x128) hz, View.ld_unit_zero (S := S32x512) hz, View.ld_unit_zero (S := S32x1) hz,
    View.ld_unit_zero (S := S128x32) hz, View.ld_unit_zero (S := S128x1) hz, View.ld_unit_zero (S := S16x128) hz,
    View.ld_unit_zero (S := S16x1) hz, View.ld_unit_zero (S := S1x1) hz]
  refine (congrFun (pay_eq x0 x1 x2 x3 x4 x5 x6 x7 x8) (ix2 (0 : Fin 1) q)).trans ?_
  show Ideal.logistic _ = Ideal.logistic _
  congr 1
  rw [addf_apply, shapeCast_a_1a_apply, red16, bcol_apply, shapeCast_self]
  unfold Cert.Mlp.logit
  congr 1
  refine Finset.sum_congr rfl fun j _ => ?_
  rw [mulf_apply, bcol_apply, act3_apply, mul_comm]
  congr 1
  have e2 : (fun (r : Fin 128) (k : Fin 128) => act2 (act1 x0 x1 x2) x3 x4 (ix2 k r))
      = Cert.Mlp.dense (Cert.Mlp.dense (fun r k => x0 (ix2 k r)) (fun k j => x1 (ix2 j k)) (fun j => x2 (ix2 j (0 : Fin 1))))
          (fun k j => x3 (ix2 j k)) (fun j => x4 (ix2 j (0 : Fin 1))) := by
    funext r k
    rw [act2_apply]
    congr 1
    funext r' k'
    exact act1_apply x0 x1 x2 k' r'
  rw [e2]

/-! ## A scatter that overwrites the whole array -/

/-- A fold of point updates, read where no update of the list lands: the start value. -/
theorem foldl_update_of_not_mem {ι α : Type} [DecidableEq ι] {N : ℕ} (g : Fin N → ι) (v : ι → α) :
    ∀ (l : List (Fin N)) (x : ι → α) (i' : ι), (∀ n ∈ l, g n ≠ i') →
      l.foldl (fun r n => fun i => if i = g n then v (g n) else r i) x i' = x i'
  | [], _, _, _ => rfl
  | n :: l, x, i', h => by
    rw [List.foldl_cons, foldl_update_of_not_mem g v l _ i' (fun m hm => h m (List.mem_cons_of_mem _ hm))]
    exact if_neg (fun e => h n List.mem_cons_self e.symm)

/-- A fold of point updates at pairwise distinct places, read where an update of the list lands: the update. -/
theorem foldl_update_of_mem {ι α : Type} [DecidableEq ι] {N : ℕ} (g : Fin N → ι) (hg : Function.Injective g) (v : ι → α) :
    ∀ (l : List (Fin N)) (x : ι → α), l.Nodup → ∀ n0 ∈ l,
      l.foldl (fun r n => fun i => if i = g n then v (g n) else r i) x (g n0) = v (g n0)
  | [], _, _, _, h => absurd h List.not_mem_nil
  | n :: l, x, hnd, n0, h => by
    rw [List.foldl_cons]
    rcases List.mem_cons.mp h with rfl | hm
    · rw [foldl_update_of_not_mem g v l _ (g n0) (fun m hm e => (List.nodup_cons.mp hnd).1 (hg e ▸ hm))]
      exact if_pos rfl
    · exact foldl_update_of_mem g hg v l _ (List.nodup_cons.mp hnd).2 n0 hm

/-- With no scattered axis and a window as large as the operand, every update position lands on itself. -/
theorem scatter_resultIdx (j : S512x32768.Idx) (idx : IVec S0 32) :
    scatter_S512x32768_S0_S512x32768_01_n_n_0.resultIdx? j idx = some j := by
  have hs : ∀ a, scatter_S512x32768_S0_S512x32768_01_n_n_0.start j idx a = 0 := fun a => by
    unfold ScatterDims.start
    exact dif_neg (by simp [scatter_S512x32768_S0_S512x32768_01_n_n_0])
  have hw : ∀ a, scatter_S512x32768_S0_S512x32768_01_n_n_0.window j a = (j a).val := fun a => by
    match a with
    | ⟨0, _⟩ => simp [ScatterDims.window, scatter_S512x32768_S0_S512x32768_01_n_n_0, Shape.kept]; rfl
    | ⟨1, _⟩ => simp [ScatterDims.window, scatter_S512x32768_S0_S512x32768_01_n_n_0, Shape.kept]; rfl
  unfold ScatterDims.resultIdx?
  rw [dif_pos (fun a => by rw [hs, hw]; exact ⟨by omega, by have := (j a).isLt; omega⟩)]
  congr 1
  funext a; apply Fin.ext
  show (scatter_S512x32768_S0_S512x32768_01_n_n_0.start j idx a + scatter_S512x32768_S0_S512x32768_01_n_n_0.window j a).toNat = (j a).val
  rw [hs, hw]; omega

/-- The scatter of a full-size update into an array of the same shape, with the body that returns the update:
    the update array. -/
theorem scatter_full (x : S512x32768.Idx → EReal) (idx : IVec S0 32) (upd : S512x32768.Idx → EReal) :
    Host.scatter scatter_S512x32768_S0_S512x32768_01_n_n_0 (fun _ b => b) x idx upd = upd := by
  unfold Host.scatter
  simp only [scatter_resultIdx]
  funext i'
  have h := foldl_update_of_mem (fun n => S512x32768.rowMajor.symm n) S512x32768.rowMajor.symm.injective upd
    (List.finRange S512x32768.numel) x (List.nodup_finRange _) (S512x32768.rowMajor i') (List.mem_finRange _)
  simp only [Equiv.symm_apply_apply] at h
  exact h

/-! ## The arrays the region finds -/

variable (m : (ℓ : Loc nD τ sig) → Buf (Elt Ideal) ℓ) (ρ : Dev nD → PrngReg)

/-- The region's first array is the transpose of the batch: the zero array is overwritten whole. -/
theorem V_w0 (c : Dev nD) : (V m c (Pipeline.arrRef spec0 (0 : Fin cfg0.W)) : S512x32768.Idx → EReal)
    = transpose S512x32768 [1, 0] (m ((c : Thread nD τ).loc main_arg0) : S32768x512.Idx → EReal) transposes_S32768x512_S512x32768_1_0 := by
  show StableHlo.after hostOps0 (fun b => m (c, b)) (Proc.devRef .tc main_call0_v2) = _
  after_results
  dsimp only
  rw [scatter_full]
  rfl

/-- Window 1's array is the transpose of an argument. -/
theorem V_w1 (c : Dev nD) : (V m c (Pipeline.arrRef spec0 (1 : Fin cfg0.W)) : S32x512.Idx → EReal)
    = transpose S32x512 [1, 0] (m ((c : Thread nD τ).loc main_arg1) : S512x32.Idx → EReal) transposes_S512x32_S32x512_1_0 := by
  show StableHlo.after hostOps0 (fun b => m (c, b)) (Proc.devRef .tc main_call0_v3) = _
  after_results
  rfl

/-- Window 2's array is the transpose of an argument. -/
theorem V_w2 (c : Dev nD) : (V m c (Pipeline.arrRef spec0 (2 : Fin cfg0.W)) : S32x1.Idx → EReal)
    = transpose S32x1 [1, 0] (m ((c : Thread nD τ).loc main_arg2) : S1x32.Idx → EReal) transposes_S1x32_S32x1_1_0 := by
  show StableHlo.after hostOps0 (fun b => m (c, b)) (Proc.devRef .tc main_call0_v6) = _
  after_results
  rfl

/-- Window 3's array is the transpose of an argument. -/
theorem V_w3 (c : Dev nD) : (V m c (Pipeline.arrRef spec0 (3 : Fin cfg0.W)) : S128x32.Idx → EReal)
    = transpose S128x32 [1, 0] (m ((c : Thread nD τ).loc main_arg3) : S32x128.Idx → EReal) transposes_S32x128_S128x32_1_0 := by
  show StableHlo.after hostOps0 (fun b => m (c, b)) (Proc.devRef .tc main_call0_v4) = _
  after_results
  rfl

/-- Window 4's array is the transpose of an argument. -/
theorem V_w4 (c : Dev nD) : (V m c (Pipeline.arrRef spec0 (4 : Fin cfg0.W)) : S128x1.Idx → EReal)
    = transpose S128x1 [1, 0] (m ((c : Thread nD τ).loc main_arg4) : S1x128.Idx → EReal) transposes_S1x128_S128x1_1_0 := by
  show StableHlo.after hostOps0 (fun b => m (c, b)) (Proc.devRef .tc main_call0_v7) = _
  after_results
  rfl

/-- Window 5's array is the transpose of an argument. -/
theorem V_w5 (c : Dev nD) : (V m c (Pipeline.arrRef spec0 (5 : Fin cfg0.W)) : S16x128.Idx → EReal)
    = transpose S16x128 [1, 0] (m ((c : Thread nD τ).loc main_arg5) : S128x16.Idx → EReal) transposes_S128x16_S16x128_1_0 := by
  show StableHlo.after hostOps0 (fun b => m (c, b)) (Proc.devRef .tc main_call0_v5) = _
  after_results
  rfl

/-- Window 6's array is the transpose of an argument. -/
theorem V_w6 (c : Dev nD) : (V m c (Pipeline.arrRef spec0 (6 : Fin cfg0.W)) : S16x1.Idx → EReal)
    = transpose S16x1 [1, 0] (m ((c : Thread nD τ).loc main_arg6) : S1x16.Idx → EReal) transposes_S1x16_S16x1_1_0 := by
  show StableHlo.after hostOps0 (fun b => m (c, b)) (Proc.devRef .tc main_call0_v8) = _
  after_results
  rfl

/-- Window 7's array is an argument, untouched. -/
theorem V_w7 (c : Dev nD) : (V m c (Pipeline.arrRef spec0 (7 : Fin cfg0.W)) : S16x1.Idx → EReal)
    = (m ((c : Thread nD τ).loc main_arg7) : S16x1.Idx → EReal) := by
  show StableHlo.after hostOps0 (fun b => m (c, b)) (Proc.devRef .tc main_arg7) = _
  after_results

/-- Window 8's array is the transpose of an argument. -/
theorem V_w8 (c : Dev nD) : (V m c (Pipeline.arrRef spec0 (8 : Fin cfg0.W)) : S1x1.Idx → EReal)
    = transpose S1x1 [1, 0] (m ((c : Thread nD τ).loc main_arg8) : S1x1.Idx → EReal) transposes_S1x1_S1x1_1_0 := by
  show StableHlo.after hostOps0 (fun b => m (c, b)) (Proc.devRef .tc main_call0_v9) = _
  after_results
  rfl

/-! ## The blocks the body reads -/

/-- The batch window moves along the columns with the point; the output window likewise; the others stay. -/
theorem idx_w0 : ∀ t : Fin cfg0.N, win0_0.index t (0 : Fin 2) = 0 ∧ win0_0.index t (1 : Fin 2) = t.val :=
  (by decide +kernel : ∀ t : Fin grid0.N, _)
theorem idx_w9 : ∀ t : Fin cfg0.N, win0_9.index t (0 : Fin 2) = 0 ∧ win0_9.index t (1 : Fin 2) = t.val :=
  (by decide +kernel : ∀ t : Fin grid0.N, _)
theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)
theorem idx_w5 : ∀ t : Fin cfg0.N, win0_5.index t (0 : Fin 2) = 0 ∧ win0_5.index t (1 : Fin 2) = 0 :=
  (by decide +kernel : ∀ t : Fin grid0.N, _)
theorem idx_w6 : ∀ t : Fin cfg0.N, win0_6.index t (0 : Fin 2) = 0 ∧ win0_6.index t (1 : Fin 2) = 0 :=
  (by decide +kernel : ∀ t : Fin grid0.N, _)
theorem idx_w7 : ∀ t : Fin cfg0.N, win0_7.index t (0 : Fin 2) = 0 ∧ win0_7.index t (1 : Fin 2) = 0 :=
  (by decide +kernel : ∀ t : Fin grid0.N, _)
theorem idx_w8 : ∀ t : Fin cfg0.N, win0_8.index t (0 : Fin 2) = 0 ∧ win0_8.index t (1 : Fin 2) = 0 :=
  (by decide +kernel : ∀ t : Fin grid0.N, _)

/-- The batch row that column `q` of point `t`'s block holds. -/
def col (t : Fin cfg0.N) (q : Fin 128) : Fin 32768 :=
  ⟨128 * t.val + q.val, by have h : t.val < 256 := lt_of_lt_of_eq t.isLt N_0; have := q.isLt; omega⟩

/-- Point `t`'s block of the transposed batch: feature `k` of batch row `128 t + q`. -/
theorem iblk0_apply (c : Dev nD) (t : Fin cfg0.N) (k : Fin 512) (q : Fin 128) :
    (iblk m c 0 t : FVec Ideal S512x128 .f32) (ix2 k q)
      = (m ((c : Thread nD τ).loc main_arg0) : S32768x512.Idx → EReal) (ix2 (col t q) k) := by
  unfold iblk
  rw [View.read_apply]
  have he : ((cfg0.win 0).blk t).view.emb (ix2 k q) = (ix2 k (col t q) : S512x32768.Idx) := by
    funext a; apply Fin.ext
    match a with
    | ⟨0, _⟩ => show win0_0.index t (0 : Fin 2) * 512 + 1 * k.val = k.val; rw [(idx_w0 t).1]; omega
    | ⟨1, _⟩ => show win0_0.index t (1 : Fin 2) * 128 + 1 * q.val = 128 * t.val + q.val; rw [(idx_w0 t).2]; omega
  rw [he, cast_eq]
  have h1 := congrFun (V_w0 m c) (ix2 k (col t q))
  rw [transpose_ix2_apply] at h1
  exact h1

/-- A resident block is its whole array, the transpose of an argument. -/
theorem iblk1_apply (c : Dev nD) (t : Fin cfg0.N) (i : Fin 32) (j : Fin 512) :
    (iblk m c 1 t : FVec Ideal S32x512 .f32) (ix2 i j)
      = (m ((c : Thread nD τ).loc main_arg1) : S512x32.Idx → EReal) (ix2 j i) := by
  unfold iblk
  rw [View.read_apply]
  have he : ((cfg0.win 1).blk t).view.emb (ix2 i j) = (ix2 i j : S32x512.Idx) := by
    funext a; apply Fin.ext
    match a with
    | ⟨0, _⟩ => show win0_1.index t (0 : Fin 2) * 32 + 1 * i.val = i.val; rw [(idx_w1 t).1]; omega
    | ⟨1, _⟩ => show win0_1.index t (1 : Fin 2) * 512 + 1 * j.val = j.val; rw [(idx_w1 t).2]; omega
  rw [he, cast_eq]
  have h1 := congrFun (V_w1 m c) (ix2 i j)
  rw [transpose_ix2_apply] at h1
  exact h1

/-- A resident block is its whole array, the transpose of an argument. -/
theorem iblk2_apply (c : Dev nD) (t : Fin cfg0.N) (i : Fin 32) (j : Fin 1) :
    (iblk m c 2 t : FVec Ideal S32x1 .f32) (ix2 i j)
      = (m ((c : Thread nD τ).loc main_arg2) : S1x32.Idx → EReal) (ix2 j i) := by
  unfold iblk
  rw [View.read_apply]
  have he : ((cfg0.win 2).blk t).view.emb (ix2 i j) = (ix2 i j : S32x1.Idx) := by
    funext a; apply Fin.ext
    match a with
    | ⟨0, _⟩ => show win0_2.index t (0 : Fin 2) * 32 + 1 * i.val = i.val; rw [(idx_w2 t).1]; omega
    | ⟨1, _⟩ => show win0_2.index t (1 : Fin 2) * 1 + 1 * j.val = j.val; rw [(idx_w2 t).2]; omega
  rw [he, cast_eq]
  have h1 := congrFun (V_w2 m c) (ix2 i j)
  rw [transpose_ix2_apply] at h1
  exact h1

/-- A resident block is its whole array, the transpose of an argument. -/
theorem iblk3_apply (c : Dev nD) (t : Fin cfg0.N) (i : Fin 128) (j : Fin 32) :
    (iblk m c 3 t : FVec Ideal S128x32 .f32) (ix2 i j)
      = (m ((c : Thread nD τ).loc main_arg3) : S32x128.Idx → EReal) (ix2 j i) := by
  unfold iblk
  rw [View.read_apply]
  have he : ((cfg0.win 3).blk t).view.emb (ix2 i j) = (ix2 i j : S128x32.Idx) := by
    funext a; apply Fin.ext
    match a with
    | ⟨0, _⟩ => show win0_3.index t (0 : Fin 2) * 128 + 1 * i.val = i.val; rw [(idx_w3 t).1]; omega
    | ⟨1, _⟩ => show win0_3.index t (1 : Fin 2) * 32 + 1 * j.val = j.val; rw [(idx_w3 t).2]; omega
  rw [he, cast_eq]
  have h1 := congrFun (V_w3 m c) (ix2 i j)
  rw [transpose_ix2_apply] at h1
  exact h1

/-- A resident block is its whole array, the transpose of an argument. -/
theorem iblk4_apply (c : Dev nD) (t : Fin cfg0.N) (i : Fin 128) (j : Fin 1) :
    (iblk m c 4 t : FVec Ideal S128x1 .f32) (ix2 i j)
      = (m ((c : Thread nD τ).loc main_arg4) : S1x128.Idx → EReal) (ix2 j i) := by
  unfold iblk
  rw [View.read_apply]
  have he : ((cfg0.win 4).blk t).view.emb (ix2 i j) = (ix2 i j : S128x1.Idx) := by
    funext a; apply Fin.ext
    match a with
    | ⟨0, _⟩ => show win0_4.index t (0 : Fin 2) * 128 + 1 * i.val = i.val; rw [(idx_w4 t).1]; omega
    | ⟨1, _⟩ => show win0_4.index t (1 : Fin 2) * 1 + 1 * j.val = j.val; rw [(idx_w4 t).2]; omega
  rw [he, cast_eq]
  have h1 := congrFun (V_w4 m c) (ix2 i j)
  rw [transpose_ix2_apply] at h1
  exact h1

/-- A resident block is its whole array, the transpose of an argument. -/
theorem iblk5_apply (c : Dev nD) (t : Fin cfg0.N) (i : Fin 16) (j : Fin 128) :
    (iblk m c 5 t : FVec Ideal S16x128 .f32) (ix2 i j)
      = (m ((c : Thread nD τ).loc main_arg5) : S128x16.Idx → EReal) (ix2 j i) := by
  unfold iblk
  rw [View.read_apply]
  have he : ((cfg0.win 5).blk t).view.emb (ix2 i j) = (ix2 i j : S16x128.Idx) := by
    funext a; apply Fin.ext
    match a with
    | ⟨0, _⟩ => show win0_5.index t (0 : Fin 2) * 16 + 1 * i.val = i.val; rw [(idx_w5 t).1]; omega
    | ⟨1, _⟩ => show win0_5.index t (1 : Fin 2) * 128 + 1 * j.val = j.val; rw [(idx_w5 t).2]; omega
  rw [he, cast_eq]
  have h1 := congrFun (V_w5 m c) (ix2 i j)
  rw [transpose_ix2_apply] at h1
  exact h1

/-- A resident block is its whole array, the transpose of an argument. -/
theorem iblk6_apply (c : Dev nD) (t : Fin cfg0.N) (i : Fin 16) (j : Fin 1) :
    (iblk m c 6 t : FVec Ideal S16x1 .f32) (ix2 i j)
      = (m ((c : Thread nD τ).loc main_arg6) : S1x16.Idx → EReal) (ix2 j i) := by
  unfold iblk
  rw [View.read_apply]
  have he : ((cfg0.win 6).blk t).view.emb (ix2 i j) = (ix2 i j : S16x1.Idx) := by
    funext a; apply Fin.ext
    match a with
    | ⟨0, _⟩ => show win0_6.index t (0 : Fin 2) * 16 + 1 * i.val = i.val; rw [(idx_w6 t).1]; omega
    | ⟨1, _⟩ => show win0_6.index t (1 : Fin 2) * 1 + 1 * j.val = j.val; rw [(idx_w6 t).2]; omega
  rw [he, cast_eq]
  have h1 := congrFun (V_w6 m c) (ix2 i j)
  rw [transpose_ix2_apply] at h1
  exact h1

/-- A resident block is its whole array. -/
theorem iblk7_apply (c : Dev nD) (t : Fin cfg0.N) (i : Fin 16) (j : Fin 1) :
    (iblk m c 7 t : FVec Ideal S16x1 .f32) (ix2 i j)
      = (m ((c : Thread nD τ).loc main_arg7) : S16x1.Idx → EReal) (ix2 i j) := by
  unfold iblk
  rw [View.read_apply]
  have he : ((cfg0.win 7).blk t).view.emb (ix2 i j) = (ix2 i j : S16x1.Idx) := by
    funext a; apply Fin.ext
    match a with
    | ⟨0, _⟩ => show win0_7.index t (0 : Fin 2) * 16 + 1 * i.val = i.val; rw [(idx_w7 t).1]; omega
    | ⟨1, _⟩ => show win0_7.index t (1 : Fin 2) * 1 + 1 * j.val = j.val; rw [(idx_w7 t).2]; omega
  rw [he, cast_eq]
  have h1 := congrFun (V_w7 m c) (ix2 i j)
  exact h1

/-- A resident block is its whole array, the transpose of an argument. -/
theorem iblk8_apply (c : Dev nD) (t : Fin cfg0.N) (i : Fin 1) (j : Fin 1) :
    (iblk m c 8 t : FVec Ideal S1x1 .f32) (ix2 i j)
      = (m ((c : Thread nD τ).loc main_arg8) : S1x1.Idx → EReal) (ix2 j i) := by
  unfold iblk
  rw [View.read_apply]
  have he : ((cfg0.win 8).blk t).view.emb (ix2 i j) = (ix2 i j : S1x1.Idx) := by
    funext a; apply Fin.ext
    match a with
    | ⟨0, _⟩ => show win0_8.index t (0 : Fin 2) * 1 + 1 * i.val = i.val; rw [(idx_w8 t).1]; omega
    | ⟨1, _⟩ => show win0_8.index t (1 : Fin 2) * 1 + 1 * j.val = j.val; rw [(idx_w8 t).2]; omega
  rw [he, cast_eq]
  have h1 := congrFun (V_w8 m c) (ix2 i j)
  rw [transpose_ix2_apply] at h1
  exact h1

/-! ## From the blocks to the array, and the run -/

/-- The network on row `r` of the batch as launched, the nine arguments read as launched. -/
def rowOut (c : Dev nD) (r : Fin 32768) : EReal :=
  Cert.Mlp.mlp (fun r k => ((m ((c : Thread nD τ).loc main_arg0)) : S32768x512.Idx → EReal) (ix2 r k))
    (fun k j => ((m ((c : Thread nD τ).loc main_arg1)) : S512x32.Idx → EReal) (ix2 k j)) (fun j => ((m ((c : Thread nD τ).loc main_arg2)) : S1x32.Idx → EReal) (ix2 (0 : Fin 1) j))
    (fun k j => ((m ((c : Thread nD τ).loc main_arg3)) : S32x128.Idx → EReal) (ix2 k j)) (fun j => ((m ((c : Thread nD τ).loc main_arg4)) : S1x128.Idx → EReal) (ix2 (0 : Fin 1) j))
    (fun k j => ((m ((c : Thread nD τ).loc main_arg5)) : S128x16.Idx → EReal) (ix2 k j)) (fun j => ((m ((c : Thread nD τ).loc main_arg6)) : S1x16.Idx → EReal) (ix2 (0 : Fin 1) j))
    (fun j => ((m ((c : Thread nD τ).loc main_arg7)) : S16x1.Idx → EReal) (ix2 j (0 : Fin 1))) (((m ((c : Thread nD τ).loc main_arg8)) : S1x1.Idx → EReal) (ix2 (0 : Fin 1) (0 : Fin 1))) r

/-- The `[1, 32768]` array the region fills: the network's output on batch row `j` at column `j`. -/
def outRow (c : Dev nD) : S1x32768.Idx → EReal := fun j => rowOut m c (j 1)

/-- What point `t` stores at column `q` of its block: the network on batch row `128 t + q`. A row's output
    depends on that row alone, so the block of 128 columns is computed as a batch of its own. -/
theorem block_value (c : Dev nD) (t : Fin cfg0.N) (q : Fin 128) :
    out0_9 (F := Ideal) (iblk m c 0 t) (iblk m c 1 t) (iblk m c 2 t) (iblk m c 3 t) (iblk m c 4 t) (iblk m c 5 t) (iblk m c 6 t)
        (iblk m c 7 t) (iblk m c 8 t) (ix2 (0 : Fin 1) q) = rowOut m c (col t q) := by
  refine (out_apply (iblk m c 0 t) (iblk m c 1 t) (iblk m c 2 t) (iblk m c 3 t) (iblk m c 4 t) (iblk m c 5 t) (iblk m c 6 t)
    (iblk m c 7 t) (iblk m c 8 t) q).trans ?_
  simp only [iblk0_apply, iblk1_apply, iblk2_apply, iblk3_apply, iblk4_apply, iblk5_apply, iblk6_apply, iblk7_apply, iblk8_apply]
  unfold rowOut
  exact Cert.Mlp.mlp_rows (col t) (fun r k => ((m ((c : Thread nD τ).loc main_arg0)) : S32768x512.Idx → EReal) (ix2 r k))
    (fun k j => ((m ((c : Thread nD τ).loc main_arg1)) : S512x32.Idx → EReal) (ix2 k j)) (fun j => ((m ((c : Thread nD τ).loc main_arg2)) : S1x32.Idx → EReal) (ix2 (0 : Fin 1) j))
    (fun k j => ((m ((c : Thread nD τ).loc main_arg3)) : S32x128.Idx → EReal) (ix2 k j)) (fun j => ((m ((c : Thread nD τ).loc main_arg4)) : S1x128.Idx → EReal) (ix2 (0 : Fin 1) j))
    (fun k j => ((m ((c : Thread nD τ).loc main_arg5)) : S128x16.Idx → EReal) (ix2 k j)) (fun j => ((m ((c : Thread nD τ).loc main_arg6)) : S1x16.Idx → EReal) (ix2 (0 : Fin 1) j))
    (fun j => ((m ((c : Thread nD τ).loc main_arg7)) : S16x1.Idx → EReal) (ix2 j (0 : Fin 1))) (((m ((c : Thread nD τ).loc main_arg8)) : S1x1.Idx → EReal) (ix2 (0 : Fin 1) (0 : Fin 1))) q

/-- What point `t` writes back is block `t` of the output row. -/
theorem flushed_eq (c : Dev nD) (t : Fin cfg0.N) :
    (dats m 0 c).flushed 9 t = ((cfg0.win 9).blk t).view.read (Elt Ideal) (outRow m c) := by
  show (cfg0.win 9).cut (grid0.coords t) ((dats m 0 c).after 9 t) = _
  rw [after0_9]
  have key : ∀ y : S1x128.Idx, out0_9 (F := Ideal) (iblk m c 0 t) (iblk m c 1 t) (iblk m c 2 t) (iblk m c 3 t) (iblk m c 4 t) (iblk m c 5 t)
      (iblk m c 6 t) (iblk m c 7 t) (iblk m c 8 t) y = outRow m c (((cfg0.win 9).blk t).view.emb y) := by
    intro y
    obtain ⟨u, q, rfl⟩ : ∃ (u : Fin 1) (q : Fin 128), y = ix2 u q := ⟨y 0, y 1, eq_ix2 y⟩
    obtain rfl : u = 0 := Subsingleton.elim _ _
    rw [block_value]
    unfold outRow
    congr 1
    apply Fin.ext
    show 128 * t.val + q.val = win0_9.index t (1 : Fin 2) * 128 + 1 * q.val
    rw [(idx_w9 t).2]; omega
  funext y
  exact key y

/-- An index of the output row is in point `t`'s block iff each coordinate is in the block's range on its axis. -/
theorem mem_blk (t : Fin cfg0.N) (i : S1x32768.Idx) :
    i ∈ ((cfg0.win 9).blk t).view.set ↔ ∀ a : Fin 2, win0_9.index t a * S1x128.size a ≤ (i a).val ∧ (i a).val < win0_9.index t a * S1x128.size a + S1x128.size a := by
  show i ∈ ((View.whole main_call0_v10).slice (win0_9.rect t)).set ↔ _
  rw [View.set_slice_whole, Rect.mem_set_unit]
  exact Iff.rfl

/-- Column `j` lies in the block of point `j / 128`. -/
theorem cover (i : S1x32768.Idx) : ∃ t : Fin cfg0.N, (cfg0.win 9).flush t = true ∧ i ∈ ((cfg0.win 9).blk t).view.set := by
  have hi0 : (i 0).val < 1 := (i 0).isLt
  have hi1 : (i 1).val < 32768 := (i 1).isLt
  have hN : cfg0.N = 256 := N_0
  let t : Fin cfg0.N := ⟨(i 1).val / 128, by rw [hN]; omega⟩
  refine ⟨t, flush0_9 t, ?_⟩
  rw [mem_blk]
  have ht : t.val = (i 1).val / 128 := rfl
  intro a
  match a with
  | ⟨0, _⟩ => show win0_9.index t (0 : Fin 2) * 1 ≤ (i 0).val ∧ (i 0).val < win0_9.index t (0 : Fin 2) * 1 + 1; rw [(idx_w9 t).1]; omega
  | ⟨1, _⟩ => show win0_9.index t (1 : Fin 2) * 128 ≤ (i 1).val ∧ (i 1).val < win0_9.index t (1 : Fin 2) * 128 + 128; rw [(idx_w9 t).2, ht]; omega

/-- The array after the region is the output row. -/
theorem final (c : Dev nD) : (dats m 0 c).arrAt 9 cfg0.N = outRow m c :=
  (dats m 0 c).arrAt_eq_of_cover 9 (outRow m c) (fun t _ => flushed_eq m c t) (cover)

/-- A vector `[a]` reshaped to a column `[a, 1]` reads, at `(i, u)`, the vector's entry `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The result buffer after the two reshapes that follow the region: the network's output, row by row. -/
theorem tail_value (c : Dev nD) :
    (Pipeline.afterTail₀ cfgs (dats m) 0 (V0 m) [hostOps1] c main_v0 : S32768x1.Idx → EReal)
      = Cert.Mlp.result (m ((c : Thread nD τ).loc main_arg0)) (m ((c : Thread nD τ).loc main_arg1)) (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (m ((c : Thread nD τ).loc main_arg8)) := by
  unfold Pipeline.afterTail₀
  show StableHlo.after hostOps1 _ (Proc.devRef .tc main_v0) = _
  after_results
  have hw : Pipeline.withArrays spec0 c (V0 m c) (fun w => (dats m 0 c).arrAt w cfg0.N) (Proc.devRef .tc main_call0_v10) = outRow m c :=
    (Pipeline.withArrays_arr spec0 launch0.win.arr_inj c _ _ 9).trans (final m c)
  funext i
  obtain ⟨r, u, rfl⟩ : ∃ (r : Fin 32768) (u : Fin 1), i = ix2 r u := ⟨i 0, i 1, eq_ix2 i⟩
  show shapeCast S32768x1 (shapeCast S32768 (Pipeline.withArrays spec0 c (V0 m c) (fun w => (dats m 0 c).arrAt w cfg0.N) (Proc.devRef .tc main_call0_v10) : S1x32768.Idx → EReal)
      shapeCasts_S1x32768_S32768) shapeCasts_S32768_S32768x1 (ix2 r u) = _
  rw [hw, shapeCast_a_a1_apply, shapeCast_1a_a_apply]
  rfl

/-- The reference's run: every weakly fair execution ends with the result buffer holding the network's output on
    every batch row, and the nine argument arrays as launched. -/
theorem run : θ_run (defs (F := Ideal)) (onTc (τ := τ) (main (F := Ideal))) ⟨m, fun _ => 0, ρ⟩ (fun r => ∀ c : Dev nD,
      r.2.mem ((c.tc : Thread nD τ).loc main_v0) = Cert.Mlp.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v0 (Pipeline.mem_restRefs_of main_v0 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c)⟩) (run_main m ρ)

end Cert.ReferenceIdeal.RefValue

end
-- ==== Proof.lean ====
/-
  The kernel is a four-layer perceptron with a logistic output, fused into one grid of four tiles of 8192 batch
  rows; the reference computes the same network in the transposed orientation, 128 batch columns at a time. At the
  ideal instance both end with the array `Cert.Mlp.result` of their arguments: every row's output is
  `logistic (∑ⱼ w₄ j · h₃ j + b₄)` with `hₖ = max (hₖ₋₁ · wₖ + bₖ) 0`. The kernel's first layer is two contractions
  over 256 columns added (a sum over 512 split in halves), its last layer a product with the weight on the left, the
  reference's products carry the weights on the left and its last layer is a column sum: commutativity and
  associativity of `+` and `·` on the extended reals join them, so the precondition is never opened.
  The kernel reads the batch array through two windows (its left and right column halves); each window holds half of
  the array's share during the region, and the halves are joined again before the reshapes that follow it.
-/
import proofs.«110689_g2000103882058017_pallasbulk_729_24_alg».proof.Defs
import proofs.«110689_g2000103882058017_pallasbulk_729_24_alg».proof.Proof.Gen.Kernel
import proofs.«110689_g2000103882058017_pallasbulk_729_24_alg».proof.Proof.Gen.KernelIdeal
import proofs.«110689_g2000103882058017_pallasbulk_729_24_alg».proof.Proof.Gen.ReferenceIdeal
import proofs.«110689_g2000103882058017_pallasbulk_729_24_alg».proof.Proof.Gen.ReferenceIdeal.Frame
import proofs.«110689_g2000103882058017_pallasbulk_729_24_alg».proof.Proof.Gen.Pre_finite_inputs
import proofs.«110689_g2000103882058017_pallasbulk_729_24_alg».proof.Proof.Spec
import proofs.«110689_g2000103882058017_pallasbulk_729_24_alg».proof.Proof.KLaunch
import proofs.«110689_g2000103882058017_pallasbulk_729_24_alg».proof.Proof.KILaunch
import proofs.«110689_g2000103882058017_pallasbulk_729_24_alg».proof.Proof.KIValue
import proofs.«110689_g2000103882058017_pallasbulk_729_24_alg».proof.Proof.RefValue
import Idealize.ShloMosaic.Adequacy
import Idealize.ShloMosaic.Init

noncomputable section

namespace Cert.Proof

open Idealize.ShloMosaic Idealize.SL.Sem

/-- The word-level kernel runs and leaves its arguments as launched: the run's post read at the argument arrays. -/
theorem frame_k : Cert.frame_Kernel := fun m ρ _ =>
  (θ_run Cert.Kernel.defs _ _).mono (fun _ h c => Cert.Kernel.Hand.args_of_post m h c) (Cert.Kernel.Hand.run_main (F := Bits) m ρ)

/-- The idealized kernel likewise. -/
theorem frame_ki : Cert.frame_KernelIdeal := fun m ρ _ =>
  (θ_run Cert.KernelIdeal.defs _ _).mono (fun _ h c => Cert.KernelIdeal.Hand.args_of_post m h c) (Cert.KernelIdeal.Hand.run_main (F := Ideal) m ρ)

/-- The reference's frame. -/
theorem frame_ri : Cert.frame_ReferenceIdeal := fun m ρ _ => Cert.ReferenceIdeal.Gen.frame m ρ

/-- The ideal pass rewrote nothing: there is nothing to preserve. -/
theorem preserves : Cert.preserves_Kernel_KernelIdeal := trivial

/-- Both idealized programs end with the network's output `Cert.Mlp.result` of their arguments, which agree. -/
theorem algebraic : Cert.algebraic_KernelIdeal_ReferenceIdeal := by
  intro m ρ m' ρ' _ hagree
  refine ⟨fun c => Cert.Mlp.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun _ h c => ⟨Cert.KernelIdeal.KValue.value_of_post m h c, Cert.KernelIdeal.Hand.args_of_post m h c⟩)
      (Cert.KernelIdeal.Hand.run_main (F := Ideal) m ρ)
  · refine (θ_run Cert.ReferenceIdeal.defs _ _).mono (fun _ h c => ⟨(h c).1.trans ?_, (h c).2⟩)
      (Cert.ReferenceIdeal.RefValue.run m' ρ')
    obtain ⟨e0, e1, e2, e3, e4, e5, e6, e7, e8⟩ := hagree c
    rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
